-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "inv_1000000000000000000000000000000" .f32 0x0DA24260#32 ((1 / 1000000000000000000000000000000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S8x1024 : Shape := ⟨2, ![8, 1024]⟩
abbrev S1024x1024 : Shape := ⟨2, ![1024, 1024]⟩
abbrev S1024 : Shape := ⟨1, ![1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg7 : FVec F S1024 .f32) (main_arg8 : FVec F S1024x1024 .f32) (main_arg9 : FVec F S1024 .f32) (main_arg10 : FVec F S1024 .f32) (main_arg11 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_v48 main_v49 main_v50

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024 .f32) (main_arg11 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8x1024x1024 .f32) (main_arg1 : FVec F S8x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024 .f32) (main_arg11 : FVec F S1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_v13 main_v16
-- ==== Kernel.lean ====
abbrev S8x1024x1024 : Shape := ⟨3, ![8, 1024, 1024]⟩
abbrev S8x1024 : Shape := ⟨2, ![8, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S8x1x1024 : Shape := ⟨3, ![8, 1, 1024]⟩
abbrev S8x16x64x1024 : Shape := ⟨4, ![8, 16, 64, 1024]⟩
abbrev S1x512x1024 : Shape := ⟨3, ![1, 512, 1024]⟩
abbrev S1x16x64x512 : Shape := ⟨4, ![1, 16, 64, 512]⟩
abbrev S512x1024 : Shape := ⟨2, ![512, 1024]⟩
abbrev S1024x512 : Shape := ⟨2, ![1024, 512]⟩
abbrev S16x64x512 : Shape := ⟨3, ![16, 64, 512]⟩
abbrev S1x2x64x1024 : Shape := ⟨4, ![1, 2, 64, 1024]⟩
abbrev S1x1x1024 : Shape := ⟨3, ![1, 1, 1024]⟩
abbrev S2x64x1024 : Shape := ⟨3, ![2, 64, 1024]⟩
abbrev S2x1024x1024 : Shape := ⟨3, ![2, 1024, 1024]⟩
abbrev S2x1024 : Shape := ⟨2, ![2, 1024]⟩
abbrev S2x1024x1 : Shape := ⟨3, ![2, 1024, 1]⟩
abbrev S512 : Shape := ⟨1, ![512]⟩
abbrev S512x1 : Shape := ⟨2, ![512, 1]⟩

abbrev nBuf : Space → Nat
  | .hbm => 29
  | .vmem => 34
  | .smem => 0
  | _ => 0

abbrev bufTy : (tb : Table) → Fin (tcTables nBuf tb) → BufTy
  | .hbm, ⟨0, _⟩ => ⟨S8x1024x1024, .f32⟩
  | .hbm, ⟨1, _⟩ => ⟨S8x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S1024x1, .f32⟩
  | .hbm, ⟨17, _⟩ => ⟨S1024x1, .f32⟩
  | .hbm, ⟨18, _⟩ => ⟨S1024x1, .f32⟩
  | .hbm, ⟨19, _⟩ => ⟨S1024x1, .f32⟩
  | .hbm, ⟨20, _⟩ => ⟨S1x1024, .f32⟩
  | .hbm, ⟨21, _⟩ => ⟨S1x1024, .f32⟩
  | .hbm, ⟨22, _⟩ => ⟨S8x1x1024, .f32⟩
  | .hbm, ⟨23, _⟩ => ⟨S8x1024x1024, .bf16⟩
  | .hbm, ⟨24, _⟩ => ⟨S8x16x64x1024, .bf16⟩
  | .hbm, ⟨25, _⟩ => ⟨S8x16x64x1024, .bf16⟩
  | .hbm, ⟨26, _⟩ => ⟨S8x16x64x1024, .bf16⟩
  | .hbm, ⟨27, _⟩ => ⟨S8x16x64x1024, .bf16⟩
  | .hbm, ⟨28, _⟩ => ⟨S8x1024x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1x16x64x512, .bf16⟩
  | .local _ .vmem, ⟨9, _⟩ => ⟨S1x16x64x512, .bf16⟩
  | .local _ .vmem, ⟨10, _⟩ => ⟨S1x16x64x512, .bf16⟩
  | .local _ .vmem, ⟨11, _⟩ => ⟨S1x16x64x512, .bf16⟩
  | .local _ .vmem, ⟨12, _⟩ => ⟨S1x16x64x512, .bf16⟩
  | .local _ .vmem, ⟨13, _⟩ => ⟨S1x16x64x512, .bf16⟩
  | .local _ .vmem, ⟨14, _⟩ => ⟨S1x2x64x1024, .bf16⟩
  | .local _ .vmem, ⟨15, _⟩ => ⟨S1x2x64x1024, .bf16⟩
  | .local _ .vmem, ⟨16, _⟩ => ⟨S1x2x64x1024, .bf16⟩
  | .local _ .vmem, ⟨17, _⟩ => ⟨S1x2x64x1024, .bf16⟩
  | .local _ .vmem, ⟨18, _⟩ => ⟨S1x2x64x1024, .bf16⟩
  | .local _ .vmem, ⟨19, _⟩ => ⟨S1x2x64x1024, .bf16⟩
  | .local _ .vmem, ⟨20, _⟩ => ⟨S1x1x1024, .f32⟩
  | .local _ .vmem, ⟨21, _⟩ => ⟨S1x1x1024, .f32⟩
  | .local _ .vmem, ⟨22, _⟩ => ⟨S1x2x64x1024, .bf16⟩
  | .local _ .vmem, ⟨23, _⟩ => ⟨S1x2x64x1024, .bf16⟩
  | .local _ .vmem, ⟨24, _⟩ => ⟨S1x16x64x512, .bf16⟩
  | .local _ .vmem, ⟨25, _⟩ => ⟨S1x16x64x512, .bf16⟩
  | .local _ .vmem, ⟨26, _⟩ => ⟨S1024x1024, .bf16⟩
  | .local _ .vmem, ⟨27, _⟩ => ⟨S1024x1, .f32⟩
  | .local _ .vmem, ⟨28, _⟩ => ⟨S1x512x1024, .f32⟩
  | .local _ .vmem, ⟨29, _⟩ => ⟨S1x512x1024, .f32⟩
  | .local _ .vmem, ⟨30, _⟩ => ⟨S1x1024, .f32⟩
  | .local _ .vmem, ⟨31, _⟩ => ⟨S1x1024, .f32⟩
  | .local _ .vmem, ⟨32, _⟩ => ⟨S1x512x1024, .f32⟩
  | .local _ .vmem, ⟨33, _⟩ => ⟨S1x512x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem3_1 : DmaSem sig := 29
abbrev cc2_sem4_0 : DmaSem sig := 30
abbrev cc2_sem5_0 : DmaSem sig := 31
abbrev cc2_sem6_0 : DmaSem sig := 32
abbrev cc2_sem6_1 : DmaSem sig := 33

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x16x64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x64x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![8, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x2x64x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2x64x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2x64x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x2x64x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![8, 2], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x16x64x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1024x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

class Facts₀ : Prop where
  bitsLt_bf16_f32 : FTy.bits .bf16 < FTy.bits .f32
  shapeCasts_S1024_S1024x1 : S1024.ShapeCasts S1024x1
  shapeCasts_S1024_S1x1024 : S1024.ShapeCasts S1x1024
  shapeCasts_S8x1024_S8x1x1024 : S8x1024.ShapeCasts S8x1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  shapeCasts_S1024x512_S16x64x512 : S1024x512.ShapeCasts S16x64x512
  inb_S1x16x64x512_S1x16x64x512_0_0_0_0 : ∀ a, (![0, 0, 0, 0] : Fin 4 → Nat) a + S1x16x64x512.size a ≤ S1x16x64x512.size a
  h_S1x16x64x512 : 0 < S1x16x64x512.numel
  shapeCasts_S1x16x64x512_S16x64x512 : S1x16x64x512.ShapeCasts S16x64x512
  shapeCasts_S16x64x512_S1x16x64x512 : S16x64x512.ShapeCasts S1x16x64x512
  packedbf16_S1x16x64x512_S1x16x64x512_0_0_0_0 : (Rect.unit (s := S1x16x64x512) ![0, 0, 0, 0] S1x16x64x512.size inb_S1x16x64x512_S1x16x64x512_0_0_0_0).PackedRows (EltTy.packing .bf16)
  inb_S1x2x64x1024_S1x2x64x1024_0_0_0_0 : ∀ a, (![0, 0, 0, 0] : Fin 4 → Nat) a + S1x2x64x1024.size a ≤ S1x2x64x1024.size a
  h_S1x2x64x1024 : 0 < S1x2x64x1024.numel
  shapeCasts_S1x2x64x1024_S2x64x1024 : S1x2x64x1024.ShapeCasts S2x64x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1x1024 : S1024.ShapeCasts S1x1x1024
  broadcasts_S1x1x1024_S2x1024x1024 : S1x1x1024.Broadcasts S2x1024x1024
  reduces_S2x1024x1024_S2x1024 : S2x1024x1024.Reduces [2] S2x1024
  shapeCasts_S2x1024_S2x1024x1 : S2x1024.ShapeCasts S2x1024x1
  broadcasts_S2x1024x1_S2x1024x1024 : S2x1024x1.Broadcasts S2x1024x1024
  shapeCasts_S2x64x1024_S1x2x64x1024 : S2x64x1024.ShapeCasts S1x2x64x1024
  packedbf16_S1x2x64x1024_S1x2x64x1024_0_0_0_0 : (Rect.unit (s := S1x2x64x1024) ![0, 0, 0, 0] S1x2x64x1024.size inb_S1x2x64x1024_S1x2x64x1024_0_0_0_0).PackedRows (EltTy.packing .bf16)
  shapeCasts_S16x64x512_S1024x512 : S16x64x512.ShapeCasts S1024x512
  transposes_S1024x512_p1_0_S512x1024 : S1024x512.Transposes [1, 0] S512x1024
  reduces_S512x1024_S512 : S512x1024.Reduces [1] S512
  shapeCasts_S512_S512x1 : S512.ShapeCasts S512x1
  broadcasts_S512x1_S512x1024 : S512x1.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S1x512x1024 : S512x1024.ShapeCasts S1x512x1024
  dot_S1024x1024_S512x1024_S1024x512_1_1_0_0_n_n_wf : DotDims.WF S1024x1024 S512x1024 S1024x512 [1] [1] [0] [0] [] []
  dot_S2x64x1024_S2x64x1024_S2x1024x1024_1_1_2_2_0_0_wf : DotDims.WF S2x64x1024 S2x64x1024 S2x1024x1024 [1] [1] [2] [2] [0] [0]
  dot_S2x64x1024_S2x1024x1024_S2x64x1024_2_2_1_1_0_0_wf : DotDims.WF S2x64x1024 S2x1024x1024 S2x64x1024 [2] [2] [1] [1] [0] [0]
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x1024x1024.size a
  hwx0_0 : ∀ i : grid0.Coords, EltTy.bits .bf16 = 32 ∨ (Rect.block (s := S8x1024x1024) S1x512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S1024x1.size a
  hwx0_4 : ∀ i : grid0.Coords, EltTy.bits .f32 = 32 ∨ (Rect.block (s := S1024x1) S1024x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S1024x1.size a
  hwx0_5 : ∀ i : grid0.Coords, EltTy.bits .f32 = 32 ∨ (Rect.block (s := S1024x1) S1024x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S1024x1.size a
  hwx0_6 : ∀ i : grid0.Coords, EltTy.bits .f32 = 32 ∨ (Rect.block (s := S1024x1) S1024x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16x64x512.size a ≤ S8x16x64x1024.size a
  hwx0_7 : ∀ i : grid0.Coords, EltTy.bits .bf16 = 32 ∨ (Rect.block (s := S8x16x64x1024) S1x16x64x512.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x16x64x512.size a ≤ S8x16x64x1024.size a
  hwx0_8 : ∀ i : grid0.Coords, EltTy.bits .bf16 = 32 ∨ (Rect.block (s := S8x16x64x1024) S1x16x64x512.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x16x64x512.size a ≤ S8x16x64x1024.size a
  hwx0_9 : ∀ i : grid0.Coords, EltTy.bits .bf16 = 32 ∨ (Rect.block (s := S8x16x64x1024) S1x16x64x512.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2x64x1024.size a ≤ S8x16x64x1024.size a
  hwx1_0 : ∀ i : grid1.Coords, EltTy.bits .bf16 = 32 ∨ (Rect.block (s := S8x16x64x1024) S1x2x64x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2x64x1024.size a ≤ S8x16x64x1024.size a
  hwx1_1 : ∀ i : grid1.Coords, EltTy.bits .bf16 = 32 ∨ (Rect.block (s := S8x16x64x1024) S1x2x64x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2x64x1024.size a ≤ S8x16x64x1024.size a
  hwx1_2 : ∀ i : grid1.Coords, EltTy.bits .bf16 = 32 ∨ (Rect.block (s := S8x16x64x1024) S1x2x64x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1024.size a ≤ S8x1x1024.size a
  hwx1_3 : ∀ i : grid1.Coords, EltTy.bits .f32 = 32 ∨ (Rect.block (s := S8x1x1024) S1x1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2x64x1024.size a ≤ S8x16x64x1024.size a
  hwx1_4 : ∀ i : grid1.Coords, EltTy.bits .bf16 = 32 ∨ (Rect.block (s := S8x16x64x1024) S1x2x64x1024.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x16x64x512.size a ≤ S8x16x64x1024.size a
  hwx2_0 : ∀ i : grid2.Coords, EltTy.bits .bf16 = 32 ∨ (Rect.block (s := S8x16x64x1024) S1x16x64x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S1024x1.size a
  hwx2_2 : ∀ i : grid2.Coords, EltTy.bits .f32 = 32 ∨ (Rect.block (s := S1024x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x1024.size a ≤ S8x1024x1024.size a
  hwx2_3 : ∀ i : grid2.Coords, EltTy.bits .f32 = 32 ∨ (Rect.block (s := S8x1024x1024) S1x512x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1024.size a ≤ S1x1024.size a
  hwx2_5 : ∀ i : grid2.Coords, EltTy.bits .f32 = 32 ∨ (Rect.block (s := S1x1024) S1x1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x512x1024.size a ≤ S8x1024x1024.size a
  hwx2_6 : ∀ i : grid2.Coords, EltTy.bits .f32 = 32 ∨ (Rect.block (s := S8x1024x1024) S1x512x1024.size (cc2_transform_6 i) (hinb2_6 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S2x64x1024_S2x64x1024_S2x1024x1024_1_1_2_2_0_0 : DotDims S2x64x1024 S2x64x1024 S2x1024x1024 where
  lhsContracting := [1]
  rhsContracting := [1]
  lhsNonContracting := [2]
  rhsNonContracting := [2]
  lhsBatch := [0]
  rhsBatch := [0]
  wf := dot_S2x64x1024_S2x64x1024_S2x1024x1024_1_1_2_2_0_0_wf
def dot_S2x64x1024_S2x1024x1024_S2x64x1024_2_2_1_1_0_0 : DotDims S2x64x1024 S2x1024x1024 S2x64x1024 where
  lhsContracting := [2]
  rhsContracting := [2]
  lhsNonContracting := [1]
  rhsNonContracting := [1]
  lhsBatch := [0]
  rhsBatch := [0]
  wf := dot_S2x64x1024_S2x1024x1024_S2x64x1024_2_2_1_1_0_0_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v11) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12_0) S1x16x64x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v12_1) S1x16x64x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v12_2) S1x16x64x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v12_0) S1x2x64x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_1) S1x2x64x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12_2) S1x2x64x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x2x64x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v13) S1x16x64x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1024x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg0) S1x512x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v8) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v9) S1x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v14) S1x512x1024.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S8x1024x1024 : Shape := ⟨3, ![8, 1024, 1024]⟩
abbrev S8x1024 : Shape := ⟨2, ![8, 1024]⟩
abbrev S1024x1024 : Shape := ⟨2, ![1024, 1024]⟩
abbrev S1024 : Shape := ⟨1, ![1024]⟩
abbrev S1x1x1024 : Shape := ⟨3, ![1, 1, 1024]⟩
abbrev S8x1024x16x64 : Shape := ⟨4, ![8, 1024, 16, 64]⟩
abbrev S8x16x1024x64 : Shape := ⟨4, ![8, 16, 1024, 64]⟩
abbrev S8x16x1024x1024 : Shape := ⟨4, ![8, 16, 1024, 1024]⟩
abbrev S_ : Shape := ⟨0, ![]⟩
abbrev S8x1x1x1024 : Shape := ⟨4, ![8, 1, 1, 1024]⟩
abbrev S8x16x1024 : Shape := ⟨3, ![8, 16, 1024]⟩
abbrev S8x16x1024x1 : Shape := ⟨4, ![8, 16, 1024, 1]⟩
abbrev S8x1024x1 : Shape := ⟨3, ![8, 1024, 1]⟩

abbrev nBuf : Space → Nat
  | .hbm => 88
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S8x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S8x1024x1024, .f32⟩
  | .hbm, ⟨13, _⟩ => ⟨S1x1x1024, .f32⟩
  | .hbm, ⟨14, _⟩ => ⟨S8x1024x1024, .f32⟩
  | .hbm, ⟨15, _⟩ => ⟨S8x1024x1024, .f32⟩
  | .hbm, ⟨16, _⟩ => ⟨S8x1024x16x64, .f32⟩
  | .hbm, ⟨17, _⟩ => ⟨S8x16x1024x64, .f32⟩
  | .hbm, ⟨18, _⟩ => ⟨S8x1024x1024, .f32⟩
  | .hbm, ⟨19, _⟩ => ⟨S1x1x1024, .f32⟩
  | .hbm, ⟨20, _⟩ => ⟨S8x1024x1024, .f32⟩
  | .hbm, ⟨21, _⟩ => ⟨S8x1024x1024, .f32⟩
  | .hbm, ⟨22, _⟩ => ⟨S8x1024x16x64, .f32⟩
  | .hbm, ⟨23, _⟩ => ⟨S8x16x1024x64, .f32⟩
  | .hbm, ⟨24, _⟩ => ⟨S8x1024x1024, .f32⟩
  | .hbm, ⟨25, _⟩ => ⟨S1x1x1024, .f32⟩
  | .hbm, ⟨26, _⟩ => ⟨S8x1024x1024, .f32⟩
  | .hbm, ⟨27, _⟩ => ⟨S8x1024x1024, .f32⟩
  | .hbm, ⟨28, _⟩ => ⟨S8x1024x16x64, .f32⟩
  | .hbm, ⟨29, _⟩ => ⟨S8x16x1024x64, .f32⟩
  | .hbm, ⟨30, _⟩ => ⟨S8x16x1024x1024, .f32⟩
  | .hbm, ⟨31, _⟩ => ⟨S_, .f32⟩
  | .hbm, ⟨32, _⟩ => ⟨S8x16x1024x1024, .f32⟩
  | .hbm, ⟨33, _⟩ => ⟨S8x16x1024x1024, .f32⟩
  | .hbm, ⟨34, _⟩ => ⟨S8x1x1x1024, .f32⟩
  | .hbm, ⟨35, _⟩ => ⟨S8x16x1024x1024, .f32⟩
  | .hbm, ⟨36, _⟩ => ⟨S8x16x1024x1024, .f32⟩
  | .hbm, ⟨37, _⟩ => ⟨S_, .f32⟩
  | .hbm, ⟨38, _⟩ => ⟨S8x16x1024, .f32⟩
  | .hbm, ⟨39, _⟩ => ⟨S_, .f32⟩
  | .hbm, ⟨40, _⟩ => ⟨S8x16x1024, .f32⟩
  | .hbm, ⟨41, _⟩ => ⟨S8x16x1024, .f32⟩
  | .hbm, ⟨42, _⟩ => ⟨S8x16x1024x1, .f32⟩
  | .hbm, ⟨43, _⟩ => ⟨S8x16x1024x1024, .f32⟩
  | .hbm, ⟨44, _⟩ => ⟨S8x16x1024x1024, .f32⟩
  | .hbm, ⟨45, _⟩ => ⟨S8x16x1024x1024, .f32⟩
  | .hbm, ⟨46, _⟩ => ⟨S_, .f32⟩
  | .hbm, ⟨47, _⟩ => ⟨S8x16x1024, .f32⟩
  | .hbm, ⟨48, _⟩ => ⟨S8x16x1024x1, .f32⟩
  | .hbm, ⟨49, _⟩ => ⟨S8x16x1024x1024, .f32⟩
  | .hbm, ⟨50, _⟩ => ⟨S8x16x1024x1024, .f32⟩
  | .hbm, ⟨51, _⟩ => ⟨S8x16x1024x64, .f32⟩
  | .hbm, ⟨52, _⟩ => ⟨S8x1024x16x64, .f32⟩
  | .hbm, ⟨53, _⟩ => ⟨S8x1024x1024, .f32⟩
  | .hbm, ⟨54, _⟩ => ⟨S8x1024x1024, .f32⟩
  | .hbm, ⟨55, _⟩ => ⟨S1x1x1024, .f32⟩
  | .hbm, ⟨56, _⟩ => ⟨S8x1024x1024, .f32⟩
  | .hbm, ⟨57, _⟩ => ⟨S8x1024x1024, .f32⟩
  | .hbm, ⟨58, _⟩ => ⟨S8x1024x1024, .f32⟩
  | .hbm, ⟨59, _⟩ => ⟨S_, .f32⟩
  | .hbm, ⟨60, _⟩ => ⟨S8x1024, .f32⟩
  | .hbm, ⟨61, _⟩ => ⟨S8x1024x1, .f32⟩
  | .hbm, ⟨62, _⟩ => ⟨S_, .f32⟩
  | .hbm, ⟨63, _⟩ => ⟨S8x1024x1, .f32⟩
  | .hbm, ⟨64, _⟩ => ⟨S8x1024x1, .f32⟩
  | .hbm, ⟨65, _⟩ => ⟨S8x1024x1024, .f32⟩
  | .hbm, ⟨66, _⟩ => ⟨S8x1024x1024, .f32⟩
  | .hbm, ⟨67, _⟩ => ⟨S8x1024x1024, .f32⟩
  | .hbm, ⟨68, _⟩ => ⟨S_, .f32⟩
  | .hbm, ⟨69, _⟩ => ⟨S8x1024, .f32⟩
  | .hbm, ⟨70, _⟩ => ⟨S8x1024x1, .f32⟩
  | .hbm, ⟨71, _⟩ => ⟨S_, .f32⟩
  | .hbm, ⟨72, _⟩ => ⟨S8x1024x1, .f32⟩
  | .hbm, ⟨73, _⟩ => ⟨S8x1024x1, .f32⟩
  | .hbm, ⟨74, _⟩ => ⟨S8x1024x1024, .f32⟩
  | .hbm, ⟨75, _⟩ => ⟨S8x1024x1024, .f32⟩
  | .hbm, ⟨76, _⟩ => ⟨S_, .f32⟩
  | .hbm, ⟨77, _⟩ => ⟨S8x1024x1, .f32⟩
  | .hbm, ⟨78, _⟩ => ⟨S8x1024x1, .f32⟩
  | .hbm, ⟨79, _⟩ => ⟨S8x1024x1, .f32⟩
  | .hbm, ⟨80, _⟩ => ⟨S8x1024x1024, .f32⟩
  | .hbm, ⟨81, _⟩ => ⟨S8x1024x1024, .f32⟩
  | .hbm, ⟨82, _⟩ => ⟨S1x1x1024, .f32⟩
  | .hbm, ⟨83, _⟩ => ⟨S8x1024x1024, .f32⟩
  | .hbm, ⟨84, _⟩ => ⟨S8x1024x1024, .f32⟩
  | .hbm, ⟨85, _⟩ => ⟨S1x1x1024, .f32⟩
  | .hbm, ⟨86, _⟩ => ⟨S8x1024x1024, .f32⟩
  | .hbm, ⟨87, _⟩ => ⟨S8x1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_0 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_3 : Ref sig .tc := ⟨.hbm, 59, rfl⟩
abbrev main_v43 : Ref sig .tc := ⟨.hbm, 60, rfl⟩
abbrev main_v44 : Ref sig .tc := ⟨.hbm, 61, rfl⟩
abbrev main_cst_4 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_5 : Ref sig .tc := ⟨.hbm, 68, rfl⟩
abbrev main_v50 : Ref sig .tc := ⟨.hbm, 69, rfl⟩
abbrev main_v51 : Ref sig .tc := ⟨.hbm, 70, rfl⟩
abbrev main_cst_6 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_7 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x1024x1024_0_1_2 : S1x1x1024.BroadcastsInDim S8x1024x1024 (![0, 1, 2] : Fin 3 → Fin S8x1024x1024.rank)
  shapeCasts_S8x1024x1024_S8x1024x16x64 : S8x1024x1024.ShapeCasts S8x1024x16x64
  transposes_S8x1024x16x64_S8x16x1024x64_0_2_1_3 : S8x1024x16x64.Transposes [0, 2, 1, 3] S8x16x1024x64
  bcast_S_S8x16x1024x1024 : S_.BroadcastsInDim S8x16x1024x1024 (![] : Fin 0 → Fin S8x16x1024x1024.rank)
  bcast_S8x1024_S8x1x1x1024_0_3 : S8x1024.BroadcastsInDim S8x1x1x1024 (![0, 3] : Fin 2 → Fin S8x1x1x1024.rank)
  bcast_S8x1x1x1024_S8x16x1024x1024_0_1_2_3 : S8x1x1x1024.BroadcastsInDim S8x16x1024x1024 (![0, 1, 2, 3] : Fin 4 → Fin S8x16x1024x1024.rank)
  reducesTo_S8x16x1024x1024_S8x16x1024_d3 : S8x16x1024x1024.ReducesTo [3] S8x16x1024
  h_S_ : 0 < S_.numel
  bcast_S_S8x16x1024 : S_.BroadcastsInDim S8x16x1024 (![] : Fin 0 → Fin S8x16x1024.rank)
  bcast_S8x16x1024_S8x16x1024x1_0_1_2 : S8x16x1024.BroadcastsInDim S8x16x1024x1 (![0, 1, 2] : Fin 3 → Fin S8x16x1024x1.rank)
  bcast_S8x16x1024x1_S8x16x1024x1024_0_1_2_3 : S8x16x1024x1.BroadcastsInDim S8x16x1024x1024 (![0, 1, 2, 3] : Fin 4 → Fin S8x16x1024x1024.rank)
  transposes_S8x16x1024x64_S8x1024x16x64_0_2_1_3 : S8x16x1024x64.Transposes [0, 2, 1, 3] S8x1024x16x64
  shapeCasts_S8x1024x16x64_S8x1024x1024 : S8x1024x16x64.ShapeCasts S8x1024x1024
  reducesTo_S8x1024x1024_S8x1024_d2 : S8x1024x1024.ReducesTo [2] S8x1024
  bcast_S8x1024_S8x1024x1_0_1 : S8x1024.BroadcastsInDim S8x1024x1 (![0, 1] : Fin 2 → Fin S8x1024x1.rank)
  bcast_S_S8x1024x1 : S_.BroadcastsInDim S8x1024x1 (![] : Fin 0 → Fin S8x1024x1.rank)
  bcast_S8x1024x1_S8x1024x1024_0_1_2 : S8x1024x1.BroadcastsInDim S8x1024x1024 (![0, 1, 2] : Fin 3 → Fin S8x1024x1024.rank)
  dot_S8x1024x1024_S1024x1024_S8x1024x1024_2_1_01_0_n_n_wf : DotDims.WF S8x1024x1024 S1024x1024 S8x1024x1024 [2] [1] [0, 1] [0] [] []
  dot_S8x16x1024x64_S8x16x1024x64_S8x16x1024x1024_3_3_2_2_01_01_wf : DotDims.WF S8x16x1024x64 S8x16x1024x64 S8x16x1024x1024 [3] [3] [2] [2] [0, 1] [0, 1]
  dot_S8x16x1024x1024_S8x16x1024x64_S8x16x1024x64_3_2_2_3_01_01_wf : DotDims.WF S8x16x1024x1024 S8x16x1024x64 S8x16x1024x64 [3] [2] [2] [3] [0, 1] [0, 1]

variable [Facts₀]

def dot_S8x1024x1024_S1024x1024_S8x1024x1024_2_1_01_0_n_n : DotDims S8x1024x1024 S1024x1024 S8x1024x1024 where
  lhsContracting := [2]
  rhsContracting := [1]
  lhsNonContracting := [0, 1]
  rhsNonContracting := [0]
  lhsBatch := []
  rhsBatch := []
  wf := dot_S8x1024x1024_S1024x1024_S8x1024x1024_2_1_01_0_n_n_wf
def dot_S8x16x1024x64_S8x16x1024x64_S8x16x1024x1024_3_3_2_2_01_01 : DotDims S8x16x1024x64 S8x16x1024x64 S8x16x1024x1024 where
  lhsContracting := [3]
  rhsContracting := [3]
  lhsNonContracting := [2]
  rhsNonContracting := [2]
  lhsBatch := [0, 1]
  rhsBatch := [0, 1]
  wf := dot_S8x16x1024x64_S8x16x1024x64_S8x16x1024x1024_3_3_2_2_01_01_wf
def dot_S8x16x1024x1024_S8x16x1024x64_S8x16x1024x64_3_2_2_3_01_01 : DotDims S8x16x1024x1024 S8x16x1024x64 S8x16x1024x64 where
  lhsContracting := [3]
  rhsContracting := [2]
  lhsNonContracting := [2]
  rhsNonContracting := [3]
  lhsBatch := [0, 1]
  rhsBatch := [0, 1]
  wf := dot_S8x16x1024x1024_S8x16x1024x64_S8x16x1024x64_3_2_2_3_01_01_wf

class Facts : Prop extends Facts₀ where

variable [Facts]
-- ==== Proof.Spec.lean ====
/-
  One BERT self-attention block (Q/K/V projections, 16 heads of 64 channels, softmax attention, output
  projection, residual and layer normalisation) as plain functions on extended reals over literal index
  types. Arrays are curried: a tensor [8, 1024, 1024] is `Fin 8 → Fin 1024 → Fin 1024 → EReal`.

  Two arrangements of the same mathematics are stated: `kernelOut` folds the scale 1/√64 into the queries and
  normalises the softmax by a guarded reciprocal `exp · (1 / max(Σ exp, ε))`; `refOut` divides the score by √64 and
  normalises by the quotient `exp / Σ exp`. Everything else (the linear layers, the row maximum, the exponentials,
  the context sums, the residual and the layer norm) is literally shared.
-/
import Idealize.ShloMosaic.PureOps.Ideal
import Idealize.ShloMosaic.Lib.ValueIdx

noncomputable section

namespace Cert.Spec

open Idealize.ShloMosaic Idealize.ShloMosaic.ValueIdx

/-- [batch, position, feature] -/
abbrev T3 := Fin 8 → Fin 1024 → Fin 1024 → EReal
/-- a weight matrix [out, in] -/
abbrev M2 := Fin 1024 → Fin 1024 → EReal
/-- a feature vector -/
abbrev R1 := Fin 1024 → EReal
/-- the additive mask [batch, key position] -/
abbrev Mk := Fin 8 → Fin 1024 → EReal
/-- the head-major layout [batch, head, channel, position] -/
abbrev L4 := Fin 8 → Fin 16 → Fin 64 → Fin 1024 → EReal
/-- scores and probabilities [batch, head, query, key] -/
abbrev T4 := Fin 8 → Fin 16 → Fin 1024 → Fin 1024 → EReal

/-- Feature index of channel `d` of head `n`. -/
def hd (n : Fin 16) (d : Fin 64) : Fin 1024 := ⟨n.val * 64 + d.val, by omega⟩
/-- The head of a feature index. -/
def hdN (h : Fin 1024) : Fin 16 := ⟨h.val / 64, by omega⟩
/-- The channel of a feature index within its head. -/
def hdD (h : Fin 1024) : Fin 64 := ⟨h.val % 64, by omega⟩

theorem hd_hdN_hdD (h : Fin 1024) : hd (hdN h) (hdD h) = h := by
  apply Fin.ext; show h.val / 64 * 64 + h.val % 64 = h.val; omega
theorem hdN_hd (n : Fin 16) (d : Fin 64) : hdN (hd n d) = n := by
  apply Fin.ext; show (n.val * 64 + d.val) / 64 = n.val; omega
theorem hdD_hd (n : Fin 16) (d : Fin 64) : hdD (hd n d) = d := by
  apply Fin.ext; show (n.val * 64 + d.val) % 64 = d.val; omega

/-- A linear layer in the torch layout: `y[b,s,o] = Σ_h x[b,s,h] · W[o,h] + bias[o]`. -/
def lin (x : T3) (W : M2) (bias : R1) : T3 := fun b s o => (∑ h : Fin 1024, x b s h * W o h) + bias o

/-- The head split, read in the head-major layout. -/
def heads (y : T3) : L4 := fun b n d s => y b s (hd n d)

/-- Attention scores of head-major queries and keys plus the additive key mask. -/
def scoresL (q k : L4) (mask : Mk) : T4 := fun b n i j => (∑ d : Fin 64, q b n d i * k b n d j) + mask b j

/-- The maximum of a score row (a fold of `max` from −∞). -/
def rowMax (S : T4) : Fin 8 → Fin 16 → Fin 1024 → EReal :=
  fun b n i => (Finset.univ : Finset (Fin 1024)).fold max ⊥ (fun j => S b n i j)

/-- The shifted exponentials of a score row. -/
def expo (S : T4) : T4 := fun b n i j => Ideal.exp (S b n i j - rowMax S b n i)

/-- The sum of a row. -/
def rowSum (E : T4) : Fin 8 → Fin 16 → Fin 1024 → EReal := fun b n i => ∑ j : Fin 1024, E b n i j

/-- Softmax normalised by the reciprocal of the guarded denominator. -/
def probsK (ε : EReal) (S : T4) : T4 :=
  fun b n i j => expo S b n i j * Ideal.div 1 (max (rowSum (expo S) b n i) ε)

/-- Softmax normalised by the quotient. -/
def probsR (S : T4) : T4 := fun b n i j => Ideal.div (expo S b n i j) (rowSum (expo S) b n i)

/-- The context: probabilities times head-major values, summed over the key position. -/
def ctxL (P : T4) (v : L4) : L4 := fun b n d i => ∑ j : Fin 1024, P b n i j * v b n d j

/-- One attention call on head-major operands, for a given normalisation `P` of the scores. -/
def attnL (P : T4 → T4) (q k v : L4) (mask : Mk) : L4 := ctxL (P (scoresL q k mask)) v

/-- Output projection of the merged heads plus bias plus the residual input. -/
def resid (C : L4) (Wo : M2) (bo : R1) (x : T3) : T3 :=
  fun b s o => ((∑ h : Fin 1024, C b (hdN h) (hdD h) s * Wo o h) + bo o) + x b s o

/-- The mean of a feature row: the sum divided by `c` (the float 1024). -/
def rowMean (c : EReal) (r : T3) : Fin 8 → Fin 1024 → EReal := fun b s => Ideal.div (∑ o : Fin 1024, r b s o) c

/-- The centred row. -/
def centred (c : EReal) (r : T3) : T3 := fun b s o => r b s o - rowMean c r b s

/-- The (biased) variance of a feature row. -/
def rowVar (c : EReal) (r : T3) : Fin 8 → Fin 1024 → EReal :=
  fun b s => Ideal.div (∑ o : Fin 1024, centred c r b s o * centred c r b s o) c

/-- Layer normalisation with scale `γ` and shift `β`. -/
def layernorm (c eps : EReal) (r : T3) (γ β : R1) : T3 :=
  fun b s o => centred c r b s o * Ideal.rsqrt (rowVar c r b s + eps) * γ o + β o

/-- The whole block from given head-major context. -/
def finish (c eps : EReal) (C : L4) (Wo : M2) (bo : R1) (x : T3) (γ β : R1) : T3 :=
  layernorm c eps (resid C Wo bo x) γ β

/-- The kernel's arrangement: queries pre-scaled by `sc`, guarded reciprocal normalisation. -/
def kernelOut (sc ε c eps : EReal) (x : T3) (mask : Mk) (Wq : M2) (bq : R1) (Wk : M2) (bk : R1) (Wv : M2) (bv : R1)
    (Wo : M2) (bo γ β : R1) : T3 :=
  finish c eps
    (attnL (probsK ε) (fun b n d s => heads (lin x Wq bq) b n d s * sc) (heads (lin x Wk bk)) (heads (lin x Wv bv)) mask)
    Wo bo x γ β

/-- The reference's scores: the head's dot product divided by `e`, plus the mask. -/
def scoresR (e : EReal) (q k : L4) (mask : Mk) : T4 :=
  fun b n i j => Ideal.div (∑ d : Fin 64, q b n d i * k b n d j) e + mask b j

/-- The reference's arrangement: scores divided by `e`, quotient normalisation. -/
def refOut (e c eps : EReal) (x : T3) (mask : Mk) (Wq : M2) (bq : R1) (Wk : M2) (bk : R1) (Wv : M2) (bv : R1)
    (Wo : M2) (bo γ β : R1) : T3 :=
  finish c eps
    (ctxL (probsR (scoresR e (heads (lin x Wq bq)) (heads (lin x Wk bk)) mask)) (heads (lin x Wv bv)))
    Wo bo x γ β

/-! ## Arrays as curried functions -/

/-- A rank-1 array read by its coordinate. -/
abbrev cur1 {n0 : Nat} (X : (⟨1, ![n0]⟩ : Shape).Idx → EReal) : Fin n0 → EReal := fun a => X (ix1 a)
/-- A rank-2 array read by its coordinates. -/
abbrev cur2 {n0 n1 : Nat} (X : (⟨2, ![n0, n1]⟩ : Shape).Idx → EReal) : Fin n0 → Fin n1 → EReal := fun a b => X (ix2 a b)
/-- A rank-3 array read by its coordinates. -/
abbrev cur3 {n0 n1 n2 : Nat} (X : (⟨3, ![n0, n1, n2]⟩ : Shape).Idx → EReal) : Fin n0 → Fin n1 → Fin n2 → EReal :=
  fun a b c => X (ix3 a b c)
/-- A rank-4 array read by its coordinates. -/
abbrev cur4 {n0 n1 n2 n3 : Nat} (X : (⟨4, ![n0, n1, n2, n3]⟩ : Shape).Idx → EReal) :
    Fin n0 → Fin n1 → Fin n2 → Fin n3 → EReal := fun a b c d => X (ix4 a b c d)

/-- A curried rank-3 function as an array. -/
abbrev unc3 {n0 n1 n2 : Nat} (f : Fin n0 → Fin n1 → Fin n2 → EReal) : (⟨3, ![n0, n1, n2]⟩ : Shape).Idx → EReal :=
  fun i => f (i 0) (i 1) (i 2)
/-- A curried rank-4 function as an array. -/
abbrev unc4 {n0 n1 n2 n3 : Nat} (f : Fin n0 → Fin n1 → Fin n2 → Fin n3 → EReal) :
    (⟨4, ![n0, n1, n2, n3]⟩ : Shape).Idx → EReal := fun i => f (i 0) (i 1) (i 2) (i 3)

end Cert.Spec

end
-- ==== Proof.Region0.lean ====
import proofs.«417071_j61770219651176_3_alg».proof.Proof.Gen.KernelIdeal.Frame
import proofs.«417071_j61770219651176_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

/-! # The first call: the three projections, head-major

The body computes, for one batch `b` and one block of 512 positions, `W · xᵀ + bias` for each of the three weight
matrices (the queries also times a fixed scale word), and stores each `[1024, 512]` result as `[1, 16, 64, 512]`: row
`n·64 + d` becomes head `n`, channel `d`. Below: the body's value at an index of the block; each window's block as a part
of its array; what a grid point writes back as a block of one whole-array function; the blocks tile the array. -/

/-! ## The body's value at an index -/

-- The matrix product contracts axis 1 of both operands: the operands' indices at an output index, axis by axis.
theorem lhs_axis0 (i : S1024x512.Idx) (q : dot_S1024x1024_S512x1024_S1024x512_1_1_0_0_n_n.contr.Idx) :
    (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem lhs_axis1 (i : S1024x512.Idx) (q : dot_S1024x1024_S512x1024_S1024x512_1_1_0_0_n_n.contr.Idx) :
    (dot_S1024x1024_S512x1024_S1024x512_1_1_0_0_n_n.lhsIdx i q 1).val = (q ⟨0, by decide⟩).val :=
  dot_S1024x1024_S512x1024_S1024x512_1_1_0_0_n_n.lhsIdx_val_of_single rfl i q
theorem rhs_axis0 (i : S1024x512.Idx) (q : dot_S1024x1024_S512x1024_S1024x512_1_1_0_0_n_n.contr.Idx) :
    (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem rhs_axis1 (i : S1024x512.Idx) (q : dot_S1024x1024_S512x1024_S1024x512_1_1_0_0_n_n.contr.Idx) :
    (dot_S1024x1024_S512x1024_S1024x512_1_1_0_0_n_n.rhsIdx i q 1).val = (q ⟨0, by decide⟩).val :=
  dot_S1024x1024_S512x1024_S1024x512_1_1_0_0_n_n.rhsIdx_val_of_single rfl i q

/-- The body's matrix product into the zero accumulator, at row `o` and column `s`: the sum over the contracted axis. -/
theorem matmul_at (w : FVec Ideal S1024x1024 .bf16) (x : FVec Ideal S512x1024 .bf16) (o : Fin 1024) (s : Fin 512) :
    matmul dot_S1024x1024_S512x1024_S1024x512_1_1_0_0_n_n none w x (constant (F := Ideal) S1024x512 .f32 0x00000000#32) (ix2 o s)
      = ∑ h : Fin 1024, w (ix2 o h) * x (ix2 s h) := by
  simp only [matmul]
  rw [Ideal.matmul_constant_zero_apply, ← Equiv.sum_comp (ValueIdx.contrEquiv1 dot_S1024x1024_S512x1024_S1024x512_1_1_0_0_n_n 1024 rfl rfl).symm]
  refine Finset.sum_congr rfl fun k _ => ?_
  have hk := ValueIdx.contrEquiv1_symm_val dot_S1024x1024_S512x1024_S1024x512_1_1_0_0_n_n 1024 rfl rfl k
  have el : dot_S1024x1024_S512x1024_S1024x512_1_1_0_0_n_n.lhsIdx (ix2 o s) ((ValueIdx.contrEquiv1 dot_S1024x1024_S512x1024_S1024x512_1_1_0_0_n_n 1024 rfl rfl).symm k) = ix2 o k := funext fun a => Fin.ext (by
    match a with
    | ⟨0, _⟩ => exact lhs_axis0 _ _
    | ⟨1, _⟩ => exact (lhs_axis1 _ _).trans hk)
  have er : dot_S1024x1024_S512x1024_S1024x512_1_1_0_0_n_n.rhsIdx (ix2 o s) ((ValueIdx.contrEquiv1 dot_S1024x1024_S512x1024_S1024x512_1_1_0_0_n_n 1024 rfl rfl).symm k) = ix2 s k := funext fun a => Fin.ext (by
    match a with
    | ⟨0, _⟩ => exact rhs_axis0 _ _
    | ⟨1, _⟩ => exact (rhs_axis1 _ _).trans hk)
  rw [el, er]

/-- A [1024,512] vector cast to [16,64,512]: row `n·64 + d` is channel `d` of head `n`. -/
theorem cast_heads (v : FVec Ideal S1024x512 .f32) (n : Fin 16) (d : Fin 64) (s : Fin 512) :
    shapeCast S16x64x512 v shapeCasts_S1024x512_S16x64x512 (ix3 n d s) = v (ix2 (hd n d) s) :=
  shapeCast_apply v shapeCasts_S1024x512_S16x64x512 _ _ (by
    rw [Shape.rowMajor_val_two, Shape.rowMajor_val_three]
    rfl)

/-- A bias column [1024,1] broadcast along the columns of [1024,512]. -/
theorem bias_column (v : FVec Ideal S1024x1 .f32) (o : Fin 1024) (s : Fin 512) :
    broadcastTo S1024x512 v broadcasts_S1024x1_S1024x512 (ix2 o s) = v (ix2 o 0) := by
  refine broadcastTo_apply v broadcasts_S1024x1_S1024x512 (ix2 o s) (ix2 o 0) fun ax => ?_
  match ax with
  | ⟨0, _⟩ => rfl
  | ⟨1, _⟩ => rfl

/-- The linear layer's value at row `o`, column `s` of the block: the weights' row against the input's row, plus the bias. -/
theorem linear_at (x0 : Vec Ideal S1x512x1024 .bf16) (w : Vec Ideal S1024x1024 .bf16) (bv : Vec Ideal S1024x1 .f32)
    (o : Fin 1024) (s : Fin 512) :
    k0_pay4 x0 w bv (ix2 o s) = (∑ h : Fin 1024, x0 (ix3 (0 : Fin 1) s h) * w (ix2 o h)) + bv (ix2 o 0) := by
  unfold k0_pay4 k0_pay3
  rw [addf_apply, matmul_at, bias_column, shapeCast_self, shapeCast_self]
  congr 1
  refine Finset.sum_congr rfl fun h _ => ?_
  rw [shapeCast_1ab_ab_apply, mul_comm]

/-- The key payload is the linear layer cast to heads and rounded (the identity here). -/
theorem pay6_eq (x0 : Vec Ideal S1x512x1024 .bf16) (w : Vec Ideal S1024x1024 .bf16) (bv : Vec Ideal S1024x1 .f32) :
    k0_pay6 x0 w bv = truncf .bf16 (shapeCast S16x64x512 (k0_pay4 x0 w bv) shapeCasts_S1024x512_S16x64x512) bitsLt_bf16_f32 := rfl

/-- The query payload is the linear layer times the scale word, cast to heads, rounded, with a leading unit axis. -/
theorem pay5_eq (x0 : Vec Ideal S1x512x1024 .bf16) (w : Vec Ideal S1024x1024 .bf16) (bv : Vec Ideal S1024x1 .f32) :
    k0_pay5 x0 w bv = shapeCast S1x16x64x512 (truncf .bf16 (shapeCast S16x64x512
      (mulf (k0_pay4 x0 w bv) (broadcast S1024x512 (Scalar.ofBits (F := Ideal) .f32 0x3E000000#32))) shapeCasts_S1024x512_S16x64x512) bitsLt_bf16_f32)
      shapeCasts_S16x64x512_S1x16x64x512 := rfl

/-- The key block at head `n`, channel `d`, column `s`. -/
theorem key_at (x0 : Vec Ideal S1x512x1024 .bf16) (w : Vec Ideal S1024x1024 .bf16) (bv : Vec Ideal S1024x1 .f32)
    (u : Fin 1) (n : Fin 16) (d : Fin 64) (s : Fin 512) :
    k0_pay1 (k0_pay6 x0 w bv) (ix4 u n d s) = k0_pay4 x0 w bv (ix2 (hd n d) s) := by
  unfold k0_pay1
  rw [shapeCast_abc_1abc_apply, pay6_eq, truncf_apply, cast_heads]

/-- The value block at head `n`, channel `d`, column `s`. -/
theorem value_at (v : FVec Ideal S1024x512 .f32) (u : Fin 1) (n : Fin 16) (d : Fin 64) (s : Fin 512) :
    k0_pay2 v (ix4 u n d s) = v (ix2 (hd n d) s) := by
  unfold k0_pay2
  rw [shapeCast_abc_1abc_apply, truncf_apply, cast_heads]

/-- The query block at head `n`, channel `d`, column `s`: the linear layer times the scale word. -/
theorem query_at (x0 : Vec Ideal S1x512x1024 .bf16) (w : Vec Ideal S1024x1024 .bf16) (bv : Vec Ideal S1024x1 .f32)
    (u : Fin 1) (n : Fin 16) (d : Fin 64) (s : Fin 512) :
    k0_pay5 x0 w bv (ix4 u n d s) = k0_pay4 x0 w bv (ix2 (hd n d) s) * Ideal.ofBits .f32 0x3E000000#32 := by
  rw [pay5_eq, shapeCast_abc_1abc_apply, truncf_apply, cast_heads, mulf_apply, broadcast_apply]
  rfl

/-- One entry of the linear layer in the head-major layout, from a block: `x0` is the input's rows
    `isb·512 … isb·512 + 511` of batch `ib`, the weights and the bias are whole. -/
theorem block_lin (X : S8x1024x1024.Idx → EReal) (W : S1024x1024.Idx → EReal) (B : S1024x1.Idx → EReal)
    (x0 : Vec Ideal S1x512x1024 .bf16) (w : Vec Ideal S1024x1024 .bf16) (bv : Vec Ideal S1024x1 .f32) (ib isb : Nat)
    (hx : ∀ (y : S1x512x1024.Idx) (k : S8x1024x1024.Idx), (k 0).val = ib → (k 1).val = isb * 512 + (y 1).val →
      (k 2).val = (y 2).val → x0 y = X k)
    (hw : ∀ y, w y = W y) (hb : ∀ y, bv y = B y)
    (n : Fin 16) (d : Fin 64) (s : Fin 512) (i : S8x16x64x1024.Idx)
    (h0 : (i 0).val = ib) (h1 : (i 1).val = n.val) (h2 : (i 2).val = d.val) (h3 : (i 3).val = isb * 512 + s.val) :
    k0_pay4 x0 w bv (ix2 (hd n d) s) = unc4 (heads (lin (cur3 X) (cur2 W) (fun o => B (ix2 o 0)))) i := by
  obtain ⟨b, n', d', p, rfl⟩ : ∃ (b : Fin 8) (n' : Fin 16) (d' : Fin 64) (p : Fin 1024), i = ix4 b n' d' p :=
    ⟨i 0, i 1, i 2, i 3, eq_ix4 i⟩
  obtain rfl : n' = n := Fin.ext h1
  obtain rfl : d' = d := Fin.ext h2
  show _ = (∑ h : Fin 1024, X (ix3 b p h) * W (ix2 (hd n' d') h)) + B (ix2 (hd n' d') 0)
  rw [linear_at, hb]
  congr 1
  refine Finset.sum_congr rfl fun h _ => ?_
  rw [hw, hx (ix3 0 s h) (ix3 b p h) h0 h3 rfl]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Two functions on the block's indices that agree at every coordinate quadruple are equal. -/
theorem funext_ix4 {α : Type} (P Q : S1x16x64x512.Idx → α)
    (h : ∀ (u : Fin 1) (n : Fin 16) (d : Fin 64) (s : Fin 512), P (ix4 u n d s) = Q (ix4 u n d s)) : P = Q :=
  funext fun j => by rw [eq_ix4 j]; exact h _ _ _ _

variable (V : (c : Dev nD) → (b : Ref sig .tc) → Buf (Elt Ideal) ((c : Thread nD τ).loc b))

/-! ## The windows' blocks as parts of their arrays -/

/-- The input window's block at a point is the input array at batch = block index 0, row = block index 1 · 512 + the
    row inside the block, all 1024 features. -/
theorem iblk_x (c : Dev nD) (t : Fin cfg0.N) (y : S1x512x1024.Idx) (k : S8x1024x1024.Idx)
    (h0 : (k 0).val = win0_0.index t (0 : Fin 3) * 1 + 1 * (y 0).val)
    (h1 : (k 1).val = win0_0.index t (1 : Fin 3) * 512 + 1 * (y 1).val)
    (h2 : (k 2).val = win0_0.index t (2 : Fin 3) * 1024 + 1 * (y 2).val) :
    (iblk0 (F := Ideal) V c 0 t : Vec Ideal S1x512x1024 .bf16) y = (V c main_v11 : S8x1024x1024.Idx → EReal) k := by
  unfold iblk0
  rw [View.read_apply]
  show (V c main_v11 : S8x1024x1024.Idx → EReal) _ = (V c main_v11 : S8x1024x1024.Idx → EReal) _
  congr 1
  funext a
  apply Fin.ext
  match a with
  | ⟨0, _⟩ => exact h0.symm
  | ⟨1, _⟩ => exact h1.symm
  | ⟨2, _⟩ => exact h2.symm

/-- The query weights' window's block is its whole array at every point. -/
theorem iblk_1 (c : Dev nD) (t : Fin cfg0.N) (h0 : win0_1.index t (0 : Fin 2) = 0) (h1 : win0_1.index t (1 : Fin 2) = 0)
    (y : S1024x1024.Idx) :
    (iblk0 (F := Ideal) V c 1 t : Vec Ideal S1024x1024 .bf16) y = (V c main_v0 : S1024x1024.Idx → EReal) y := by
  unfold iblk0
  rw [View.read_apply]
  show (V c main_v0 : S1024x1024.Idx → EReal) _ = (V c main_v0 : S1024x1024.Idx → EReal) _
  congr 1
  funext a
  apply Fin.ext
  match a with
  | ⟨0, _⟩ => show win0_1.index t (0 : Fin 2) * 1024 + 1 * (y 0).val = (y 0).val; rw [h0]; omega
  | ⟨1, _⟩ => show win0_1.index t (1 : Fin 2) * 1024 + 1 * (y 1).val = (y 1).val; rw [h1]; omega

/-- The key weights' window's block is its whole array at every point. -/
theorem iblk_2 (c : Dev nD) (t : Fin cfg0.N) (h0 : win0_2.index t (0 : Fin 2) = 0) (h1 : win0_2.index t (1 : Fin 2) = 0)
    (y : S1024x1024.Idx) :
    (iblk0 (F := Ideal) V c 2 t : Vec Ideal S1024x1024 .bf16) y = (V c main_v1 : S1024x1024.Idx → EReal) y := by
  unfold iblk0
  rw [View.read_apply]
  show (V c main_v1 : S1024x1024.Idx → EReal) _ = (V c main_v1 : S1024x1024.Idx → EReal) _
  congr 1
  funext a
  apply Fin.ext
  match a with
  | ⟨0, _⟩ => show win0_2.index t (0 : Fin 2) * 1024 + 1 * (y 0).val = (y 0).val; rw [h0]; omega
  | ⟨1, _⟩ => show win0_2.index t (1 : Fin 2) * 1024 + 1 * (y 1).val = (y 1).val; rw [h1]; omega

/-- The value weights' window's block is its whole array at every point. -/
theorem iblk_3 (c : Dev nD) (t : Fin cfg0.N) (h0 : win0_3.index t (0 : Fin 2) = 0) (h1 : win0_3.index t (1 : Fin 2) = 0)
    (y : S1024x1024.Idx) :
    (iblk0 (F := Ideal) V c 3 t : Vec Ideal S1024x1024 .bf16) y = (V c main_v2 : S1024x1024.Idx → EReal) y := by
  unfold iblk0
  rw [View.read_apply]
  show (V c main_v2 : S1024x1024.Idx → EReal) _ = (V c main_v2 : S1024x1024.Idx → EReal) _
  congr 1
  funext a
  apply Fin.ext
  match a with
  | ⟨0, _⟩ => show win0_3.index t (0 : Fin 2) * 1024 + 1 * (y 0).val = (y 0).val; rw [h0]; omega
  | ⟨1, _⟩ => show win0_3.index t (1 : Fin 2) * 1024 + 1 * (y 1).val = (y 1).val; rw [h1]; omega

/-- The query bias' window's block is its whole array at every point. -/
theorem iblk_4 (c : Dev nD) (t : Fin cfg0.N) (h0 : win0_4.index t (0 : Fin 2) = 0) (h1 : win0_4.index t (1 : Fin 2) = 0)
    (y : S1024x1.Idx) :
    (iblk0 (F := Ideal) V c 4 t : Vec Ideal S1024x1 .f32) y = (V c main_v4 : S1024x1.Idx → EReal) y := by
  unfold iblk0
  rw [View.read_apply]
  show (V c main_v4 : S1024x1.Idx → EReal) _ = (V c main_v4 : S1024x1.Idx → EReal) _
  congr 1
  funext a
  apply Fin.ext
  match a with
  | ⟨0, _⟩ => show win0_4.index t (0 : Fin 2) * 1024 + 1 * (y 0).val = (y 0).val; rw [h0]; omega
  | ⟨1, _⟩ => show win0_4.index t (1 : Fin 2) * 1 + 1 * (y 1).val = (y 1).val; rw [h1]; omega

/-- The key bias' window's block is its whole array at every point. -/
theorem iblk_5 (c : Dev nD) (t : Fin cfg0.N) (h0 : win0_5.index t (0 : Fin 2) = 0) (h1 : win0_5.index t (1 : Fin 2) = 0)
    (y : S1024x1.Idx) :
    (iblk0 (F := Ideal) V c 5 t : Vec Ideal S1024x1 .f32) y = (V c main_v5 : S1024x1.Idx → EReal) y := by
  unfold iblk0
  rw [View.read_apply]
  show (V c main_v5 : S1024x1.Idx → EReal) _ = (V c main_v5 : S1024x1.Idx → EReal) _
  congr 1
  funext a
  apply Fin.ext
  match a with
  | ⟨0, _⟩ => show win0_5.index t (0 : Fin 2) * 1024 + 1 * (y 0).val = (y 0).val; rw [h0]; omega
  | ⟨1, _⟩ => show win0_5.index t (1 : Fin 2) * 1 + 1 * (y 1).val = (y 1).val; rw [h1]; omega

/-- The value bias' window's block is its whole array at every point. -/
theorem iblk_6 (c : Dev nD) (t : Fin cfg0.N) (h0 : win0_6.index t (0 : Fin 2) = 0) (h1 : win0_6.index t (1 : Fin 2) = 0)
    (y : S1024x1.Idx) :
    (iblk0 (F := Ideal) V c 6 t : Vec Ideal S1024x1 .f32) y = (V c main_v6 : S1024x1.Idx → EReal) y := by
  unfold iblk0
  rw [View.read_apply]
  show (V c main_v6 : S1024x1.Idx → EReal) _ = (V c main_v6 : S1024x1.Idx → EReal) _
  congr 1
  funext a
  apply Fin.ext
  match a with
  | ⟨0, _⟩ => show win0_6.index t (0 : Fin 2) * 1024 + 1 * (y 0).val = (y 0).val; rw [h0]; omega
  | ⟨1, _⟩ => show win0_6.index t (1 : Fin 2) * 1 + 1 * (y 1).val = (y 1).val; rw [h1]; omega

/-! ## Output window 7 -/

/-- The query array: the linear layer of the input with the query weights and bias, head-major, times the scale word. -/
abbrev G7 (c : Dev nD) : S8x16x64x1024.Idx → EReal :=
  unc4 (fun b n d s => heads (lin (cur3 (V c main_v11 : S8x1024x1024.Idx → EReal)) (cur2 (V c main_v0 : S1024x1024.Idx → EReal))
    (fun o => (V c main_v4 : S1024x1.Idx → EReal) (ix2 o 0))) b n d s * Ideal.ofBits .f32 0x3E000000#32)

/-- The windows' index maps over the grid: the input's block moves with the output's (batch with batch, row block with
    column block), the other input windows and the output's head and channel axes stay at block 0. -/
theorem idx_facts7 : ∀ t : Fin cfg0.N, win0_0.index t (0 : Fin 3) = win0_7.index t (0 : Fin 4)
    ∧ win0_0.index t (1 : Fin 3) = win0_7.index t (3 : Fin 4)
    ∧ win0_0.index t (2 : Fin 3) = 0
    ∧ win0_1.index t (0 : Fin 2) = 0 ∧ win0_1.index t (1 : Fin 2) = 0
    ∧ win0_4.index t (0 : Fin 2) = 0 ∧ win0_4.index t (1 : Fin 2) = 0
    ∧ win0_7.index t (1 : Fin 4) = 0 ∧ win0_7.index t (2 : Fin 4) = 0 :=
  (by decide +kernel : ∀ t : Fin grid0.N, _)

/-- Every (batch, column block) pair is some point's block index. -/
theorem idx_onto7 : ∀ (q0 : Fin 8) (q3 : Fin 2), ∃ t : Fin cfg0.N, win0_7.index t = ![q0.val, 0, 0, q3.val] :=
  (by decide +kernel : ∀ (q0 : Fin 8) (q3 : Fin 2), ∃ t : Fin grid0.N, win0_7.index t = ![q0.val, 0, 0, q3.val])

/-- What a point writes back is its block of `G7`. -/
theorem flushed7_eq (c : Dev nD) (t : Fin cfg0.N) :
    (dat0 (F := Ideal) V c).flushed 7 t = ((cfg0.win 7).blk t).view.read (Elt Ideal) (G7 V c) := by
  show (cfg0.win 7).cut (grid0.coords t) ((dat0 (F := Ideal) V c).after 7 t) = _
  rw [after0_7]
  unfold out0_7
  rw [View.canon_unit_zero hz4]
  simp only [View.ld_unit_zero (S := S1x512x1024) hz3, View.ld_unit_zero (S := S1024x1024) hz2, View.ld_unit_zero (S := S1024x1) hz2]
  obtain ⟨e0, e1, e2, e3, e4, e5, e6, e7, e8⟩ := idx_facts7 t
  refine funext_ix4 _ _ fun u n d s => ?_
  show k0_pay5 (iblk0 (F := Ideal) V c 0 t) (iblk0 (F := Ideal) V c 1 t) (iblk0 (F := Ideal) V c 4 t) (ix4 u n d s) = G7 V c (((cfg0.win 7).blk t).view.emb (ix4 u n d s))
  rw [query_at]
  refine congrArg (· * Ideal.ofBits .f32 0x3E000000#32) ?_
  refine block_lin (V c main_v11) (V c main_v0) (V c main_v4) _ _ _ (win0_7.index t (0 : Fin 4)) (win0_7.index t (3 : Fin 4))
    (fun y k k0 k1 k2 => iblk_x V c t y k ?_ ?_ ?_) (iblk_1 V c t e3 e4) (iblk_4 V c t e5 e6) n d s _ ?_ ?_ ?_ ?_
  · have hy : (y 0).val < 1 := (y 0).isLt
    rw [k0, e0]; omega
  · rw [k1, e1]; omega
  · rw [k2, e2]; omega
  · show win0_7.index t (0 : Fin 4) * 1 + 1 * u.val = _; have hu : u.val < 1 := u.isLt; omega
  · show win0_7.index t (1 : Fin 4) * 16 + 1 * n.val = _; rw [e7]; omega
  · show win0_7.index t (2 : Fin 4) * 64 + 1 * d.val = _; rw [e8]; omega
  · show win0_7.index t (3 : Fin 4) * 512 + 1 * s.val = _; omega

/-- An index of the array is in a point's block iff each coordinate is in the block's range on its axis. -/
theorem mem_blk7 (t : Fin cfg0.N) (i : S8x16x64x1024.Idx) :
    i ∈ ((cfg0.win 7).blk t).view.set ↔ ∀ a : Fin 4, win0_7.index t a * S1x16x64x512.size a ≤ (i a).val
      ∧ (i a).val < win0_7.index t a * S1x16x64x512.size a + S1x16x64x512.size a := by
  show i ∈ ((View.whole main_v12_0).slice (win0_7.rect t)).set ↔ _
  rw [View.set_slice_whole, Rect.mem_set_unit]
  exact Iff.rfl

/-- The blocks tile the array: batch `b`, position `p` lies in the block of batch `b`, column block `p / 512`. -/
theorem cover7 (i : S8x16x64x1024.Idx) :
    ∃ t : Fin cfg0.N, (cfg0.win 7).flush t = true ∧ i ∈ ((cfg0.win 7).blk t).view.set := by
  have hi0 : (i 0).val < 8 := (i 0).isLt
  have hi1 : (i 1).val < 16 := (i 1).isLt
  have hi2 : (i 2).val < 64 := (i 2).isLt
  have hi3 : (i 3).val < 1024 := (i 3).isLt
  obtain ⟨t, ht⟩ := idx_onto7 ⟨(i 0).val, hi0⟩ ⟨(i 3).val / 512, by omega⟩
  have q0 : win0_7.index t (0 : Fin 4) = (i 0).val := congrFun ht 0
  have q1 : win0_7.index t (1 : Fin 4) = 0 := congrFun ht 1
  have q2 : win0_7.index t (2 : Fin 4) = 0 := congrFun ht 2
  have q3 : win0_7.index t (3 : Fin 4) = (i 3).val / 512 := congrFun ht 3
  refine ⟨t, flush0_7 t, ?_⟩
  rw [mem_blk7]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 16 ≤ (i 1).val ∧ (i 1).val < win0_7.index t (1 : Fin 4) * 16 + 16; omega
  | ⟨2, _⟩ => show win0_7.index t (2 : Fin 4) * 64 ≤ (i 2).val ∧ (i 2).val < win0_7.index t (2 : Fin 4) * 64 + 64; omega
  | ⟨3, _⟩ => show win0_7.index t (3 : Fin 4) * 512 ≤ (i 3).val ∧ (i 3).val < win0_7.index t (3 : Fin 4) * 512 + 512; omega

/-! ## Output window 8 -/

/-- The key array: the linear layer of the input with the key weights and bias, head-major. -/
abbrev G8 (c : Dev nD) : S8x16x64x1024.Idx → EReal :=
  unc4 (heads (lin (cur3 (V c main_v11 : S8x1024x1024.Idx → EReal)) (cur2 (V c main_v1 : S1024x1024.Idx → EReal))
    (fun o => (V c main_v5 : S1024x1.Idx → EReal) (ix2 o 0))))

/-- The windows' index maps over the grid: the input's block moves with the output's (batch with batch, row block with
    column block), the other input windows and the output's head and channel axes stay at block 0. -/
theorem idx_facts8 : ∀ t : Fin cfg0.N, win0_0.index t (0 : Fin 3) = win0_8.index t (0 : Fin 4)
    ∧ win0_0.index t (1 : Fin 3) = win0_8.index t (3 : Fin 4)
    ∧ win0_0.index t (2 : Fin 3) = 0
    ∧ win0_2.index t (0 : Fin 2) = 0 ∧ win0_2.index t (1 : Fin 2) = 0
    ∧ win0_5.index t (0 : Fin 2) = 0 ∧ win0_5.index t (1 : Fin 2) = 0
    ∧ win0_8.index t (1 : Fin 4) = 0 ∧ win0_8.index t (2 : Fin 4) = 0 :=
  (by decide +kernel : ∀ t : Fin grid0.N, _)

/-- Every (batch, column block) pair is some point's block index. -/
theorem idx_onto8 : ∀ (q0 : Fin 8) (q3 : Fin 2), ∃ t : Fin cfg0.N, win0_8.index t = ![q0.val, 0, 0, q3.val] :=
  (by decide +kernel : ∀ (q0 : Fin 8) (q3 : Fin 2), ∃ t : Fin grid0.N, win0_8.index t = ![q0.val, 0, 0, q3.val])

/-- What a point writes back is its block of `G8`. -/
theorem flushed8_eq (c : Dev nD) (t : Fin cfg0.N) :
    (dat0 (F := Ideal) V c).flushed 8 t = ((cfg0.win 8).blk t).view.read (Elt Ideal) (G8 V c) := by
  show (cfg0.win 8).cut (grid0.coords t) ((dat0 (F := Ideal) V c).after 8 t) = _
  rw [after0_8]
  unfold out0_8
  rw [View.canon_unit_zero hz4]
  simp only [View.ld_unit_zero (S := S1x512x1024) hz3, View.ld_unit_zero (S := S1024x1024) hz2, View.ld_unit_zero (S := S1024x1) hz2]
  obtain ⟨e0, e1, e2, e3, e4, e5, e6, e7, e8⟩ := idx_facts8 t
  refine funext_ix4 _ _ fun u n d s => ?_
  show k0_pay1 (k0_pay6 (iblk0 (F := Ideal) V c 0 t) (iblk0 (F := Ideal) V c 2 t) (iblk0 (F := Ideal) V c 5 t)) (ix4 u n d s) = G8 V c (((cfg0.win 8).blk t).view.emb (ix4 u n d s))
  rw [key_at]
  refine block_lin (V c main_v11) (V c main_v1) (V c main_v5) _ _ _ (win0_8.index t (0 : Fin 4)) (win0_8.index t (3 : Fin 4))
    (fun y k k0 k1 k2 => iblk_x V c t y k ?_ ?_ ?_) (iblk_2 V c t e3 e4) (iblk_5 V c t e5 e6) n d s _ ?_ ?_ ?_ ?_
  · have hy : (y 0).val < 1 := (y 0).isLt
    rw [k0, e0]; omega
  · rw [k1, e1]; omega
  · rw [k2, e2]; omega
  · show win0_8.index t (0 : Fin 4) * 1 + 1 * u.val = _; have hu : u.val < 1 := u.isLt; omega
  · show win0_8.index t (1 : Fin 4) * 16 + 1 * n.val = _; rw [e7]; omega
  · show win0_8.index t (2 : Fin 4) * 64 + 1 * d.val = _; rw [e8]; omega
  · show win0_8.index t (3 : Fin 4) * 512 + 1 * s.val = _; omega

/-- An index of the array is in a point's block iff each coordinate is in the block's range on its axis. -/
theorem mem_blk8 (t : Fin cfg0.N) (i : S8x16x64x1024.Idx) :
    i ∈ ((cfg0.win 8).blk t).view.set ↔ ∀ a : Fin 4, win0_8.index t a * S1x16x64x512.size a ≤ (i a).val
      ∧ (i a).val < win0_8.index t a * S1x16x64x512.size a + S1x16x64x512.size a := by
  show i ∈ ((View.whole main_v12_1).slice (win0_8.rect t)).set ↔ _
  rw [View.set_slice_whole, Rect.mem_set_unit]
  exact Iff.rfl

/-- The blocks tile the array: batch `b`, position `p` lies in the block of batch `b`, column block `p / 512`. -/
theorem cover8 (i : S8x16x64x1024.Idx) :
    ∃ t : Fin cfg0.N, (cfg0.win 8).flush t = true ∧ i ∈ ((cfg0.win 8).blk t).view.set := by
  have hi0 : (i 0).val < 8 := (i 0).isLt
  have hi1 : (i 1).val < 16 := (i 1).isLt
  have hi2 : (i 2).val < 64 := (i 2).isLt
  have hi3 : (i 3).val < 1024 := (i 3).isLt
  obtain ⟨t, ht⟩ := idx_onto8 ⟨(i 0).val, hi0⟩ ⟨(i 3).val / 512, by omega⟩
  have q0 : win0_8.index t (0 : Fin 4) = (i 0).val := congrFun ht 0
  have q1 : win0_8.index t (1 : Fin 4) = 0 := congrFun ht 1
  have q2 : win0_8.index t (2 : Fin 4) = 0 := congrFun ht 2
  have q3 : win0_8.index t (3 : Fin 4) = (i 3).val / 512 := congrFun ht 3
  refine ⟨t, flush0_8 t, ?_⟩
  rw [mem_blk8]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 16 ≤ (i 1).val ∧ (i 1).val < win0_8.index t (1 : Fin 4) * 16 + 16; omega
  | ⟨2, _⟩ => show win0_8.index t (2 : Fin 4) * 64 ≤ (i 2).val ∧ (i 2).val < win0_8.index t (2 : Fin 4) * 64 + 64; omega
  | ⟨3, _⟩ => show win0_8.index t (3 : Fin 4) * 512 ≤ (i 3).val ∧ (i 3).val < win0_8.index t (3 : Fin 4) * 512 + 512; omega

/-! ## Output window 9 -/

/-- The value array: the linear layer of the input with the value weights and bias, head-major. -/
abbrev G9 (c : Dev nD) : S8x16x64x1024.Idx → EReal :=
  unc4 (heads (lin (cur3 (V c main_v11 : S8x1024x1024.Idx → EReal)) (cur2 (V c main_v2 : S1024x1024.Idx → EReal))
    (fun o => (V c main_v6 : S1024x1.Idx → EReal) (ix2 o 0))))

/-- The windows' index maps over the grid: the input's block moves with the output's (batch with batch, row block with
    column block), the other input windows and the output's head and channel axes stay at block 0. -/
theorem idx_facts9 : ∀ t : Fin cfg0.N, win0_0.index t (0 : Fin 3) = win0_9.index t (0 : Fin 4)
    ∧ win0_0.index t (1 : Fin 3) = win0_9.index t (3 : Fin 4)
    ∧ win0_0.index t (2 : Fin 3) = 0
    ∧ win0_3.index t (0 : Fin 2) = 0 ∧ win0_3.index t (1 : Fin 2) = 0
    ∧ win0_6.index t (0 : Fin 2) = 0 ∧ win0_6.index t (1 : Fin 2) = 0
    ∧ win0_9.index t (1 : Fin 4) = 0 ∧ win0_9.index t (2 : Fin 4) = 0 :=
  (by decide +kernel : ∀ t : Fin grid0.N, _)

/-- Every (batch, column block) pair is some point's block index. -/
theorem idx_onto9 : ∀ (q0 : Fin 8) (q3 : Fin 2), ∃ t : Fin cfg0.N, win0_9.index t = ![q0.val, 0, 0, q3.val] :=
  (by decide +kernel : ∀ (q0 : Fin 8) (q3 : Fin 2), ∃ t : Fin grid0.N, win0_9.index t = ![q0.val, 0, 0, q3.val])

/-- What a point writes back is its block of `G9`. -/
theorem flushed9_eq (c : Dev nD) (t : Fin cfg0.N) :
    (dat0 (F := Ideal) V c).flushed 9 t = ((cfg0.win 9).blk t).view.read (Elt Ideal) (G9 V c) := by
  show (cfg0.win 9).cut (grid0.coords t) ((dat0 (F := Ideal) V c).after 9 t) = _
  rw [after0_9]
  unfold out0_9
  rw [View.canon_unit_zero hz4]
  simp only [View.ld_unit_zero (S := S1x512x1024) hz3, View.ld_unit_zero (S := S1024x1024) hz2, View.ld_unit_zero (S := S1024x1) hz2]
  obtain ⟨e0, e1, e2, e3, e4, e5, e6, e7, e8⟩ := idx_facts9 t
  refine funext_ix4 _ _ fun u n d s => ?_
  show k0_pay2 (k0_pay4 (iblk0 (F := Ideal) V c 0 t) (iblk0 (F := Ideal) V c 3 t) (iblk0 (F := Ideal) V c 6 t)) (ix4 u n d s) = G9 V c (((cfg0.win 9).blk t).view.emb (ix4 u n d s))
  rw [value_at]
  refine block_lin (V c main_v11) (V c main_v2) (V c main_v6) _ _ _ (win0_9.index t (0 : Fin 4)) (win0_9.index t (3 : Fin 4))
    (fun y k k0 k1 k2 => iblk_x V c t y k ?_ ?_ ?_) (iblk_3 V c t e3 e4) (iblk_6 V c t e5 e6) n d s _ ?_ ?_ ?_ ?_
  · have hy : (y 0).val < 1 := (y 0).isLt
    rw [k0, e0]; omega
  · rw [k1, e1]; omega
  · rw [k2, e2]; omega
  · show win0_9.index t (0 : Fin 4) * 1 + 1 * u.val = _; have hu : u.val < 1 := u.isLt; omega
  · show win0_9.index t (1 : Fin 4) * 16 + 1 * n.val = _; rw [e7]; omega
  · show win0_9.index t (2 : Fin 4) * 64 + 1 * d.val = _; rw [e8]; omega
  · show win0_9.index t (3 : Fin 4) * 512 + 1 * s.val = _; omega

/-- An index of the array is in a point's block iff each coordinate is in the block's range on its axis. -/
theorem mem_blk9 (t : Fin cfg0.N) (i : S8x16x64x1024.Idx) :
    i ∈ ((cfg0.win 9).blk t).view.set ↔ ∀ a : Fin 4, win0_9.index t a * S1x16x64x512.size a ≤ (i a).val
      ∧ (i a).val < win0_9.index t a * S1x16x64x512.size a + S1x16x64x512.size a := by
  show i ∈ ((View.whole main_v12_2).slice (win0_9.rect t)).set ↔ _
  rw [View.set_slice_whole, Rect.mem_set_unit]
  exact Iff.rfl

/-- The blocks tile the array: batch `b`, position `p` lies in the block of batch `b`, column block `p / 512`. -/
theorem cover9 (i : S8x16x64x1024.Idx) :
    ∃ t : Fin cfg0.N, (cfg0.win 9).flush t = true ∧ i ∈ ((cfg0.win 9).blk t).view.set := by
  have hi0 : (i 0).val < 8 := (i 0).isLt
  have hi1 : (i 1).val < 16 := (i 1).isLt
  have hi2 : (i 2).val < 64 := (i 2).isLt
  have hi3 : (i 3).val < 1024 := (i 3).isLt
  obtain ⟨t, ht⟩ := idx_onto9 ⟨(i 0).val, hi0⟩ ⟨(i 3).val / 512, by omega⟩
  have q0 : win0_9.index t (0 : Fin 4) = (i 0).val := congrFun ht 0
  have q1 : win0_9.index t (1 : Fin 4) = 0 := congrFun ht 1
  have q2 : win0_9.index t (2 : Fin 4) = 0 := congrFun ht 2
  have q3 : win0_9.index t (3 : Fin 4) = (i 3).val / 512 := congrFun ht 3
  refine ⟨t, flush0_9 t, ?_⟩
  rw [mem_blk9]
  intro a
  match a with
  | ⟨0, _⟩ => show win0_9.index t (0 : Fin 4) * 1 ≤ (i 0).val ∧ (i 0).val < win0_9.index t (0 : Fin 4) * 1 + 1; omega
  | ⟨1, _⟩ => show win0_9.index t (1 : Fin 4) * 16 ≤ (i 1).val ∧ (i 1).val < win0_9.index t (1 : Fin 4) * 16 + 16; omega
  | ⟨2, _⟩ => show win0_9.index t (2 : Fin 4) * 64 ≤ (i 2).val ∧ (i 2).val < win0_9.index t (2 : Fin 4) * 64 + 64; omega
  | ⟨3, _⟩ => show win0_9.index t (3 : Fin 4) * 512 ≤ (i 3).val ∧ (i 3).val < win0_9.index t (3 : Fin 4) * 512 + 512; omega

/-- After the first call the query array holds, in the head-major layout, the scaled linear layer of the (cast)
    input with the query weights. -/
theorem arr0_7 (c : Dev nD) : (dat0 (F := Ideal) V c).arrAt 7 cfg0.N
    = unc4 (fun b n d s => heads (lin (cur3 (V c main_v11 : S8x1024x1024.Idx → EReal)) (cur2 (V c main_v0 : S1024x1024.Idx → EReal))
        (fun o => (V c main_v4 : S1024x1.Idx → EReal) (ix2 o 0))) b n d s * Ideal.ofBits .f32 0x3E000000#32) :=
  (dat0 (F := Ideal) V c).arrAt_eq_of_cover 7 (G7 V c) (fun t _ => flushed7_eq V c t) cover7

/-- The key array: the linear layer with the key weights, head-major. -/
theorem arr0_8 (c : Dev nD) : (dat0 (F := Ideal) V c).arrAt 8 cfg0.N
    = unc4 (heads (lin (cur3 (V c main_v11 : S8x1024x1024.Idx → EReal)) (cur2 (V c main_v1 : S1024x1024.Idx → EReal))
        (fun o => (V c main_v5 : S1024x1.Idx → EReal) (ix2 o 0)))) :=
  (dat0 (F := Ideal) V c).arrAt_eq_of_cover 8 (G8 V c) (fun t _ => flushed8_eq V c t) cover8

/-- The value array: the linear layer with the value weights, head-major. -/
theorem arr0_9 (c : Dev nD) : (dat0 (F := Ideal) V c).arrAt 9 cfg0.N
    = unc4 (heads (lin (cur3 (V c main_v11 : S8x1024x1024.Idx → EReal)) (cur2 (V c main_v2 : S1024x1024.Idx → EReal))
        (fun o => (V c main_v6 : S1024x1.Idx → EReal) (ix2 o 0)))) :=
  (dat0 (F := Ideal) V c).arrAt_eq_of_cover 9 (G9 V c) (fun t _ => flushed9_eq V c t) cover9

end Cert.KernelIdeal.Region0

end
-- ==== Proof.Region1.lean ====
import proofs.«417071_j61770219651176_3_alg».proof.Proof.Gen.KernelIdeal.Frame
import proofs.«417071_j61770219651176_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The guard of the softmax denominator: the named constant's value. -/
abbrev guard : EReal := Named.named (F := Ideal) κ "inv_1000000000000000000000000000000" (φ := .f32) 0x0DA24260#32

/-! ## Layout operations of the body, read at an index -/

section Layout
variable {α : Type}

/-- The block's leading unit axis dropped: (h, d, i) reads (0, h, d, i). -/
theorem dropUnit_apply (x : S1x2x64x1024.Idx → α) (hc : S1x2x64x1024.ShapeCasts S2x64x1024) (h : Fin 2) (d : Fin 64) (i : Fin 1024) :
    shapeCast S2x64x1024 x hc (ix3 h d i) = x (ix4 (0 : Fin 1) h d i) :=
  shapeCast_1abc_abc_apply x hc h d i

/-- The leading unit axis put back: (z, h, d, i) reads (h, d, i). -/
theorem addUnit_apply (y : S2x64x1024.Idx → α) (hc : S2x64x1024.ShapeCasts S1x2x64x1024) (z : Fin 1) (h : Fin 2) (d : Fin 64) (i : Fin 1024) :
    shapeCast S1x2x64x1024 y hc (ix4 z h d i) = y (ix3 h d i) :=
  shapeCast_abc_1abc_apply y hc z h d i

/-- The mask row, flattened and unflattened, then broadcast over heads and query positions: (h, i, j) reads (0, 0, j). -/
theorem maskRow_apply (x : S1x1x1024.Idx → α) (h1 : S1x1x1024.ShapeCasts S1024) (h2 : S1024.ShapeCasts S1x1x1024)
    (hb : S1x1x1024.Broadcasts S2x1024x1024) (h : Fin 2) (i j : Fin 1024) :
    broadcastTo S2x1024x1024 (shapeCast S1x1x1024 (shapeCast S1024 x h1) h2) hb (ix3 h i j) = x (ix3 (0 : Fin 1) (0 : Fin 1) j) := by
  rw [shapeCast_shapeCast]
  refine broadcastTo_apply x hb _ _ fun a => ?_
  match a with
  | ⟨0, _⟩ => rfl
  | ⟨1, _⟩ => rfl
  | ⟨2, _⟩ => rfl

/-- A per-row quantity as a column: (h, i, u) reads (h, i). -/
theorem column_apply (r : S2x1024.Idx → α) (hc : S2x1024.ShapeCasts S2x1024x1) (h : Fin 2) (i : Fin 1024) (u : Fin 1) :
    shapeCast S2x1024x1 r hc (ix3 h i u) = r (ix2 h i) :=
  shapeCast_apply r hc _ _ (by
    rw [Shape.rowMajor_val_two, Shape.rowMajor_val_three]
    show h.val * 1024 + i.val = (h.val * 1024 + i.val) * 1 + u.val
    omega)

/-- A column broadcast along the key positions: (h, i, j) reads (h, i, 0). -/
theorem columnBroadcast_apply (v : S2x1024x1.Idx → α) (hb : S2x1024x1.Broadcasts S2x1024x1024) (h : Fin 2) (i j : Fin 1024) :
    broadcastTo S2x1024x1024 v hb (ix3 h i j) = v (ix3 h i (0 : Fin 1)) := by
  refine broadcastTo_apply v hb _ _ fun a => ?_
  match a with
  | ⟨0, _⟩ => rfl
  | ⟨1, _⟩ => rfl
  | ⟨2, _⟩ => rfl

end Layout

/-! ## The two contractions -/

theorem lhs_qk_0 (i : S2x1024x1024.Idx) (q : dot_S2x64x1024_S2x64x1024_S2x1024x1024_1_1_2_2_0_0.contr.Idx) :
    (dot_S2x64x1024_S2x64x1024_S2x1024x1024_1_1_2_2_0_0.lhsIdx i q 0).val = (i 0).val := by
  unfold DotDims.lhsIdx
  rw [dif_pos (show (0 : Fin S2x64x1024.rank) ∈ dot_S2x64x1024_S2x64x1024_S2x1024x1024_1_1_2_2_0_0.lhsBatch by decide)]
  rfl
theorem lhs_qk_1 (i : S2x1024x1024.Idx) (q : dot_S2x64x1024_S2x64x1024_S2x1024x1024_1_1_2_2_0_0.contr.Idx) :
    (dot_S2x64x1024_S2x64x1024_S2x1024x1024_1_1_2_2_0_0.lhsIdx i q 1).val = (q ⟨0, by decide⟩).val :=
  dot_S2x64x1024_S2x64x1024_S2x1024x1024_1_1_2_2_0_0.lhsIdx_val_of_single rfl i q
theorem lhs_qk_2 (i : S2x1024x1024.Idx) (q : dot_S2x64x1024_S2x64x1024_S2x1024x1024_1_1_2_2_0_0.contr.Idx) :
    (dot_S2x64x1024_S2x64x1024_S2x1024x1024_1_1_2_2_0_0.lhsIdx i q 2).val = (i 1).val := by
  unfold DotDims.lhsIdx
  rw [dif_neg (show ¬(2 : Fin S2x64x1024.rank) ∈ dot_S2x64x1024_S2x64x1024_S2x1024x1024_1_1_2_2_0_0.lhsBatch by decide), dif_pos (show (2 : Fin S2x64x1024.rank) ∈ dot_S2x64x1024_S2x64x1024_S2x1024x1024_1_1_2_2_0_0.lhsNonContracting by decide)]
  rfl
theorem rhs_qk_0 (i : S2x1024x1024.Idx) (q : dot_S2x64x1024_S2x64x1024_S2x1024x1024_1_1_2_2_0_0.contr.Idx) :
    (dot_S2x64x1024_S2x64x1024_S2x1024x1024_1_1_2_2_0_0.rhsIdx i q 0).val = (i 0).val := by
  unfold DotDims.rhsIdx
  rw [dif_pos (show (0 : Fin S2x64x1024.rank) ∈ dot_S2x64x1024_S2x64x1024_S2x1024x1024_1_1_2_2_0_0.rhsBatch by decide)]
  rfl
theorem rhs_qk_1 (i : S2x1024x1024.Idx) (q : dot_S2x64x1024_S2x64x1024_S2x1024x1024_1_1_2_2_0_0.contr.Idx) :
    (dot_S2x64x1024_S2x64x1024_S2x1024x1024_1_1_2_2_0_0.rhsIdx i q 1).val = (q ⟨0, by decide⟩).val :=
  dot_S2x64x1024_S2x64x1024_S2x1024x1024_1_1_2_2_0_0.rhsIdx_val_of_single rfl i q
theorem rhs_qk_2 (i : S2x1024x1024.Idx) (q : dot_S2x64x1024_S2x64x1024_S2x1024x1024_1_1_2_2_0_0.contr.Idx) :
    (dot_S2x64x1024_S2x64x1024_S2x1024x1024_1_1_2_2_0_0.rhsIdx i q 2).val = (i 2).val := by
  unfold DotDims.rhsIdx
  rw [dif_neg (show ¬(2 : Fin S2x64x1024.rank) ∈ dot_S2x64x1024_S2x64x1024_S2x1024x1024_1_1_2_2_0_0.rhsBatch by decide), dif_pos (show (2 : Fin S2x64x1024.rank) ∈ dot_S2x64x1024_S2x64x1024_S2x1024x1024_1_1_2_2_0_0.rhsNonContracting by decide)]
  rfl

/-- Queries against keys: the product at (h, i, j) sums, over the channels, query channel at i times key channel at j. -/
theorem qk_apply (a b : FVec Ideal S2x64x1024 .bf16) (h : Fin 2) (i j : Fin 1024) :
    matmul (F := Ideal) dot_S2x64x1024_S2x64x1024_S2x1024x1024_1_1_2_2_0_0 none a b (constant (F := Ideal) S2x1024x1024 .f32 0x00000000#32) (ix3 h i j)
      = ∑ d : Fin 64, a (ix3 h d i) * b (ix3 h d j) := by
  simp only [matmul]
  rw [Ideal.matmul_constant_zero_apply, ← Equiv.sum_comp (ValueIdx.contrEquiv1 dot_S2x64x1024_S2x64x1024_S2x1024x1024_1_1_2_2_0_0 64 rfl rfl).symm]
  refine Finset.sum_congr rfl fun k _ => ?_
  have hk := ValueIdx.contrEquiv1_symm_val dot_S2x64x1024_S2x64x1024_S2x1024x1024_1_1_2_2_0_0 64 rfl rfl k
  have el : dot_S2x64x1024_S2x64x1024_S2x1024x1024_1_1_2_2_0_0.lhsIdx (ix3 h i j) ((ValueIdx.contrEquiv1 dot_S2x64x1024_S2x64x1024_S2x1024x1024_1_1_2_2_0_0 64 rfl rfl).symm k) = ix3 h k i := funext fun ax => Fin.ext (by
    match ax with
    | ⟨0, _⟩ => exact lhs_qk_0 _ _
    | ⟨1, _⟩ => exact (lhs_qk_1 _ _).trans hk
    | ⟨2, _⟩ => exact lhs_qk_2 _ _)
  have er : dot_S2x64x1024_S2x64x1024_S2x1024x1024_1_1_2_2_0_0.rhsIdx (ix3 h i j) ((ValueIdx.contrEquiv1 dot_S2x64x1024_S2x64x1024_S2x1024x1024_1_1_2_2_0_0 64 rfl rfl).symm k) = ix3 h k j := funext fun ax => Fin.ext (by
    match ax with
    | ⟨0, _⟩ => exact rhs_qk_0 _ _
    | ⟨1, _⟩ => exact (rhs_qk_1 _ _).trans hk
    | ⟨2, _⟩ => exact rhs_qk_2 _ _)
  rw [el, er]

theorem lhs_pv_0 (i : S2x64x1024.Idx) (q : dot_S2x64x1024_S2x1024x1024_S2x64x1024_2_2_1_1_0_0.contr.Idx) :
    (dot_S2x64x1024_S2x1024x1024_S2x64x1024_2_2_1_1_0_0.lhsIdx i q 0).val = (i 0).val := by
  unfold DotDims.lhsIdx
  rw [dif_pos (show (0 : Fin S2x64x1024.rank) ∈ dot_S2x64x1024_S2x1024x1024_S2x64x1024_2_2_1_1_0_0.lhsBatch by decide)]
  rfl
theorem lhs_pv_1 (i : S2x64x1024.Idx) (q : dot_S2x64x1024_S2x1024x1024_S2x64x1024_2_2_1_1_0_0.contr.Idx) :
    (dot_S2x64x1024_S2x1024x1024_S2x64x1024_2_2_1_1_0_0.lhsIdx i q 1).val = (i 1).val := by
  unfold DotDims.lhsIdx
  rw [dif_neg (show ¬(1 : Fin S2x64x1024.rank) ∈ dot_S2x64x1024_S2x1024x1024_S2x64x1024_2_2_1_1_0_0.lhsBatch by decide), dif_pos (show (1 : Fin S2x64x1024.rank) ∈ dot_S2x64x1024_S2x1024x1024_S2x64x1024_2_2_1_1_0_0.lhsNonContracting by decide)]
  rfl
theorem lhs_pv_2 (i : S2x64x1024.Idx) (q : dot_S2x64x1024_S2x1024x1024_S2x64x1024_2_2_1_1_0_0.contr.Idx) :
    (dot_S2x64x1024_S2x1024x1024_S2x64x1024_2_2_1_1_0_0.lhsIdx i q 2).val = (q ⟨0, by decide⟩).val :=
  dot_S2x64x1024_S2x1024x1024_S2x64x1024_2_2_1_1_0_0.lhsIdx_val_of_single rfl i q
theorem rhs_pv_0 (i : S2x64x1024.Idx) (q : dot_S2x64x1024_S2x1024x1024_S2x64x1024_2_2_1_1_0_0.contr.Idx) :
    (dot_S2x64x1024_S2x1024x1024_S2x64x1024_2_2_1_1_0_0.rhsIdx i q 0).val = (i 0).val := by
  unfold DotDims.rhsIdx
  rw [dif_pos (show (0 : Fin S2x1024x1024.rank) ∈ dot_S2x64x1024_S2x1024x1024_S2x64x1024_2_2_1_1_0_0.rhsBatch by decide)]
  rfl
theorem rhs_pv_1 (i : S2x64x1024.Idx) (q : dot_S2x64x1024_S2x1024x1024_S2x64x1024_2_2_1_1_0_0.contr.Idx) :
    (dot_S2x64x1024_S2x1024x1024_S2x64x1024_2_2_1_1_0_0.rhsIdx i q 1).val = (i 2).val := by
  unfold DotDims.rhsIdx
  rw [dif_neg (show ¬(1 : Fin S2x1024x1024.rank) ∈ dot_S2x64x1024_S2x1024x1024_S2x64x1024_2_2_1_1_0_0.rhsBatch by decide), dif_pos (show (1 : Fin S2x1024x1024.rank) ∈ dot_S2x64x1024_S2x1024x1024_S2x64x1024_2_2_1_1_0_0.rhsNonContracting by decide)]
  rfl
theorem rhs_pv_2 (i : S2x64x1024.Idx) (q : dot_S2x64x1024_S2x1024x1024_S2x64x1024_2_2_1_1_0_0.contr.Idx) :
    (dot_S2x64x1024_S2x1024x1024_S2x64x1024_2_2_1_1_0_0.rhsIdx i q 2).val = (q ⟨0, by decide⟩).val :=
  dot_S2x64x1024_S2x1024x1024_S2x64x1024_2_2_1_1_0_0.rhsIdx_val_of_single rfl i q

/-- Values against probabilities: the product at (h, d, i) sums, over the key positions, value channel at j times
    the probability of key j for query i. -/
theorem pv_apply (a : FVec Ideal S2x64x1024 .bf16) (p : FVec Ideal S2x1024x1024 .bf16) (h : Fin 2) (d : Fin 64) (i : Fin 1024) :
    matmul (F := Ideal) dot_S2x64x1024_S2x1024x1024_S2x64x1024_2_2_1_1_0_0 none a p (constant (F := Ideal) S2x64x1024 .f32 0x00000000#32) (ix3 h d i)
      = ∑ j : Fin 1024, a (ix3 h d j) * p (ix3 h i j) := by
  simp only [matmul]
  rw [Ideal.matmul_constant_zero_apply, ← Equiv.sum_comp (ValueIdx.contrEquiv1 dot_S2x64x1024_S2x1024x1024_S2x64x1024_2_2_1_1_0_0 1024 rfl rfl).symm]
  refine Finset.sum_congr rfl fun k _ => ?_
  have hk := ValueIdx.contrEquiv1_symm_val dot_S2x64x1024_S2x1024x1024_S2x64x1024_2_2_1_1_0_0 1024 rfl rfl k
  have el : dot_S2x64x1024_S2x1024x1024_S2x64x1024_2_2_1_1_0_0.lhsIdx (ix3 h d i) ((ValueIdx.contrEquiv1 dot_S2x64x1024_S2x1024x1024_S2x64x1024_2_2_1_1_0_0 1024 rfl rfl).symm k) = ix3 h d k := funext fun ax => Fin.ext (by
    match ax with
    | ⟨0, _⟩ => exact lhs_pv_0 _ _
    | ⟨1, _⟩ => exact lhs_pv_1 _ _
    | ⟨2, _⟩ => exact (lhs_pv_2 _ _).trans hk)
  have er : dot_S2x64x1024_S2x1024x1024_S2x64x1024_2_2_1_1_0_0.rhsIdx (ix3 h d i) ((ValueIdx.contrEquiv1 dot_S2x64x1024_S2x1024x1024_S2x64x1024_2_2_1_1_0_0 1024 rfl rfl).symm k) = ix3 h i k := funext fun ax => Fin.ext (by
    match ax with
    | ⟨0, _⟩ => exact rhs_pv_0 _ _
    | ⟨1, _⟩ => exact rhs_pv_1 _ _
    | ⟨2, _⟩ => exact (rhs_pv_2 _ _).trans hk)
  rw [el, er]

/-! ## The two words the body names, and the two row reductions -/

/-- The word the row maximum starts from is −∞. -/
theorem negInf_word : Ideal.ofBits .f32 0xFF800000#32 = ⊥ := by simp [Ideal.ofBits, Ideal.ieee]
/-- The numerator of the reciprocal is 1. -/
theorem one_word : Ideal.ofBits .f32 0x3F800000#32 = 1 := by simp [Ideal.ofBits, Ideal.ieee, -EReal.coe_mul]; norm_num

/-- The row maximum at (h, i): the fold of max from −∞ over the key positions. -/
theorem rowMax_apply (v : FVec Ideal S2x1024x1024 .f32) (hr : S2x1024x1024.Reduces [2] S2x1024) (hφ : FKind.Formats .f32)
    (hacc : (0xFF800000#32 : BitVec (FTy.bits .f32)) = FKind.maximumf.neutral .f32 hφ) (h : Fin 2) (i : Fin 1024) :
    multiReduction (F := Ideal) .maximumf [2] S2x1024 v 0xFF800000#32 hr hφ hacc (ix2 h i)
      = (Finset.univ : Finset (Fin 1024)).fold max ⊥ (fun j => v (ix3 h i j)) := by
  refine (Ideal.multiReduction_maximumf_single v _ hr hφ hacc (ix2 h i)).trans ?_
  show (Finset.univ : Finset (Fin 1024)).fold max (Ideal.ofBits .f32 0xFF800000#32) (fun k => v (hr.lift (ix2 h i) k)) = _
  rw [negInf_word]
  refine congrArg (fun f => (Finset.univ : Finset (Fin 1024)).fold max ⊥ f) (funext fun k => congrArg v (funext fun a => Fin.ext ?_))
  match a with
  | ⟨0, _⟩ => rfl
  | ⟨1, _⟩ => rfl
  | ⟨2, _⟩ => rfl

/-- The row sum at (h, i): the sum over the key positions. -/
theorem rowSum_apply (v : FVec Ideal S2x1024x1024 .f32) (hr : S2x1024x1024.Reduces [2] S2x1024) (hφ : FKind.Formats .f32)
    (hacc : (0x00000000#32 : BitVec (FTy.bits .f32)) = FKind.add.neutral .f32 hφ) (h : Fin 2) (i : Fin 1024) :
    multiReduction (F := Ideal) .add [2] S2x1024 v 0x00000000#32 hr hφ hacc (ix2 h i) = ∑ j : Fin 1024, v (ix3 h i j) := by
  refine (Ideal.multiReduction_add_single v _ hr hφ hacc (ix2 h i)).trans ?_
  show ∑ k : Fin 1024, v (hr.lift (ix2 h i) k) = _
  refine Finset.sum_congr rfl fun k _ => congrArg v (funext fun a => Fin.ext ?_)
  match a with
  | ⟨0, _⟩ => rfl
  | ⟨1, _⟩ => rfl
  | ⟨2, _⟩ => rfl

/-! ## One head: the attention of a head's queries, keys and values under a mask row

The functions below are the specification's, with the batch and the head fixed. -/

/-- A head's scores. -/
def headScores (q k : Fin 64 → Fin 1024 → EReal) (m : Fin 1024 → EReal) : Fin 1024 → Fin 1024 → EReal :=
  fun i j => (∑ d : Fin 64, q d i * k d j) + m j
/-- A row's maximum. -/
def headMax (S : Fin 1024 → Fin 1024 → EReal) : Fin 1024 → EReal :=
  fun i => (Finset.univ : Finset (Fin 1024)).fold max ⊥ (fun j => S i j)
/-- The shifted exponentials. -/
def headExp (S : Fin 1024 → Fin 1024 → EReal) : Fin 1024 → Fin 1024 → EReal :=
  fun i j => Ideal.exp (S i j - headMax S i)
/-- The probabilities, by the guarded reciprocal. -/
def headProbs (ε : EReal) (S : Fin 1024 → Fin 1024 → EReal) : Fin 1024 → Fin 1024 → EReal :=
  fun i j => headExp S i j * Ideal.div 1 (max (∑ j' : Fin 1024, headExp S i j') ε)
/-- The context. -/
def headCtx (P : Fin 1024 → Fin 1024 → EReal) (v : Fin 64 → Fin 1024 → EReal) : Fin 64 → Fin 1024 → EReal :=
  fun d i => ∑ j : Fin 1024, P i j * v d j
/-- A head's attention. -/
def headAttn (ε : EReal) (q k v : Fin 64 → Fin 1024 → EReal) (m : Fin 1024 → EReal) : Fin 64 → Fin 1024 → EReal :=
  headCtx (headProbs ε (headScores q k m)) v

/-- The specification's attention at batch b and head n is that head's attention. -/
theorem attnL_head (ε : EReal) (Q K W : L4) (M : Mk) (b : Fin 8) (n : Fin 16) (d : Fin 64) (i : Fin 1024) :
    attnL (probsK ε) Q K W M b n d i = headAttn ε (Q b n) (K b n) (W b n) (M b) d i := rfl

/-! ## The body's value, stage by stage -/

/-- The scores of the block's two heads: queries against keys over the channels, plus the mask row. -/
def stScores (x0 x1 : FVec Ideal S1x2x64x1024 .bf16) (x3 : FVec Ideal S1x1x1024 .f32) : FVec Ideal S2x1024x1024 .f32 :=
  addf (matmul dot_S2x64x1024_S2x64x1024_S2x1024x1024_1_1_2_2_0_0 none (shapeCast S2x64x1024 x0 shapeCasts_S1x2x64x1024_S2x64x1024) (shapeCast S2x64x1024 x1 shapeCasts_S1x2x64x1024_S2x64x1024) (constant S2x1024x1024 .f32 0x00000000#32))
    (broadcastTo S2x1024x1024 (shapeCast S1x1x1024 (shapeCast S1024 x3 shapeCasts_S1x1x1024_S1024) shapeCasts_S1024_S1x1x1024) broadcasts_S1x1x1024_S2x1024x1024)

theorem stScores_apply (x0 x1 : FVec Ideal S1x2x64x1024 .bf16) (x3 : FVec Ideal S1x1x1024 .f32) (h : Fin 2) (i j : Fin 1024) :
    stScores x0 x1 x3 (ix3 h i j)
      = (∑ d : Fin 64, x0 (ix4 (0 : Fin 1) h d i) * x1 (ix4 (0 : Fin 1) h d j)) + x3 (ix3 (0 : Fin 1) (0 : Fin 1) j) := by
  unfold stScores
  rw [addf_apply, qk_apply, maskRow_apply]
  simp only [dropUnit_apply]

/-- The row maxima. -/
def stMax (s : FVec Ideal S2x1024x1024 .f32) : FVec Ideal S2x1024 .f32 :=
  multiReduction .maximumf [2] S2x1024 s 0xFF800000#32 reduces_S2x1024x1024_S2x1024 (.inl rfl) rfl

theorem stMax_apply (s : FVec Ideal S2x1024x1024 .f32) (h : Fin 2) (i : Fin 1024) :
    stMax s (ix2 h i) = (Finset.univ : Finset (Fin 1024)).fold max ⊥ (fun j => s (ix3 h i j)) :=
  rowMax_apply s _ _ _ h i

/-- The shifted exponentials. -/
def stExp (s : FVec Ideal S2x1024x1024 .f32) : FVec Ideal S2x1024x1024 .f32 :=
  exp (subf s (broadcastTo S2x1024x1024 (shapeCast S2x1024x1 (stMax s) shapeCasts_S2x1024_S2x1024x1) broadcasts_S2x1024x1_S2x1024x1024))

theorem stExp_apply (s : FVec Ideal S2x1024x1024 .f32) (h : Fin 2) (i j : Fin 1024) :
    stExp s (ix3 h i j) = Ideal.exp (s (ix3 h i j) - (Finset.univ : Finset (Fin 1024)).fold max ⊥ (fun j' => s (ix3 h i j'))) := by
  unfold stExp
  show Ideal.exp (subf s _ (ix3 h i j)) = _
  rw [subf_apply, columnBroadcast_apply, column_apply, stMax_apply]

/-- The row sums. -/
def stSum (e : FVec Ideal S2x1024x1024 .f32) : FVec Ideal S2x1024 .f32 :=
  multiReduction .add [2] S2x1024 e 0x00000000#32 reduces_S2x1024x1024_S2x1024 (.inl rfl) rfl

theorem stSum_apply (e : FVec Ideal S2x1024x1024 .f32) (h : Fin 2) (i : Fin 1024) :
    stSum e (ix2 h i) = ∑ j : Fin 1024, e (ix3 h i j) :=
  rowSum_apply e _ _ _ h i

/-- The guarded denominators, as a column. -/
def stDen (e : FVec Ideal S2x1024x1024 .f32) : FVec Ideal S2x1024x1 .f32 :=
  maximumf (shapeCast S2x1024x1 (stSum e) shapeCasts_S2x1024_S2x1024x1)
    (broadcast S2x1024x1 guard : FVec Ideal S2x1024x1 .f32)

theorem stDen_apply (e : FVec Ideal S2x1024x1024 .f32) (h : Fin 2) (i : Fin 1024) (u : Fin 1) :
    stDen e (ix3 h i u) = max (∑ j : Fin 1024, e (ix3 h i j)) guard := by
  unfold stDen
  rw [maximumf_apply, column_apply, stSum_apply]
  rfl

/-- The probabilities. -/
def stProbs (e : FVec Ideal S2x1024x1024 .f32) : FVec Ideal S2x1024x1024 .bf16 :=
  truncf .bf16 (mulf e (broadcastTo S2x1024x1024 (divf (broadcast S2x1024x1 (Scalar.ofBits .f32 0x3F800000#32) : FVec Ideal S2x1024x1 .f32) (stDen e)) broadcasts_S2x1024x1_S2x1024x1024)) bitsLt_bf16_f32

theorem stProbs_apply (e : FVec Ideal S2x1024x1024 .f32) (h : Fin 2) (i j : Fin 1024) :
    stProbs e (ix3 h i j) = e (ix3 h i j) * Ideal.div 1 (max (∑ j' : Fin 1024, e (ix3 h i j')) guard) := by
  unfold stProbs
  rw [truncf_apply, mulf_apply, columnBroadcast_apply, divf_apply, stDen_apply]
  show _ * Ideal.div (Ideal.ofBits .f32 0x3F800000#32) _ = _
  rw [one_word]

/-- The context, as the block stores it. -/
def stCtx (x2 : FVec Ideal S1x2x64x1024 .bf16) (p : FVec Ideal S2x1024x1024 .bf16) : FVec Ideal S1x2x64x1024 .bf16 :=
  shapeCast S1x2x64x1024 (truncf .bf16 (matmul dot_S2x64x1024_S2x1024x1024_S2x64x1024_2_2_1_1_0_0 none (shapeCast S2x64x1024 x2 shapeCasts_S1x2x64x1024_S2x64x1024) p (constant S2x64x1024 .f32 0x00000000#32)) bitsLt_bf16_f32) shapeCasts_S2x64x1024_S1x2x64x1024

theorem stCtx_apply (x2 : FVec Ideal S1x2x64x1024 .bf16) (p : FVec Ideal S2x1024x1024 .bf16) (z : Fin 1) (h : Fin 2) (d : Fin 64) (i : Fin 1024) :
    stCtx x2 p (ix4 z h d i) = ∑ j : Fin 1024, x2 (ix4 (0 : Fin 1) h d j) * p (ix3 h i j) := by
  unfold stCtx
  rw [addUnit_apply, truncf_apply, pv_apply]
  simp only [dropUnit_apply]

/-- The body's payload is the composition of the stages. -/
theorem pay_stages (x0 x1 x2 : FVec Ideal S1x2x64x1024 .bf16) (x3 : FVec Ideal S1x1x1024 .f32) :
    k1_pay1 (F := Ideal) x0 x1 x2 x3 = stCtx x2 (stProbs (stExp (stScores x0 x1 x3))) := rfl

/-- THE PAYLOAD AT AN INDEX: row h of the block holds the attention of the head whose queries, keys and values are
    rows h of the three input blocks, under the block's mask row. -/
theorem pay_apply (x0 x1 x2 : FVec Ideal S1x2x64x1024 .bf16) (x3 : FVec Ideal S1x1x1024 .f32) (h : Fin 2)
    (q k v : Fin 64 → Fin 1024 → EReal) (m : Fin 1024 → EReal)
    (hq : ∀ d i, x0 (ix4 (0 : Fin 1) h d i) = q d i) (hk : ∀ d i, x1 (ix4 (0 : Fin 1) h d i) = k d i)
    (hv : ∀ d i, x2 (ix4 (0 : Fin 1) h d i) = v d i) (hm : ∀ j, x3 (ix3 (0 : Fin 1) (0 : Fin 1) j) = m j)
    (z : Fin 1) (d : Fin 64) (i : Fin 1024) :
    k1_pay1 (F := Ideal) x0 x1 x2 x3 (ix4 z h d i) = headAttn guard q k v m d i := by
  rw [pay_stages, stCtx_apply]
  have hS : ∀ i j, stScores x0 x1 x3 (ix3 h i j) = headScores q k m i j := fun i j => by
    rw [stScores_apply]; simp only [hq, hk, hm]; rfl
  have hE : ∀ i j, stExp (stScores x0 x1 x3) (ix3 h i j) = headExp (headScores q k m) i j := fun i j => by
    rw [stExp_apply]; simp only [hS]; rfl
  have hP : ∀ i j, stProbs (stExp (stScores x0 x1 x3)) (ix3 h i j) = headProbs guard (headScores q k m) i j := fun i j => by
    rw [stProbs_apply]; simp only [hE]; rfl
  simp only [hP, hv]
  exact Finset.sum_congr rfl fun j _ => mul_comm _ _

/-! ## From the blocks to the array -/

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl

/-- The printed index maps over the grid: the three head-major inputs move with the output block; the mask block
    follows the output's batch index; the output's block index is (batch, head pair, 0, 0). -/
theorem idx_facts1 : ∀ t : Fin cfg1.N,
    win1_0.index t (0 : Fin 4) = win1_4.index t (0 : Fin 4) ∧ win1_0.index t (1 : Fin 4) = win1_4.index t (1 : Fin 4)
    ∧ win1_0.index t (2 : Fin 4) = 0 ∧ win1_0.index t (3 : Fin 4) = 0
    ∧ win1_1.index t (0 : Fin 4) = win1_4.index t (0 : Fin 4) ∧ win1_1.index t (1 : Fin 4) = win1_4.index t (1 : Fin 4)
    ∧ win1_1.index t (2 : Fin 4) = 0 ∧ win1_1.index t (3 : Fin 4) = 0
    ∧ win1_2.index t (0 : Fin 4) = win1_4.index t (0 : Fin 4) ∧ win1_2.index t (1 : Fin 4) = win1_4.index t (1 : Fin 4)
    ∧ win1_2.index t (2 : Fin 4) = 0 ∧ win1_2.index t (3 : Fin 4) = 0
    ∧ win1_3.index t (0 : Fin 3) = win1_4.index t (0 : Fin 4) ∧ win1_3.index t (1 : Fin 3) = 0 ∧ win1_3.index t (2 : Fin 3) = 0
    ∧ win1_4.index t (0 : Fin 4) ≤ 7 ∧ win1_4.index t (1 : Fin 4) ≤ 7
    ∧ win1_4.index t (2 : Fin 4) = 0 ∧ win1_4.index t (3 : Fin 4) = 0 :=
  (by decide +kernel : ∀ t : Fin grid1.N, _)

/-- Every (batch, head pair) is some point's block. -/
theorem idx_onto1 : ∀ (q0 : Fin 8) (q1 : Fin 8), ∃ t : Fin cfg1.N, win1_4.index t = ![q0.val, q1.val, 0, 0] :=
  (by decide +kernel : ∀ (q0 : Fin 8) (q1 : Fin 8), ∃ t : Fin grid1.N, win1_4.index t = ![q0.val, q1.val, 0, 0])

/-- WHAT POINT t WRITES BACK is its block of the whole-array attention of the arrays the call reads. -/
theorem flushed1_4_eq (c : Dev nD) (t : Fin cfg1.N) :
    (dat1 (F := Ideal) V c).flushed 4 t = ((cfg1.win 4).blk t).view.read (Elt Ideal)
      (unc4 (attnL (probsK guard) (cur4 (V c main_v12_0 : S8x16x64x1024.Idx → EReal)) (cur4 (V c main_v12_1 : S8x16x64x1024.Idx → EReal))
        (cur4 (V c main_v12_2 : S8x16x64x1024.Idx → EReal)) (fun b j => (V c main_v10 : S8x1x1024.Idx → EReal) (ix3 b 0 j)))) := by
  show (cfg1.win 4).cut (grid1.coords t) ((dat1 (F := Ideal) V c).after 4 t) = _
  rw [after1_4]
  unfold out1_4
  rw [View.canon_unit_zero zeros4]
  simp only [View.ld_unit_zero (S := S1x2x64x1024) zeros4, View.ld_unit_zero (S := S1x1x1024) zeros3]
  obtain ⟨a0, a1, a2, a3, b0, b1, b2, b3, c0, c1, c2, c3, m0, m1, m2, o0, o1, o2, o3⟩ := idx_facts1 t
  funext y
  obtain ⟨z, h, d, s, rfl⟩ : ∃ (z : Fin 1) (h : Fin 2) (d : Fin 64) (s : Fin 1024), (y : S1x2x64x1024.Idx) = ix4 z h d s :=
    ⟨y 0, y 1, y 2, y 3, eq_ix4 (n0 := 1) (n1 := 2) (n2 := 64) (n3 := 1024) y⟩
  have hb : win1_4.index t (0 : Fin 4) < 8 := by omega
  have hn : win1_4.index t (1 : Fin 4) * 2 + h.val < 16 := by have := h.isLt; omega
  have he : ((cfg1.win 4).blk t).view.emb (ix4 z h d s)
      = ix4 (⟨win1_4.index t (0 : Fin 4), hb⟩ : Fin 8) (⟨win1_4.index t (1 : Fin 4) * 2 + h.val, hn⟩ : Fin 16) d s := by
    funext a; apply Fin.ext
    match a with
    | ⟨0, _⟩ => show win1_4.index t (0 : Fin 4) * 1 + 1 * z.val = win1_4.index t (0 : Fin 4); have := z.isLt; omega
    | ⟨1, _⟩ => show win1_4.index t (1 : Fin 4) * 2 + 1 * h.val = win1_4.index t (1 : Fin 4) * 2 + h.val; omega
    | ⟨2, _⟩ => show win1_4.index t (2 : Fin 4) * 64 + 1 * d.val = d.val; omega
    | ⟨3, _⟩ => show win1_4.index t (3 : Fin 4) * 1024 + 1 * s.val = s.val; omega
  show k1_pay1 (F := Ideal) (iblk1 V c 0 t) (iblk1 V c 1 t) (iblk1 V c 2 t) (iblk1 V c 3 t) (ix4 z h d s)
    = unc4 (attnL (probsK guard) (cur4 (V c main_v12_0 : S8x16x64x1024.Idx → EReal)) (cur4 (V c main_v12_1 : S8x16x64x1024.Idx → EReal))
        (cur4 (V c main_v12_2 : S8x16x64x1024.Idx → EReal)) (fun b j => (V c main_v10 : S8x1x1024.Idx → EReal) (ix3 b 0 j)))
        (((cfg1.win 4).blk t).view.emb (ix4 z h d s))
  rw [he]
  show _ = attnL (probsK guard) (cur4 (V c main_v12_0 : S8x16x64x1024.Idx → EReal)) (cur4 (V c main_v12_1 : S8x16x64x1024.Idx → EReal))
        (cur4 (V c main_v12_2 : S8x16x64x1024.Idx → EReal)) (fun b j => (V c main_v10 : S8x1x1024.Idx → EReal) (ix3 b 0 j))
        (⟨win1_4.index t (0 : Fin 4), hb⟩ : Fin 8) (⟨win1_4.index t (1 : Fin 4) * 2 + h.val, hn⟩ : Fin 16) d s
  rw [attnL_head]
  refine pay_apply _ _ _ _ h _ _ _ _ (fun d' i' => ?_) (fun d' i' => ?_) (fun d' i' => ?_) (fun j' => ?_) z d s
  · show V c main_v12_0 (((cfg1.win 0).blk t).view.emb (ix4 (0 : Fin 1) h d' i')) = V c main_v12_0 (ix4 (⟨win1_4.index t (0 : Fin 4), hb⟩ : Fin 8) (⟨win1_4.index t (1 : Fin 4) * 2 + h.val, hn⟩ : Fin 16) d' i')
    refine congrArg (V c main_v12_0) (funext fun a => Fin.ext ?_)
    match a with
    | ⟨0, _⟩ => show win1_0.index t (0 : Fin 4) * 1 + 1 * 0 = win1_4.index t (0 : Fin 4); omega
    | ⟨1, _⟩ => show win1_0.index t (1 : Fin 4) * 2 + 1 * h.val = win1_4.index t (1 : Fin 4) * 2 + h.val; omega
    | ⟨2, _⟩ => show win1_0.index t (2 : Fin 4) * 64 + 1 * d'.val = d'.val; omega
    | ⟨3, _⟩ => show win1_0.index t (3 : Fin 4) * 1024 + 1 * i'.val = i'.val; omega
  · show V c main_v12_1 (((cfg1.win 1).blk t).view.emb (ix4 (0 : Fin 1) h d' i')) = V c main_v12_1 (ix4 (⟨win1_4.index t (0 : Fin 4), hb⟩ : Fin 8) (⟨win1_4.index t (1 : Fin 4) * 2 + h.val, hn⟩ : Fin 16) d' i')
    refine congrArg (V c main_v12_1) (funext fun a => Fin.ext ?_)
    match a with
    | ⟨0, _⟩ => show win1_1.index t (0 : Fin 4) * 1 + 1 * 0 = win1_4.index t (0 : Fin 4); omega
    | ⟨1, _⟩ => show win1_1.index t (1 : Fin 4) * 2 + 1 * h.val = win1_4.index t (1 : Fin 4) * 2 + h.val; omega
    | ⟨2, _⟩ => show win1_1.index t (2 : Fin 4) * 64 + 1 * d'.val = d'.val; omega
    | ⟨3, _⟩ => show win1_1.index t (3 : Fin 4) * 1024 + 1 * i'.val = i'.val; omega
  · show V c main_v12_2 (((cfg1.win 2).blk t).view.emb (ix4 (0 : Fin 1) h d' i')) = V c main_v12_2 (ix4 (⟨win1_4.index t (0 : Fin 4), hb⟩ : Fin 8) (⟨win1_4.index t (1 : Fin 4) * 2 + h.val, hn⟩ : Fin 16) d' i')
    refine congrArg (V c main_v12_2) (funext fun a => Fin.ext ?_)
    match a with
    | ⟨0, _⟩ => show win1_2.index t (0 : Fin 4) * 1 + 1 * 0 = win1_4.index t (0 : Fin 4); omega
    | ⟨1, _⟩ => show win1_2.index t (1 : Fin 4) * 2 + 1 * h.val = win1_4.index t (1 : Fin 4) * 2 + h.val; omega
    | ⟨2, _⟩ => show win1_2.index t (2 : Fin 4) * 64 + 1 * d'.val = d'.val; omega
    | ⟨3, _⟩ => show win1_2.index t (3 : Fin 4) * 1024 + 1 * i'.val = i'.val; omega
  · show V c main_v10 (((cfg1.win 3).blk t).view.emb (ix3 (0 : Fin 1) (0 : Fin 1) j')) = V c main_v10 (ix3 (⟨win1_4.index t (0 : Fin 4), hb⟩ : Fin 8) (0 : Fin 1) j')
    refine congrArg (V c main_v10) (funext fun a => Fin.ext ?_)
    match a with
    | ⟨0, _⟩ => show win1_3.index t (0 : Fin 3) * 1 + 1 * 0 = win1_4.index t (0 : Fin 4); omega
    | ⟨1, _⟩ => show win1_3.index t (1 : Fin 3) * 1 + 1 * 0 = 0; omega
    | ⟨2, _⟩ => show win1_3.index t (2 : Fin 3) * 1024 + 1 * j'.val = j'.val; omega

/-- An index of the array is in point t's block iff each coordinate is in the block's range on its axis. -/
theorem mem_blk1_4 (t : Fin cfg1.N) (i : S8x16x64x1024.Idx) :
    i ∈ ((cfg1.win 4).blk t).view.set ↔ ∀ a : Fin 4, win1_4.index t a * S1x2x64x1024.size a ≤ (i a).val ∧ (i a).val < win1_4.index t a * S1x2x64x1024.size a + S1x2x64x1024.size a := by
  show i ∈ ((View.whole main_v13).slice (win1_4.rect t)).set ↔ _
  rw [View.set_slice_whole, Rect.mem_set_unit]
  exact Iff.rfl

/-- The blocks tile the array: the index (b, n, d, s) is in the block of the point whose block index is (b, n / 2, 0, 0). -/
theorem covered1_4 (i : S8x16x64x1024.Idx) : ∃ t : Fin cfg1.N, (cfg1.win 4).flush t = true ∧ i ∈ ((cfg1.win 4).blk t).view.set := by
  have hi0 : (i 0).val < 8 := (i 0).isLt
  have hi1 : (i 1).val < 16 := (i 1).isLt
  have hi2 : (i 2).val < 64 := (i 2).isLt
  have hi3 : (i 3).val < 1024 := (i 3).isLt
  obtain ⟨t, ht⟩ := idx_onto1 ⟨(i 0).val, hi0⟩ ⟨(i 1).val / 2, by omega⟩
  have q0 : win1_4.index t (0 : Fin 4) = (i 0).val := congrFun ht 0
  have q1 : win1_4.index t (1 : Fin 4) = (i 1).val / 2 := congrFun ht 1
  have q2 : win1_4.index t (2 : Fin 4) = 0 := congrFun ht 2
  have q3 : win1_4.index t (3 : Fin 4) = 0 := congrFun ht 3
  refine ⟨t, flush1_4 t, ?_⟩
  rw [mem_blk1_4]
  intro a
  match a with
  | ⟨0, _⟩ => show win1_4.index t (0 : Fin 4) * 1 ≤ (i 0).val ∧ (i 0).val < win1_4.index t (0 : Fin 4) * 1 + 1; omega
  | ⟨1, _⟩ => show win1_4.index t (1 : Fin 4) * 2 ≤ (i 1).val ∧ (i 1).val < win1_4.index t (1 : Fin 4) * 2 + 2; omega
  | ⟨2, _⟩ => show win1_4.index t (2 : Fin 4) * 64 ≤ (i 2).val ∧ (i 2).val < win1_4.index t (2 : Fin 4) * 64 + 64; omega
  | ⟨3, _⟩ => show win1_4.index t (3 : Fin 4) * 1024 ≤ (i 3).val ∧ (i 3).val < win1_4.index t (3 : Fin 4) * 1024 + 1024; omega

/-- After the second call the context array holds, head-major, the attention of the three arrays the call reads
    (queries, keys, values as it finds them) under the additive mask, normalised by the guarded reciprocal. -/
theorem arr1_4 (c : Dev nD) : (dat1 (F := Ideal) V c).arrAt 4 cfg1.N
    = unc4 (attnL (probsK guard) (cur4 (V c main_v12_0 : S8x16x64x1024.Idx → EReal)) (cur4 (V c main_v12_1 : S8x16x64x1024.Idx → EReal))
        (cur4 (V c main_v12_2 : S8x16x64x1024.Idx → EReal)) (fun b j => (V c main_v10 : S8x1x1024.Idx → EReal) (ix3 b 0 j))) := by
  exact (dat1 (F := Ideal) V c).arrAt_eq_of_cover 4 _ (fun t _ => flushed1_4_eq V c t) covered1_4

end Cert.KernelIdeal.Region1

end
-- ==== Proof.Region2.lean ====
import proofs.«417071_j61770219651176_3_alg».proof.Proof.Gen.KernelIdeal.Frame
import proofs.«417071_j61770219651176_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Layout operations of the body read at an index -/

section Layout
variable {α : Type}

/-- A `[16, 64, 512]` array cast to `[1024, 512]` reads, at `(f, r)`, the operand at head `f / 64`, channel `f % 64`. -/
theorem cast_heads_apply (x : S16x64x512.Idx → α) (h : S16x64x512.ShapeCasts S1024x512) (f : Fin 1024) (r : Fin 512) :
    shapeCast S1024x512 x h (ix2 f r) = x (ix3 (hdN f) (hdD f) r) :=
  shapeCast_apply x h _ _ (by
    rw [Shape.rowMajor_val_three, Shape.rowMajor_val_two]
    show (f.val / 64 * 64 + f.val % 64) * 512 + r.val = f.val * 512 + r.val
    rw [Nat.div_add_mod'])

/-- A vector `[a]` cast to the column `[a, 1]` reads, at `(i, u)`, the operand at `i`. -/
theorem cast_col_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `i`. -/
theorem bcast_col_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## The row sum and the product of the body read at an index -/

/-- The sum along the features of a `[512, 1024]` block, at row `r`, is the `Fin`-indexed sum of that row. -/
theorem rowsum_apply (src : FVec Ideal S512x1024 .f32) (h : S512x1024.Reduces [1] S512) (hφ : FKind.Formats .f32)
    (hacc : (0x00000000#32 : BitVec 32) = 0x00000000#32) (r : Fin 512) :
    multiReduction .add [1] S512 src 0x00000000#32 h hφ hacc (ix1 r) = ∑ k : Fin 1024, src (ix2 r k) := by
  refine (Ideal.multiReduction_add_single src 0x00000000#32 h hφ hacc (ix1 r)).trans ?_
  refine Finset.sum_congr rfl fun k _ => congrArg src ?_
  funext c
  apply Fin.ext
  match c with
  | ⟨0, _⟩ => rfl
  | ⟨1, _⟩ => rfl

theorem lhs_proj_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem lhs_proj_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem rhs_proj_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem rhs_proj_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The product of a `[1024, 1024]` matrix and a `[1024, 512]` block into the zero splat, at `(o, r)`: the sum over the
    shared index of the products. -/
theorem proj_apply (w : FVec Ideal S1024x1024 .bf16) (x : FVec Ideal S1024x512 .bf16) (o : Fin 1024) (r : Fin 512) :
    matmul dot_S1024x1024_S1024x512_S1024x512_1_0_0_1_n_n none w x (constant S1024x512 .f32 0x00000000#32) (ix2 o r)
      = ∑ k : Fin 1024, w (ix2 o k) * x (ix2 k r) := by
  simp only [matmul]
  rw [Ideal.matmul_constant_zero_apply, ← Equiv.sum_comp (ValueIdx.contrEquiv1 dot_S1024x1024_S1024x512_S1024x512_1_0_0_1_n_n 1024 rfl rfl).symm]
  refine Finset.sum_congr rfl fun k _ => ?_
  have hk := ValueIdx.contrEquiv1_symm_val dot_S1024x1024_S1024x512_S1024x512_1_0_0_1_n_n 1024 rfl rfl k
  have el : dot_S1024x1024_S1024x512_S1024x512_1_0_0_1_n_n.lhsIdx (ix2 o r) ((ValueIdx.contrEquiv1 dot_S1024x1024_S1024x512_S1024x512_1_0_0_1_n_n 1024 rfl rfl).symm k) = ix2 o k := funext fun a => Fin.ext (by
    match a with
    | ⟨0, _⟩ => exact lhs_proj_0 _ _
    | ⟨1, _⟩ => exact (lhs_proj_1 _ _).trans hk)
  have er : dot_S1024x1024_S1024x512_S1024x512_1_0_0_1_n_n.rhsIdx (ix2 o r) ((ValueIdx.contrEquiv1 dot_S1024x1024_S1024x512_S1024x512_1_0_0_1_n_n 1024 rfl rfl).symm k) = ix2 k r := funext fun a => Fin.ext (by
    match a with
    | ⟨0, _⟩ => exact (rhs_proj_0 _ _).trans hk
    | ⟨1, _⟩ => exact rhs_proj_1 _ _)
  rw [el, er]

/-! ## The body's value in stages

The value the body's one store writes is, in order: the residual block (the output projection of the merged heads plus bias,
transposed to positions × features, plus the input block); a row's mean; the centred block; a row's variance; the
normalised block scaled and shifted. -/

/-- The residual block `[512, 1024]`. -/
def resK (v0 : FVec Ideal S1x16x64x512 .bf16) (v3 : FVec Ideal S1024x1024 .bf16) (v6 : FVec Ideal S1024x1 .f32)
    (v11 : FVec Ideal S1x512x1024 .f32) : FVec Ideal S512x1024 .f32 :=
  addf (transpose S512x1024 [1, 0]
      (addf (matmul dot_S1024x1024_S1024x512_S1024x512_1_0_0_1_n_n none (shapeCast S1024x1024 v3 shapeCasts_S1024x1024_S1024x1024)
              (shapeCast S1024x512 (shapeCast S16x64x512 v0 shapeCasts_S1x16x64x512_S16x64x512) shapeCasts_S16x64x512_S1024x512)
              (constant S1024x512 .f32 0x00000000#32))
            (broadcastTo S1024x512 (shapeCast S1024x1 v6 shapeCasts_S1024x1_S1024x1) broadcasts_S1024x1_S1024x512))
      transposes_S1024x512_p1_0_S512x1024)
    (shapeCast S512x1024 v11 shapeCasts_S1x512x1024_S512x1024)

/-- The rows' sums divided by the float 1024, as a column. -/
def meanK (v : FVec Ideal S512x1024 .f32) : FVec Ideal S512x1 .f32 :=
  divf (shapeCast S512x1 (multiReduction .add [1] S512 v 0x00000000#32 reduces_S512x1024_S512 (.inl rfl) rfl) shapeCasts_S512_S512x1)
    (broadcast S512x1 (Scalar.ofBits .f32 0x44800000#32))

/-- The block minus its rows' means. -/
def cenK (v : FVec Ideal S512x1024 .f32) : FVec Ideal S512x1024 .f32 :=
  subf v (broadcastTo S512x1024 (meanK v) broadcasts_S512x1_S512x1024)

/-- The rows' variances: the means of the squared centred block. -/
def varK (v : FVec Ideal S512x1024 .f32) : FVec Ideal S512x1 .f32 := meanK (mulf (cenK v) (cenK v))

/-- The centred block times the reciprocal root of variance plus `eps`, times the scale row. -/
def normK (v : FVec Ideal S512x1024 .f32) (v30 : FVec Ideal S1x1024 .f32) : FVec Ideal S512x1024 .f32 :=
  mulf (mulf (cenK v) (broadcastTo S512x1024 (rsqrt (addf (varK v) (broadcast S512x1 (Scalar.ofBits .f32 0x2B8CBCCC#32)))) broadcasts_S512x1_S512x1024))
    (broadcastTo S512x1024 (shapeCast S1x1024 v30 shapeCasts_S1x1024_S1x1024) broadcasts_S1x1024_S512x1024)

/-- The scaled normalised block, as the body computes it, is those stages composed. -/
theorem pay2_eq (v0 : FVec Ideal S1x16x64x512 .bf16) (v3 : FVec Ideal S1024x1024 .bf16) (v6 : FVec Ideal S1024x1 .f32)
    (v11 : FVec Ideal S1x512x1024 .f32) (v30 : FVec Ideal S1x1024 .f32) :
    k2_pay2 v0 v3 v6 v11 v30 = normK (resK v0 v3 v6 v11) v30 := rfl

/-- The residual block at position `r`, feature `o`: the projection's sum over the merged heads, plus the bias entry,
    plus the input block's entry. -/
theorem resK_apply (v0 : FVec Ideal S1x16x64x512 .bf16) (v3 : FVec Ideal S1024x1024 .bf16) (v6 : FVec Ideal S1024x1 .f32)
    (v11 : FVec Ideal S1x512x1024 .f32) (r : Fin 512) (o : Fin 1024) :
    resK v0 v3 v6 v11 (ix2 r o)
      = ((∑ k : Fin 1024, v3 (ix2 o k) * v0 (ix4 (0 : Fin 1) (hdN k) (hdD k) r)) + v6 (ix2 o (0 : Fin 1)))
        + v11 (ix3 (0 : Fin 1) r o) := by
  unfold resK
  rw [addf_apply, transpose_ix2_apply, addf_apply, proj_apply, bcast_col_apply, shapeCast_1ab_ab_apply, shapeCast_self,
    shapeCast_self]
  simp only [cast_heads_apply, shapeCast_1abc_abc_apply]

/-- A row's mean: its sum divided by the float 1024. -/
theorem meanK_apply (v : FVec Ideal S512x1024 .f32) (r : Fin 512) (u : Fin 1) :
    meanK v (ix2 r u) = Ideal.div (∑ k : Fin 1024, v (ix2 r k)) (Ideal.ofBits .f32 0x44800000#32) := by
  unfold meanK
  rw [divf_apply, cast_col_apply, rowsum_apply]
  rfl

/-- The centred block's entry. -/
theorem cenK_apply (v : FVec Ideal S512x1024 .f32) (r : Fin 512) (o : Fin 1024) :
    cenK v (ix2 r o) = v (ix2 r o) - Ideal.div (∑ k : Fin 1024, v (ix2 r k)) (Ideal.ofBits .f32 0x44800000#32) := by
  unfold cenK
  rw [subf_apply, bcast_col_apply, meanK_apply]

/-- A row's variance: the mean of its squared centred entries. -/
theorem varK_apply (v : FVec Ideal S512x1024 .f32) (r : Fin 512) (u : Fin 1) :
    varK v (ix2 r u)
      = Ideal.div (∑ k : Fin 1024, cenK v (ix2 r k) * cenK v (ix2 r k)) (Ideal.ofBits .f32 0x44800000#32) := by
  unfold varK
  rw [meanK_apply]
  rfl

/-- The normalised and scaled block's entry. -/
theorem normK_apply (v : FVec Ideal S512x1024 .f32) (v30 : FVec Ideal S1x1024 .f32) (r : Fin 512) (o : Fin 1024) :
    normK v v30 (ix2 r o)
      = cenK v (ix2 r o) * Ideal.rsqrt (varK v (ix2 r (0 : Fin 1)) + Ideal.ofBits .f32 0x2B8CBCCC#32)
        * v30 (ix2 (0 : Fin 1) o) := by
  unfold normK
  rw [mulf_apply, mulf_apply, bcast_col_apply, broadcastTo_1b_ab_apply, shapeCast_self]
  rfl

/-- The stored block at an index. For a residual block whose row `r` is row `(b, s)` of a whole array `R`, the
    stored block at `(u, r, o)` is the layer norm of `R` at `(b, s, o)`. -/
theorem pay_eq_layernorm (v : FVec Ideal S512x1024 .f32) (v30 v34 : FVec Ideal S1x1024 .f32) (R : T3) (b : Fin 8)
    (s : Fin 1024) (r : Fin 512) (hR : ∀ o, v (ix2 r o) = R b s o) (u : Fin 1) (o : Fin 1024) :
    k2_pay1 (normK v v30) (k2_pay3 v34) (ix3 u r o)
      = layernorm (Ideal.ofBits .f32 0x44800000#32) (Ideal.ofBits .f32 0x2B8CBCCC#32) R
          (fun o => v30 (ix2 (0 : Fin 1) o)) (fun o => v34 (ix2 (0 : Fin 1) o)) b s o := by
  unfold k2_pay1 k2_pay3
  simp only [shapeCast_ab_1ab_apply, addf_apply, broadcastTo_1b_ab_apply, shapeCast_self, normK_apply, varK_apply,
    cenK_apply, hR]
  rfl

/-! ## From blocks to the array -/

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The printed index maps over the grid: the context and the input move with the output block, the weights, the bias
    and the scale and shift rows stay, and the output's block index is `(b, sb, 0)` with `b ≤ 7`, `sb ≤ 1`. -/
theorem maps_at : ∀ t : Fin cfg2.N,
    win2_0.index t (0 : Fin 4) = win2_6.index t (0 : Fin 3) ∧ win2_0.index t (1 : Fin 4) = 0
    ∧ win2_0.index t (2 : Fin 4) = 0 ∧ win2_0.index t (3 : Fin 4) = win2_6.index t (1 : Fin 3)
    ∧ win2_1.index t (0 : Fin 2) = 0 ∧ win2_1.index t (1 : Fin 2) = 0
    ∧ win2_2.index t (0 : Fin 2) = 0 ∧ win2_2.index t (1 : Fin 2) = 0
    ∧ win2_3.index t (0 : Fin 3) = win2_6.index t (0 : Fin 3) ∧ win2_3.index t (1 : Fin 3) = win2_6.index t (1 : Fin 3)
    ∧ win2_3.index t (2 : Fin 3) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 3) ≤ 7 ∧ win2_6.index t (1 : Fin 3) ≤ 1 ∧ win2_6.index t (2 : Fin 3) = 0 :=
  (by decide +kernel : ∀ t : Fin grid2.N, _)

/-- Every block of the output array is some point's. -/
theorem point_of_block : ∀ (q0 : Fin 8) (q1 : Fin 2), ∃ t : Fin cfg2.N, win2_6.index t = ![q0.val, q1.val, 0] :=
  (by decide +kernel : ∀ (q0 : Fin 8) (q1 : Fin 2), ∃ t : Fin grid2.N, win2_6.index t = ![q0.val, q1.val, 0])

/-- The batch of point `t`'s output block. -/
def bOf (t : Fin cfg2.N) : Fin 8 :=
  ⟨win2_6.index t (0 : Fin 3), by
    obtain ⟨-, -, -, -, -, -, -, -, -, -, -, -, -, -, -, h, -, -⟩ := maps_at t; omega⟩

/-- The position, in the array, of row `r` of point `t`'s output block. -/
def sOf (t : Fin cfg2.N) (r : Fin 512) : Fin 1024 :=
  ⟨win2_6.index t (1 : Fin 3) * 512 + r.val, by
    obtain ⟨-, -, -, -, -, -, -, -, -, -, -, -, -, -, -, -, h, -⟩ := maps_at t; have := r.isLt; omega⟩

/-- Where the output block's elements sit in the result array. -/
theorem emb6 (t : Fin cfg2.N) (u : Fin 1) (r : Fin 512) (o : Fin 1024) :
    (((cfg2.win 6).blk t).view.emb (ix3 u r o) : S8x1024x1024.Idx) = ix3 (bOf t) (sOf t r) o := by
  obtain ⟨-, -, -, -, -, -, -, -, -, -, -, -, -, -, -, -, -, e2⟩ := maps_at t
  funext a
  apply Fin.ext
  match a with
  | ⟨0, _⟩ => show win2_6.index t (0 : Fin 3) * 1 + 1 * u.val = win2_6.index t (0 : Fin 3); have := u.isLt; omega
  | ⟨1, _⟩ => show win2_6.index t (1 : Fin 3) * 512 + 1 * r.val = win2_6.index t (1 : Fin 3) * 512 + r.val; omega
  | ⟨2, _⟩ => show win2_6.index t (2 : Fin 3) * 1024 + 1 * o.val = o.val; omega

/-- The context block is the context array at the output block's batch and positions. -/
theorem read0 (c : Dev nD) (t : Fin cfg2.N) (u : Fin 1) (n : Fin 16) (d : Fin 64) (r : Fin 512) :
    (iblk2 V c 0 t : FVec Ideal S1x16x64x512 .bf16) (ix4 u n d r)
      = (V c main_v13 : S8x16x64x1024.Idx → EReal) (ix4 (bOf t) n d (sOf t r)) := by
  obtain ⟨e0, e1, e2, e3, -⟩ := maps_at t
  show V c main_v13 (((cfg2.win 0).blk t).view.emb (ix4 u n d r)) = V c main_v13 (ix4 (bOf t) n d (sOf t r))
  have h : (((cfg2.win 0).blk t).view.emb (ix4 u n d r) : S8x16x64x1024.Idx) = ix4 (bOf t) n d (sOf t r) := by
    funext a
    apply Fin.ext
    match a with
    | ⟨0, _⟩ => show win2_0.index t (0 : Fin 4) * 1 + 1 * u.val = win2_6.index t (0 : Fin 3); have := u.isLt; omega
    | ⟨1, _⟩ => show win2_0.index t (1 : Fin 4) * 16 + 1 * n.val = n.val; omega
    | ⟨2, _⟩ => show win2_0.index t (2 : Fin 4) * 64 + 1 * d.val = d.val; omega
    | ⟨3, _⟩ => show win2_0.index t (3 : Fin 4) * 512 + 1 * r.val = win2_6.index t (1 : Fin 3) * 512 + r.val; omega
  rw [h]

/-- The weight block is the whole weight array. -/
theorem read1 (c : Dev nD) (t : Fin cfg2.N) :
    (iblk2 V c 1 t : FVec Ideal S1024x1024 .bf16) = (V c main_v3 : S1024x1024.Idx → EReal) := by
  obtain ⟨-, -, -, -, e0, e1, -⟩ := maps_at t
  funext i
  show V c main_v3 (((cfg2.win 1).blk t).view.emb i) = V c main_v3 i
  have h : (((cfg2.win 1).blk t).view.emb i : S1024x1024.Idx) = i := by
    funext a
    apply Fin.ext
    match a with
    | ⟨0, _⟩ => show win2_1.index t (0 : Fin 2) * 1024 + 1 * (i 0).val = (i 0).val; omega
    | ⟨1, _⟩ => show win2_1.index t (1 : Fin 2) * 1024 + 1 * (i 1).val = (i 1).val; omega
  rw [h]

/-- The bias block is the whole bias column. -/
theorem read2 (c : Dev nD) (t : Fin cfg2.N) :
    (iblk2 V c 2 t : FVec Ideal S1024x1 .f32) = (V c main_v7 : S1024x1.Idx → EReal) := by
  obtain ⟨-, -, -, -, -, -, e0, e1, -⟩ := maps_at t
  funext i
  show V c main_v7 (((cfg2.win 2).blk t).view.emb i) = V c main_v7 i
  have h : (((cfg2.win 2).blk t).view.emb i : S1024x1.Idx) = i := by
    funext a
    apply Fin.ext
    match a with
    | ⟨0, _⟩ => show win2_2.index t (0 : Fin 2) * 1024 + 1 * (i 0).val = (i 0).val; omega
    | ⟨1, _⟩ => show win2_2.index t (1 : Fin 2) * 1 + 1 * (i 1).val = (i 1).val; omega
  rw [h]

/-- The input block is the input array at the output block's batch and positions. -/
theorem read3 (c : Dev nD) (t : Fin cfg2.N) (u : Fin 1) (r : Fin 512) (o : Fin 1024) :
    (iblk2 V c 3 t : FVec Ideal S1x512x1024 .f32) (ix3 u r o)
      = (V c main_arg0 : S8x1024x1024.Idx → EReal) (ix3 (bOf t) (sOf t r) o) := by
  obtain ⟨-, -, -, -, -, -, -, -, e0, e1, e2, -⟩ := maps_at t
  show V c main_arg0 (((cfg2.win 3).blk t).view.emb (ix3 u r o)) = V c main_arg0 (ix3 (bOf t) (sOf t r) o)
  have h : (((cfg2.win 3).blk t).view.emb (ix3 u r o) : S8x1024x1024.Idx) = ix3 (bOf t) (sOf t r) o := by
    funext a
    apply Fin.ext
    match a with
    | ⟨0, _⟩ => show win2_3.index t (0 : Fin 3) * 1 + 1 * u.val = win2_6.index t (0 : Fin 3); have := u.isLt; omega
    | ⟨1, _⟩ => show win2_3.index t (1 : Fin 3) * 512 + 1 * r.val = win2_6.index t (1 : Fin 3) * 512 + r.val; omega
    | ⟨2, _⟩ => show win2_3.index t (2 : Fin 3) * 1024 + 1 * o.val = o.val; omega
  rw [h]

/-- The scale block is the whole scale row. -/
theorem read4 (c : Dev nD) (t : Fin cfg2.N) :
    (iblk2 V c 4 t : FVec Ideal S1x1024 .f32) = (V c main_v8 : S1x1024.Idx → EReal) := by
  obtain ⟨-, -, -, -, -, -, -, -, -, -, -, e0, e1, -⟩ := maps_at t
  funext i
  show V c main_v8 (((cfg2.win 4).blk t).view.emb i) = V c main_v8 i
  have h : (((cfg2.win 4).blk t).view.emb i : S1x1024.Idx) = i := by
    funext a
    apply Fin.ext
    match a with
    | ⟨0, _⟩ => show win2_4.index t (0 : Fin 2) * 1 + 1 * (i 0).val = (i 0).val; omega
    | ⟨1, _⟩ => show win2_4.index t (1 : Fin 2) * 1024 + 1 * (i 1).val = (i 1).val; omega
  rw [h]

/-- The shift block is the whole shift row. -/
theorem read5 (c : Dev nD) (t : Fin cfg2.N) :
    (iblk2 V c 5 t : FVec Ideal S1x1024 .f32) = (V c main_v9 : S1x1024.Idx → EReal) := by
  obtain ⟨-, -, -, -, -, -, -, -, -, -, -, -, -, e0, e1, -⟩ := maps_at t
  funext i
  show V c main_v9 (((cfg2.win 5).blk t).view.emb i) = V c main_v9 i
  have h : (((cfg2.win 5).blk t).view.emb i : S1x1024.Idx) = i := by
    funext a
    apply Fin.ext
    match a with
    | ⟨0, _⟩ => show win2_5.index t (0 : Fin 2) * 1 + 1 * (i 0).val = (i 0).val; omega
    | ⟨1, _⟩ => show win2_5.index t (1 : Fin 2) * 1024 + 1 * (i 1).val = (i 1).val; omega
  rw [h]

/-- The whole result array as one function of the arrays the call finds. -/
abbrev Gfin (c : Dev nD) : S8x1024x1024.Idx → EReal :=
  unc3 (finish (Ideal.ofBits .f32 0x44800000#32) (Ideal.ofBits .f32 0x2B8CBCCC#32)
    (cur4 (V c main_v13 : S8x16x64x1024.Idx → EReal)) (cur2 (V c main_v3 : S1024x1024.Idx → EReal))
    (fun o => (V c main_v7 : S1024x1.Idx → EReal) (ix2 o 0)) (cur3 (V c main_arg0 : S8x1024x1024.Idx → EReal))
    (fun o => (V c main_v8 : S1x1024.Idx → EReal) (ix2 0 o)) (fun o => (V c main_v9 : S1x1024.Idx → EReal) (ix2 0 o)))

/-- The block grid point `t` writes to the result array is block `t` of the layer norm of the residual of the arrays the
    call finds. -/
theorem written_block (c : Dev nD) (t : Fin cfg2.N) :
    (dat2 (F := Ideal) V c).flushed 6 t = ((cfg2.win 6).blk t).view.read (Elt Ideal) (Gfin V c) := by
  show (cfg2.win 6).cut (grid2.coords t) ((dat2 V c).after 6 t) = _
  rw [after2_6]
  unfold out2_6
  rw [View.canon_unit_zero zeros3]
  simp only [View.ld_unit_zero (S := S1x16x64x512) zeros4, View.ld_unit_zero (S := S1024x1024) zeros2,
    View.ld_unit_zero (S := S1024x1) zeros2, View.ld_unit_zero (S := S1x512x1024) zeros3, View.ld_unit_zero (S := S1x1024) zeros2]
  rw [pay2_eq, read1 V c t, read2 V c t, read4 V c t, read5 V c t]
  funext j
  obtain ⟨u, r, o, rfl⟩ : ∃ (u : Fin 1) (r : Fin 512) (o : Fin 1024), j = ix3 u r o := ⟨j 0, j 1, j 2, eq_ix3 j⟩
  show k2_pay1 (normK (resK (iblk2 V c 0 t) (V c main_v3) (V c main_v7) (iblk2 V c 3 t)) (V c main_v8)) (k2_pay3 (V c main_v9)) (ix3 u r o)
    = Gfin V c (((cfg2.win 6).blk t).view.emb (ix3 u r o))
  rw [emb6 t u r o]
  refine (pay_eq_layernorm _ _ _ (resid (cur4 (V c main_v13 : S8x16x64x1024.Idx → EReal))
    (cur2 (V c main_v3 : S1024x1024.Idx → EReal)) (fun o => (V c main_v7 : S1024x1.Idx → EReal) (ix2 o 0))
    (cur3 (V c main_arg0 : S8x1024x1024.Idx → EReal))) (bOf t) (sOf t r) r (fun o' => ?_) u o).trans rfl
  rw [resK_apply, read3 V c t]
  simp only [read0 V c t]
  exact congrArg₂ (· + ·) (congrArg₂ (· + ·) (Finset.sum_congr rfl fun k _ => mul_comm _ _) rfl) rfl

/-- An index of the result array is in point `t`'s block iff each coordinate is in the block's range on its axis. -/
theorem mem_block (t : Fin cfg2.N) (i : S8x1024x1024.Idx) :
    i ∈ ((cfg2.win 6).blk t).view.set ↔ ∀ a : Fin 3, win2_6.index t a * S1x512x1024.size a ≤ (i a).val
      ∧ (i a).val < win2_6.index t a * S1x512x1024.size a + S1x512x1024.size a := by
  show i ∈ ((View.whole main_v14).slice (win2_6.rect t)).set ↔ _
  rw [View.set_slice_whole, Rect.mem_set_unit]
  exact Iff.rfl

/-- The output's blocks tile the result array: index `(b, s, o)` lies in the block of the point at `(b, s / 512)`. -/
theorem blocks_tile (i : S8x1024x1024.Idx) :
    ∃ t : Fin cfg2.N, (cfg2.win 6).flush t = true ∧ i ∈ ((cfg2.win 6).blk t).view.set := by
  have hi0 : (i 0).val < 8 := (i 0).isLt
  have hi1 : (i 1).val < 1024 := (i 1).isLt
  have hi2 : (i 2).val < 1024 := (i 2).isLt
  obtain ⟨t, ht⟩ := point_of_block ⟨(i 0).val, hi0⟩ ⟨(i 1).val / 512, by omega⟩
  have q0 : win2_6.index t (0 : Fin 3) = (i 0).val := congrFun ht 0
  have q1 : win2_6.index t (1 : Fin 3) = (i 1).val / 512 := congrFun ht 1
  have q2 : win2_6.index t (2 : Fin 3) = 0 := congrFun ht 2
  refine ⟨t, flush2_6 t, ?_⟩
  rw [mem_block]
  intro a
  match a with
  | ⟨0, _⟩ => show win2_6.index t (0 : Fin 3) * 1 ≤ (i 0).val ∧ (i 0).val < win2_6.index t (0 : Fin 3) * 1 + 1; omega
  | ⟨1, _⟩ => show win2_6.index t (1 : Fin 3) * 512 ≤ (i 1).val ∧ (i 1).val < win2_6.index t (1 : Fin 3) * 512 + 512; omega
  | ⟨2, _⟩ => show win2_6.index t (2 : Fin 3) * 1024 ≤ (i 2).val ∧ (i 2).val < win2_6.index t (2 : Fin 3) * 1024 + 1024; omega

/-- After the third call the result array holds the layer norm of the output projection of the context array the
    call finds, plus bias, plus the residual input. -/
theorem arr2_6 (c : Dev nD) : (dat2 (F := Ideal) V c).arrAt 6 cfg2.N
    = unc3 (finish (Ideal.ofBits .f32 0x44800000#32) (Ideal.ofBits .f32 0x2B8CBCCC#32)
        (cur4 (V c main_v13 : S8x16x64x1024.Idx → EReal)) (cur2 (V c main_v3 : S1024x1024.Idx → EReal))
        (fun o => (V c main_v7 : S1024x1.Idx → EReal) (ix2 o 0)) (cur3 (V c main_arg0 : S8x1024x1024.Idx → EReal))
        (fun o => (V c main_v8 : S1x1024.Idx → EReal) (ix2 0 o)) (fun o => (V c main_v9 : S1x1024.Idx → EReal) (ix2 0 o))) := by
  exact (dat2 (F := Ideal) V c).arrAt_eq_of_cover 6 (Gfin V c) (fun t _ => written_block V c t) blocks_tile

end Cert.KernelIdeal.Region2

end
-- ==== Proof.Chain.lean ====
import proofs.«417071_j61770219651176_3_alg».proof.Proof.Gen.KernelIdeal.Frame
import proofs.«417071_j61770219651176_3_alg».proof.Proof.Spec
import proofs.«417071_j61770219651176_3_alg».proof.Proof.Region0
import proofs.«417071_j61770219651176_3_alg».proof.Proof.Region1
import proofs.«417071_j61770219651176_3_alg».proof.Proof.Region2
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Chain

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## Reshapes read at an index -/

/-- A vector `[a]` cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A matrix `[a, b]` cast to `[a, 1, b]` reads, at `(i, u, j)`, the operand at `(i, j)`. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-! ## The buffers after the host operations -/

section Host

/-- The cast input is the input. -/
theorem V1_v11 (c : Dev nD) : (V1 (F := Ideal) m ρ c main_v11 : S8x1024x1024.Idx → EReal)
    = (m ((c : Thread nD τ).loc main_arg0) : S8x1024x1024.Idx → EReal) := by
  dsimp only [V1, W1, hostOps0]; after_results; rfl

/-- The cast query weights are the query weights. -/
theorem V1_v0 (c : Dev nD) : (V1 (F := Ideal) m ρ c main_v0 : S1024x1024.Idx → EReal)
    = (m ((c : Thread nD τ).loc main_arg2) : S1024x1024.Idx → EReal) := by
  dsimp only [V1, W1, hostOps0]; after_results; rfl

/-- The cast key weights are the key weights. -/
theorem V1_v1 (c : Dev nD) : (V1 (F := Ideal) m ρ c main_v1 : S1024x1024.Idx → EReal)
    = (m ((c : Thread nD τ).loc main_arg4) : S1024x1024.Idx → EReal) := by
  dsimp only [V1, W1, hostOps0]; after_results; rfl

/-- The cast value weights are the value weights. -/
theorem V1_v2 (c : Dev nD) : (V1 (F := Ideal) m ρ c main_v2 : S1024x1024.Idx → EReal)
    = (m ((c : Thread nD τ).loc main_arg6) : S1024x1024.Idx → EReal) := by
  dsimp only [V1, W1, hostOps0]; after_results; rfl

/-- The cast output weights are the output weights. -/
theorem V1_v3 (c : Dev nD) : (V1 (F := Ideal) m ρ c main_v3 : S1024x1024.Idx → EReal)
    = (m ((c : Thread nD τ).loc main_arg8) : S1024x1024.Idx → EReal) := by
  dsimp only [V1, W1, hostOps0]; after_results; rfl

/-- The query bias as a column. -/
theorem V1_v4 (c : Dev nD) : (fun o : Fin 1024 => (V1 (F := Ideal) m ρ c main_v4 : S1024x1.Idx → EReal) (ix2 o 0))
    = cur1 (m ((c : Thread nD τ).loc main_arg3) : S1024.Idx → EReal) := by
  have e : (V1 (F := Ideal) m ρ c main_v4 : S1024x1.Idx → EReal)
      = shapeCast S1024x1 (m ((c : Thread nD τ).loc main_arg3) : S1024.Idx → EReal) shapeCasts_S1024_S1024x1 := by
    dsimp only [V1, W1, hostOps0]; after_results; rfl
  funext o
  rw [e]
  exact shapeCast_a_a1_apply _ _ o 0

/-- The key bias as a column. -/
theorem V1_v5 (c : Dev nD) : (fun o : Fin 1024 => (V1 (F := Ideal) m ρ c main_v5 : S1024x1.Idx → EReal) (ix2 o 0))
    = cur1 (m ((c : Thread nD τ).loc main_arg5) : S1024.Idx → EReal) := by
  have e : (V1 (F := Ideal) m ρ c main_v5 : S1024x1.Idx → EReal)
      = shapeCast S1024x1 (m ((c : Thread nD τ).loc main_arg5) : S1024.Idx → EReal) shapeCasts_S1024_S1024x1 := by
    dsimp only [V1, W1, hostOps0]; after_results; rfl
  funext o
  rw [e]
  exact shapeCast_a_a1_apply _ _ o 0

/-- The value bias as a column. -/
theorem V1_v6 (c : Dev nD) : (fun o : Fin 1024 => (V1 (F := Ideal) m ρ c main_v6 : S1024x1.Idx → EReal) (ix2 o 0))
    = cur1 (m ((c : Thread nD τ).loc main_arg7) : S1024.Idx → EReal) := by
  have e : (V1 (F := Ideal) m ρ c main_v6 : S1024x1.Idx → EReal)
      = shapeCast S1024x1 (m ((c : Thread nD τ).loc main_arg7) : S1024.Idx → EReal) shapeCasts_S1024_S1024x1 := by
    dsimp only [V1, W1, hostOps0]; after_results; rfl
  funext o
  rw [e]
  exact shapeCast_a_a1_apply _ _ o 0

/-- The output bias as a column. -/
theorem V1_v7 (c : Dev nD) : (fun o : Fin 1024 => (V1 (F := Ideal) m ρ c main_v7 : S1024x1.Idx → EReal) (ix2 o 0))
    = cur1 (m ((c : Thread nD τ).loc main_arg9) : S1024.Idx → EReal) := by
  have e : (V1 (F := Ideal) m ρ c main_v7 : S1024x1.Idx → EReal)
      = shapeCast S1024x1 (m ((c : Thread nD τ).loc main_arg9) : S1024.Idx → EReal) shapeCasts_S1024_S1024x1 := by
    dsimp only [V1, W1, hostOps0]; after_results; rfl
  funext o
  rw [e]
  exact shapeCast_a_a1_apply _ _ o 0

/-- The layer norm's scale as a row. -/
theorem V1_v8 (c : Dev nD) : (fun o : Fin 1024 => (V1 (F := Ideal) m ρ c main_v8 : S1x1024.Idx → EReal) (ix2 0 o))
    = cur1 (m ((c : Thread nD τ).loc main_arg10) : S1024.Idx → EReal) := by
  have e : (V1 (F := Ideal) m ρ c main_v8 : S1x1024.Idx → EReal)
      = shapeCast S1x1024 (m ((c : Thread nD τ).loc main_arg10) : S1024.Idx → EReal) shapeCasts_S1024_S1x1024 := by
    dsimp only [V1, W1, hostOps0]; after_results; rfl
  funext o
  rw [e]
  exact shapeCast_a_1a_apply _ _ 0 o

/-- The layer norm's shift as a row. -/
theorem V1_v9 (c : Dev nD) : (fun o : Fin 1024 => (V1 (F := Ideal) m ρ c main_v9 : S1x1024.Idx → EReal) (ix2 0 o))
    = cur1 (m ((c : Thread nD τ).loc main_arg11) : S1024.Idx → EReal) := by
  have e : (V1 (F := Ideal) m ρ c main_v9 : S1x1024.Idx → EReal)
      = shapeCast S1x1024 (m ((c : Thread nD τ).loc main_arg11) : S1024.Idx → EReal) shapeCasts_S1024_S1x1024 := by
    dsimp only [V1, W1, hostOps0]; after_results; rfl
  funext o
  rw [e]
  exact shapeCast_a_1a_apply _ _ 0 o

/-- The mask with a unit axis between batch and key position. -/
theorem V1_v10 (c : Dev nD) : (fun (b : Fin 8) (j : Fin 1024) => (V1 (F := Ideal) m ρ c main_v10 : S8x1x1024.Idx → EReal) (ix3 b 0 j))
    = cur2 (m ((c : Thread nD τ).loc main_arg1) : S8x1024.Idx → EReal) := by
  have e : (V1 (F := Ideal) m ρ c main_v10 : S8x1x1024.Idx → EReal)
      = shapeCast S8x1x1024 (m ((c : Thread nD τ).loc main_arg1) : S8x1024.Idx → EReal) shapeCasts_S8x1024_S8x1x1024 := by
    dsimp only [V1, W1, hostOps0]; after_results; rfl
  funext b j
  rw [e]
  exact shapeCast_ab_a1b_apply _ _ b 0 j

/-- No host operation writes the input. -/
theorem V1_arg0 (c : Dev nD) : (V1 (F := Ideal) m ρ c main_arg0 : S8x1024x1024.Idx → EReal)
    = (m ((c : Thread nD τ).loc main_arg0) : S8x1024x1024.Idx → EReal) := by
  dsimp only [V1, W1, hostOps0]; after_results

end Host

/-! ## The twelve arguments as launched, curried -/

/-- The input. -/
abbrev xIn (c : Dev nD) : T3 := cur3 (m ((c : Thread nD τ).loc main_arg0) : S8x1024x1024.Idx → EReal)
/-- The additive mask. -/
abbrev maskIn (c : Dev nD) : Mk := cur2 (m ((c : Thread nD τ).loc main_arg1) : S8x1024.Idx → EReal)
/-- The query weights and bias. -/
abbrev WqIn (c : Dev nD) : M2 := cur2 (m ((c : Thread nD τ).loc main_arg2) : S1024x1024.Idx → EReal)
abbrev bqIn (c : Dev nD) : R1 := cur1 (m ((c : Thread nD τ).loc main_arg3) : S1024.Idx → EReal)
/-- The key weights and bias. -/
abbrev WkIn (c : Dev nD) : M2 := cur2 (m ((c : Thread nD τ).loc main_arg4) : S1024x1024.Idx → EReal)
abbrev bkIn (c : Dev nD) : R1 := cur1 (m ((c : Thread nD τ).loc main_arg5) : S1024.Idx → EReal)
/-- The value weights and bias. -/
abbrev WvIn (c : Dev nD) : M2 := cur2 (m ((c : Thread nD τ).loc main_arg6) : S1024x1024.Idx → EReal)
abbrev bvIn (c : Dev nD) : R1 := cur1 (m ((c : Thread nD τ).loc main_arg7) : S1024.Idx → EReal)
/-- The output weights and bias. -/
abbrev WoIn (c : Dev nD) : M2 := cur2 (m ((c : Thread nD τ).loc main_arg8) : S1024x1024.Idx → EReal)
abbrev boIn (c : Dev nD) : R1 := cur1 (m ((c : Thread nD τ).loc main_arg9) : S1024.Idx → EReal)
/-- The layer norm's scale and shift. -/
abbrev gIn (c : Dev nD) : R1 := cur1 (m ((c : Thread nD τ).loc main_arg10) : S1024.Idx → EReal)
abbrev btIn (c : Dev nD) : R1 := cur1 (m ((c : Thread nD τ).loc main_arg11) : S1024.Idx → EReal)

/-! ## After the first call: queries, keys, values, and the mask untouched -/

/-- The queries: the scaled query layer of the input, head-major. -/
theorem V2_q (c : Dev nD) : (V2 (F := Ideal) m ρ c main_v12_0 : S8x16x64x1024.Idx → EReal)
    = unc4 (fun b n d s => heads (lin (xIn m c) (WqIn m c) (bqIn m c)) b n d s * Ideal.ofBits .f32 0x3E000000#32) := by
  refine (W2_arr m ρ c 7).trans ((Region0.arr0_7 (V1 m ρ) c).trans ?_)
  rw [V1_v11, V1_v0, V1_v4]

/-- The keys: the key layer of the input, head-major. -/
theorem V2_k (c : Dev nD) : (V2 (F := Ideal) m ρ c main_v12_1 : S8x16x64x1024.Idx → EReal)
    = unc4 (heads (lin (xIn m c) (WkIn m c) (bkIn m c))) := by
  refine (W2_arr m ρ c 8).trans ((Region0.arr0_8 (V1 m ρ) c).trans ?_)
  rw [V1_v11, V1_v1, V1_v5]

/-- The values: the value layer of the input, head-major. -/
theorem V2_v (c : Dev nD) : (V2 (F := Ideal) m ρ c main_v12_2 : S8x16x64x1024.Idx → EReal)
    = unc4 (heads (lin (xIn m c) (WvIn m c) (bvIn m c))) := by
  refine (W2_arr m ρ c 9).trans ((Region0.arr0_9 (V1 m ρ) c).trans ?_)
  rw [V1_v11, V1_v2, V1_v6]

/-- The first call does not write the mask. -/
theorem V2_mask (c : Dev nD) : (fun (b : Fin 8) (j : Fin 1024) => (V2 (F := Ideal) m ρ c main_v10 : S8x1x1024.Idx → EReal) (ix3 b 0 j))
    = maskIn m c := by
  have e : (V2 (F := Ideal) m ρ c main_v10 : S8x1x1024.Idx → EReal) = (V1 (F := Ideal) m ρ c main_v10 : S8x1x1024.Idx → EReal) :=
    W2_of_ne m ρ c main_v10 (by decide)
  rw [e]; exact V1_v10 m ρ c

/-! ## After the second call: the context, and the third call's other operands untouched -/

/-- The context: the attention of the queries, keys and values under the mask. -/
theorem V3_ctx (c : Dev nD) : (V3 (F := Ideal) m ρ c main_v13 : S8x16x64x1024.Idx → EReal)
    = unc4 (attnL (probsK Cert.KernelIdeal.Region1.guard)
        (fun b n d s => heads (lin (xIn m c) (WqIn m c) (bqIn m c)) b n d s * Ideal.ofBits .f32 0x3E000000#32)
        (heads (lin (xIn m c) (WkIn m c) (bkIn m c))) (heads (lin (xIn m c) (WvIn m c) (bvIn m c))) (maskIn m c)) := by
  refine (W3_arr m ρ c 4).trans ((Region1.arr1_4 (V2 m ρ) c).trans ?_)
  rw [V2_q, V2_k, V2_v, V2_mask]

/-- Neither call writes the output weights. -/
theorem V3_v3 (c : Dev nD) : (V3 (F := Ideal) m ρ c main_v3 : S1024x1024.Idx → EReal)
    = (m ((c : Thread nD τ).loc main_arg8) : S1024x1024.Idx → EReal) :=
  (W3_of_ne m ρ c main_v3 (by decide)).trans ((W2_of_ne m ρ c main_v3 (by decide)).trans (V1_v3 m ρ c))

/-- Neither call writes the output bias. -/
theorem V3_v7 (c : Dev nD) : (fun o : Fin 1024 => (V3 (F := Ideal) m ρ c main_v7 : S1024x1.Idx → EReal) (ix2 o 0))
    = boIn m c := by
  have e : (V3 (F := Ideal) m ρ c main_v7 : S1024x1.Idx → EReal) = (V1 (F := Ideal) m ρ c main_v7 : S1024x1.Idx → EReal) :=
    (W3_of_ne m ρ c main_v7 (by decide)).trans (W2_of_ne m ρ c main_v7 (by decide))
  rw [e]; exact V1_v7 m ρ c

/-- Neither call writes the input. -/
theorem V3_arg0 (c : Dev nD) : (V3 (F := Ideal) m ρ c main_arg0 : S8x1024x1024.Idx → EReal)
    = (m ((c : Thread nD τ).loc main_arg0) : S8x1024x1024.Idx → EReal) :=
  (W3_of_ne m ρ c main_arg0 (by decide)).trans ((W2_of_ne m ρ c main_arg0 (by decide)).trans (V1_arg0 m ρ c))

/-- Neither call writes the layer norm's scale. -/
theorem V3_v8 (c : Dev nD) : (fun o : Fin 1024 => (V3 (F := Ideal) m ρ c main_v8 : S1x1024.Idx → EReal) (ix2 0 o))
    = gIn m c := by
  have e : (V3 (F := Ideal) m ρ c main_v8 : S1x1024.Idx → EReal) = (V1 (F := Ideal) m ρ c main_v8 : S1x1024.Idx → EReal) :=
    (W3_of_ne m ρ c main_v8 (by decide)).trans (W2_of_ne m ρ c main_v8 (by decide))
  rw [e]; exact V1_v8 m ρ c

/-- Neither call writes the layer norm's shift. -/
theorem V3_v9 (c : Dev nD) : (fun o : Fin 1024 => (V3 (F := Ideal) m ρ c main_v9 : S1x1024.Idx → EReal) (ix2 0 o))
    = btIn m c := by
  have e : (V3 (F := Ideal) m ρ c main_v9 : S1x1024.Idx → EReal) = (V1 (F := Ideal) m ρ c main_v9 : S1x1024.Idx → EReal) :=
    (W3_of_ne m ρ c main_v9 (by decide)).trans (W2_of_ne m ρ c main_v9 (by decide))
  rw [e]; exact V1_v9 m ρ c

/-! ## The result -/

/-- The result array at the last segment boundary is the kernel's arrangement of the attention block, as one
    function of the twelve argument arrays as launched. -/
theorem result_value (c : Dev nD) :
    (W4 (F := Ideal) m ρ c (Proc.devRef .tc main_v14) : S8x1024x1024.Idx → EReal)
      = unc3 (kernelOut (Ideal.ofBits .f32 0x3E000000#32) Cert.KernelIdeal.Region1.guard
          (Ideal.ofBits .f32 0x44800000#32) (Ideal.ofBits .f32 0x2B8CBCCC#32)
          (cur3 (m ((c : Thread nD τ).loc main_arg0) : S8x1024x1024.Idx → EReal))
          (cur2 (m ((c : Thread nD τ).loc main_arg1) : S8x1024.Idx → EReal))
          (cur2 (m ((c : Thread nD τ).loc main_arg2) : S1024x1024.Idx → EReal))
          (cur1 (m ((c : Thread nD τ).loc main_arg3) : S1024.Idx → EReal))
          (cur2 (m ((c : Thread nD τ).loc main_arg4) : S1024x1024.Idx → EReal))
          (cur1 (m ((c : Thread nD τ).loc main_arg5) : S1024.Idx → EReal))
          (cur2 (m ((c : Thread nD τ).loc main_arg6) : S1024x1024.Idx → EReal))
          (cur1 (m ((c : Thread nD τ).loc main_arg7) : S1024.Idx → EReal))
          (cur2 (m ((c : Thread nD τ).loc main_arg8) : S1024x1024.Idx → EReal))
          (cur1 (m ((c : Thread nD τ).loc main_arg9) : S1024.Idx → EReal))
          (cur1 (m ((c : Thread nD τ).loc main_arg10) : S1024.Idx → EReal))
          (cur1 (m ((c : Thread nD τ).loc main_arg11) : S1024.Idx → EReal))) := by
  refine (W4_arr m ρ c 6).trans ((Region2.arr2_6 (V3 m ρ) c).trans ?_)
  rw [V3_ctx, V3_v3, V3_v7, V3_arg0, V3_v8, V3_v9]
  unfold kernelOut
  rfl

end Cert.KernelIdeal.Chain

end
-- ==== Proof.RefProbs.lean ====
import proofs.«417071_j61770219651176_3_alg».proof.Proof.Gen.ReferenceIdeal.Read
import proofs.«417071_j61770219651176_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefProbs

open Cert.ReferenceIdeal Cert.ReferenceIdeal.Gen Cert.ReferenceIdeal.Read Cert.Spec
open Idealize.ShloMosaic Idealize.ShloMosaic.TcCoe Idealize.ShloMosaic.ValueIdx Idealize.SL.Sem

/-! ## The linear layer -/

theorem lidx_lin (b : Fin 8) (s o k : Fin 1024) : lidx_main_v0 (ix3 b s o) k = ix3 b s k :=
  funext fun a => Fin.ext (by match a with | ⟨0, _⟩ => rfl | ⟨1, _⟩ => rfl | ⟨2, _⟩ => rfl)

theorem ridx_lin (b : Fin 8) (s o k : Fin 1024) : ridx_main_v0 (ix3 b s o) k = ix2 o k :=
  funext fun a => Fin.ext (by match a with | ⟨0, _⟩ => rfl | ⟨1, _⟩ => rfl)

theorem idx_bias (b : Fin 8) (s o : Fin 1024) : idx_main_v1 (idx_main_v2 (ix3 b s o)) = ix1 o :=
  funext fun a => Fin.ext (by match a with | ⟨0, _⟩ => rfl)

/-- A linear layer before the head split, at (b, s, o) (stated with the query weights' names; the key and value
    layers are the same operations on other weights). -/
theorem lin_stage (x0 : S8x1024x1024.Idx → EReal) (x2 : S1024x1024.Idx → EReal) (x3 : S1024.Idx → EReal)
    (b : Fin 8) (s o : Fin 1024) :
    val_main_v3 (F := Ideal) x0 x2 x3 (ix3 b s o) = lin (cur3 x0) (cur2 x2) (cur1 x3) b s o := by
  rw [val_main_v3_apply, val_main_v0_apply, val_main_v2_apply, val_main_v1_apply]
  simp only [lidx_lin, ridx_lin, idx_bias, Ideal.addf_def]
  rfl

/-! ## The head split -/

theorem idx_heads (b : Fin 8) (n : Fin 16) (s : Fin 1024) (d : Fin 64) :
    idx_main_v4 (idx_main_v5 (ix4 b n s d)) = ix3 b s (hd n d) :=
  funext fun a => Fin.ext (by
    have hb := b.isLt; have hn := n.isLt; have hs := s.isLt; have hd' := d.isLt
    match a with
    | ⟨0, _⟩ => show (((b.val * 1024 + s.val) * 16 + n.val) * 64 + d.val) / 1048576 = b.val; omega
    | ⟨1, _⟩ => show (((b.val * 1024 + s.val) * 16 + n.val) * 64 + d.val) / 1024 % 1024 = s.val; omega
    | ⟨2, _⟩ => show (((b.val * 1024 + s.val) * 16 + n.val) * 64 + d.val) % 1024 = n.val * 64 + d.val; omega)

/-- A layer's heads in the layout [batch, head, position, channel]. -/
theorem heads_stage (x0 : S8x1024x1024.Idx → EReal) (x2 : S1024x1024.Idx → EReal) (x3 : S1024.Idx → EReal)
    (b : Fin 8) (n : Fin 16) (s : Fin 1024) (d : Fin 64) :
    val_main_v5 (F := Ideal) x0 x2 x3 (ix4 b n s d) = heads (lin (cur3 x0) (cur2 x2) (cur1 x3)) b n d s := by
  rw [val_main_v5_apply, val_main_v4_apply, idx_heads, lin_stage]
  rfl

/-- The key layer's heads are the same operations as the query's, on the key weights. -/
theorem v11_eq (x0 : S8x1024x1024.Idx → EReal) (x4 : S1024x1024.Idx → EReal) (x5 : S1024.Idx → EReal) :
    val_main_v11 (F := Ideal) x0 x4 x5 = val_main_v5 (F := Ideal) x0 x4 x5 := rfl

/-- The value layer's heads likewise, on the value weights. -/
theorem v17_eq (x0 : S8x1024x1024.Idx → EReal) (x6 : S1024x1024.Idx → EReal) (x7 : S1024.Idx → EReal) :
    val_main_v17 (F := Ideal) x0 x6 x7 = val_main_v5 (F := Ideal) x0 x6 x7 := rfl

/-! ## The scores -/

theorem lidx_scores (b : Fin 8) (n : Fin 16) (i j : Fin 1024) (k : Fin 64) :
    lidx_main_v18 (ix4 b n i j) k = ix4 b n i k :=
  funext fun a => Fin.ext (by match a with | ⟨0, _⟩ => rfl | ⟨1, _⟩ => rfl | ⟨2, _⟩ => rfl | ⟨3, _⟩ => rfl)

theorem ridx_scores (b : Fin 8) (n : Fin 16) (i j : Fin 1024) (k : Fin 64) :
    ridx_main_v18 (ix4 b n i j) k = ix4 b n j k :=
  funext fun a => Fin.ext (by match a with | ⟨0, _⟩ => rfl | ⟨1, _⟩ => rfl | ⟨2, _⟩ => rfl | ⟨3, _⟩ => rfl)

theorem idx_mask (b : Fin 8) (n : Fin 16) (i j : Fin 1024) :
    idx_main_v21 (idx_main_v22 (ix4 b n i j)) = ix2 b j :=
  funext fun a => Fin.ext (by match a with | ⟨0, _⟩ => rfl | ⟨1, _⟩ => rfl)

/-- The reference's scores as a function of the six arrays. -/
def refScores (x0 : S8x1024x1024.Idx → EReal) (x1 : S8x1024.Idx → EReal) (x2 : S1024x1024.Idx → EReal)
    (x3 : S1024.Idx → EReal) (x4 : S1024x1024.Idx → EReal) (x5 : S1024.Idx → EReal) : T4 :=
  scoresR (Ideal.ofBits .f32 0x41000000#32) (heads (lin (cur3 x0) (cur2 x2) (cur1 x3)))
    (heads (lin (cur3 x0) (cur2 x4) (cur1 x5))) (cur2 x1)

/-- The masked scores at (b, n, i, j). -/
theorem scores_stage (x0 : S8x1024x1024.Idx → EReal) (x1 : S8x1024.Idx → EReal) (x2 : S1024x1024.Idx → EReal)
    (x3 : S1024.Idx → EReal) (x4 : S1024x1024.Idx → EReal) (x5 : S1024.Idx → EReal)
    (b : Fin 8) (n : Fin 16) (i j : Fin 1024) :
    val_main_v23 (F := Ideal) x0 x1 x2 x3 x4 x5 (ix4 b n i j) = refScores x0 x1 x2 x3 x4 x5 b n i j := by
  rw [val_main_v23_apply, val_main_v20_apply, val_main_v18_apply, val_main_v19_apply, val_main_cst_apply,
    val_main_v22_apply, val_main_v21_apply, v11_eq]
  simp only [lidx_scores, ridx_scores, idx_mask, heads_stage, Ideal.hostDivf_def, Ideal.addf_def, Ideal.ofBits_def]
  rfl

/-! ## The row maximum -/

theorem negInf_eq_bot : Ideal.ofBits .f32 0xFF800000#32 = (⊥ : EReal) := by simp [Ideal.ofBits, Ideal.ieee]

theorem lift_row (h : S8x16x1024x1024.Reduces [3] S8x16x1024) (b : Fin 8) (n : Fin 16) (i : Fin 1024)
    (k : Fin (S8x16x1024x1024.size 3)) : h.lift (ix3 b n i) k = ix4 b n i (⟨k.val, k.isLt⟩ : Fin 1024) :=
  funext fun a => Fin.ext (by match a with | ⟨0, _⟩ => rfl | ⟨1, _⟩ => rfl | ⟨2, _⟩ => rfl | ⟨3, _⟩ => rfl)

/-- The maximum of a score row: the fold from −∞, and the later maximum with −∞ changes nothing. -/
theorem max_stage (x0 : S8x1024x1024.Idx → EReal) (x1 : S8x1024.Idx → EReal) (x2 : S1024x1024.Idx → EReal)
    (x3 : S1024.Idx → EReal) (x4 : S1024x1024.Idx → EReal) (x5 : S1024.Idx → EReal)
    (b : Fin 8) (n : Fin 16) (i : Fin 1024) :
    val_main_v26 (F := Ideal) x0 x1 x2 x3 x4 x5 (ix3 b n i) = rowMax (refScores x0 x1 x2 x3 x4 x5) b n i := by
  rw [val_main_v26_apply, val_main_v25_apply, val_main_cst_1_apply]
  have hy : ∀ j : Fin 1024, val_main_v23 (F := Ideal) x0 x1 x2 x3 x4 x5 (ix4 b n i j)
      = refScores x0 x1 x2 x3 x4 x5 b n i j := fun j => scores_stage x0 x1 x2 x3 x4 x5 b n i j
  unfold val_main_v24
  generalize val_main_v23 (F := Ideal) x0 x1 x2 x3 x4 x5 = y at hy ⊢
  have h : S8x16x1024x1024.Reduces [3] S8x16x1024 := by decide
  rw [Host.reduce_eq_fold_single (α := Ideal .f32) (FloatOps.maximumf (F := Ideal) (φ := .f32)) y (val_main_cst_0 (F := Ideal))
      reducesTo_S8x16x1024x1024_S8x16x1024_d3 h h_S_ (ix3 b n i), val_main_cst_0_apply]
  have hf : (y ∘ h.lift (ix3 b n i)) = fun j : Fin 1024 => refScores x0 x1 x2 x3 x4 x5 b n i j :=
    funext fun k => (congrArg y (lift_row h b n i k)).trans (hy _)
  show max (Ideal.ofBits .f32 0xFF800000#32)
    (Finset.fold max (Ideal.ofBits .f32 0xFF800000#32) (y ∘ h.lift (ix3 b n i)) Finset.univ) = _
  rw [hf, negInf_eq_bot]
  exact bot_sup_eq _

/-! ## The shifted exponentials, their row sums and the quotient -/

theorem idx_keep (b : Fin 8) (n : Fin 16) (i j : Fin 1024) :
    idx_main_v27 (idx_main_v28 (ix4 b n i j)) = ix3 b n i :=
  funext fun a => Fin.ext (by match a with | ⟨0, _⟩ => rfl | ⟨1, _⟩ => rfl | ⟨2, _⟩ => rfl)

/-- The exponential of a score minus its row's maximum. -/
theorem exp_stage (x0 : S8x1024x1024.Idx → EReal) (x1 : S8x1024.Idx → EReal) (x2 : S1024x1024.Idx → EReal)
    (x3 : S1024.Idx → EReal) (x4 : S1024x1024.Idx → EReal) (x5 : S1024.Idx → EReal)
    (b : Fin 8) (n : Fin 16) (i j : Fin 1024) :
    val_main_v30 (F := Ideal) x0 x1 x2 x3 x4 x5 (ix4 b n i j) = expo (refScores x0 x1 x2 x3 x4 x5) b n i j := by
  rw [val_main_v30_apply, val_main_v29_apply, val_main_v28_apply, val_main_v27_apply, idx_keep, scores_stage, max_stage]
  simp only [Ideal.hostUnary_exp_def, Ideal.subf_def]
  rfl

theorem idx_keep' (b : Fin 8) (n : Fin 16) (i j : Fin 1024) :
    idx_main_v32 (idx_main_v33 (ix4 b n i j)) = ix3 b n i :=
  funext fun a => Fin.ext (by match a with | ⟨0, _⟩ => rfl | ⟨1, _⟩ => rfl | ⟨2, _⟩ => rfl)

theorem idx_row (b : Fin 8) (n : Fin 16) (i k : Fin 1024) : idx_main_v31 (ix3 b n i) k = ix4 b n i k :=
  funext fun a => Fin.ext (by match a with | ⟨0, _⟩ => rfl | ⟨1, _⟩ => rfl | ⟨2, _⟩ => rfl | ⟨3, _⟩ => rfl)

/-- The sum of a row of exponentials, broadcast back along the row. -/
theorem sum_stage (x0 : S8x1024x1024.Idx → EReal) (x1 : S8x1024.Idx → EReal) (x2 : S1024x1024.Idx → EReal)
    (x3 : S1024.Idx → EReal) (x4 : S1024x1024.Idx → EReal) (x5 : S1024.Idx → EReal)
    (b : Fin 8) (n : Fin 16) (i j : Fin 1024) :
    val_main_v33 (F := Ideal) x0 x1 x2 x3 x4 x5 (ix4 b n i j) = rowSum (expo (refScores x0 x1 x2 x3 x4 x5)) b n i := by
  rw [val_main_v33_apply, val_main_v32_apply, idx_keep', val_main_v31_apply, val_main_cst_2_apply]
  simp only [idx_row, exp_stage, Ideal.ofBits_def, Ideal.ofBits_zero_f32, zero_add]
  rfl

/-- The quotient softmax at (b, n, i, j). -/
theorem probs_stage (x0 : S8x1024x1024.Idx → EReal) (x1 : S8x1024.Idx → EReal) (x2 : S1024x1024.Idx → EReal)
    (x3 : S1024.Idx → EReal) (x4 : S1024x1024.Idx → EReal) (x5 : S1024.Idx → EReal)
    (b : Fin 8) (n : Fin 16) (i j : Fin 1024) :
    val_main_v34 (F := Ideal) x0 x1 x2 x3 x4 x5 (ix4 b n i j) = probsR (refScores x0 x1 x2 x3 x4 x5) b n i j := by
  rw [val_main_v34_apply, exp_stage, sum_stage]
  simp only [Ideal.hostDivf_def]
  rfl

/-- The reference's softmax probabilities (the stage its `%34` writes), as a function of the input, the mask and
    the query and key weights and biases: the quotient softmax of the head dot products divided by 8 plus the mask. -/
theorem probs_value (x0 : S8x1024x1024.Idx → EReal) (x1 : S8x1024.Idx → EReal) (x2 : S1024x1024.Idx → EReal)
    (x3 : S1024.Idx → EReal) (x4 : S1024x1024.Idx → EReal) (x5 : S1024.Idx → EReal) :
    (val_main_v34 (F := Ideal) x0 x1 x2 x3 x4 x5 : S8x16x1024x1024.Idx → EReal)
      = unc4 (probsR (scoresR (Ideal.ofBits .f32 0x41000000#32) (heads (lin (cur3 x0) (cur2 x2) (cur1 x3)))
          (heads (lin (cur3 x0) (cur2 x4) (cur1 x5))) (cur2 x1))) := by
  funext i
  obtain ⟨b, n, i', j, rfl⟩ : ∃ (b : Fin 8) (n : Fin 16) (i' j : Fin 1024), i = ix4 b n i' j :=
    ⟨i 0, i 1, i 2, i 3, eq_ix4 i⟩
  exact probs_stage x0 x1 x2 x3 x4 x5 b n i' j

/-- The reference's values in its [batch, head, position, channel] layout (the stage its `%17` writes): the value
    linear layer, head by head. -/
theorem values_value (x0 : S8x1024x1024.Idx → EReal) (x6 : S1024x1024.Idx → EReal) (x7 : S1024.Idx → EReal) :
    (val_main_v17 (F := Ideal) x0 x6 x7 : S8x16x1024x64.Idx → EReal)
      = unc4 (fun b n s d => heads (lin (cur3 x0) (cur2 x6) (cur1 x7)) b n d s) := by
  funext i
  obtain ⟨b, n, s, d, rfl⟩ : ∃ (b : Fin 8) (n : Fin 16) (s : Fin 1024) (d : Fin 64), i = ix4 b n s d :=
    ⟨i 0, i 1, i 2, i 3, eq_ix4 i⟩
  rw [v17_eq]
  exact heads_stage x0 x6 x7 b n s d

end Cert.ReferenceIdeal.RefProbs

end
-- ==== Proof.RefValue.lean ====
import proofs.«417071_j61770219651176_3_alg».proof.Proof.Gen.ReferenceIdeal.Read
import proofs.«417071_j61770219651176_3_alg».proof.Proof.Spec
import proofs.«417071_j61770219651176_3_alg».proof.Proof.RefProbs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.Spec
open Idealize.ShloMosaic Idealize.ShloMosaic.TcCoe Idealize.ShloMosaic.ValueIdx Idealize.SL.Sem

section Stages

open Cert.ReferenceIdeal.Read

/-- The reference's context in the head-major layout [batch, head, channel, position], as a function of the input,
    the mask and the query, key and value weights and biases. -/
abbrev ctxOf (x0 : S8x1024x1024.Idx → EReal) (x1 : S8x1024.Idx → EReal) (x2 : S1024x1024.Idx → EReal)
    (x3 : S1024.Idx → EReal) (x4 : S1024x1024.Idx → EReal) (x5 : S1024.Idx → EReal) (x6 : S1024x1024.Idx → EReal)
    (x7 : S1024.Idx → EReal) : L4 :=
  ctxL (probsR (scoresR (Ideal.ofBits .f32 0x41000000#32) (heads (lin (cur3 x0) (cur2 x2) (cur1 x3)))
    (heads (lin (cur3 x0) (cur2 x4) (cur1 x5))) (cur2 x1))) (heads (lin (cur3 x0) (cur2 x6) (cur1 x7)))

/-- Reading a curried function's array back by coordinates gives the function. -/
theorem cur3_unc3 {n0 n1 n2 : Nat} (f : Fin n0 → Fin n1 → Fin n2 → EReal) : cur3 (unc3 f) = f := rfl

/-- The context read in the layout [batch, head, position, channel]: the probabilities times the values, summed over
    the key position. -/
theorem context_value (x0 : S8x1024x1024.Idx → EReal) (x1 : S8x1024.Idx → EReal) (x2 : S1024x1024.Idx → EReal)
    (x3 : S1024.Idx → EReal) (x4 : S1024x1024.Idx → EReal) (x5 : S1024.Idx → EReal) (x6 : S1024x1024.Idx → EReal)
    (x7 : S1024.Idx → EReal) :
    (val_main_v35 (F := Ideal) x0 x1 x2 x3 x4 x5 x6 x7 : S8x16x1024x64.Idx → EReal)
      = unc4 (fun b n s d => ctxOf x0 x1 x2 x3 x4 x5 x6 x7 b n d s) := by
  funext i
  obtain ⟨b, n, s, d, rfl⟩ : ∃ (b : Fin 8) (n : Fin 16) (s : Fin 1024) (d : Fin 64), i = ix4 b n s d :=
    ⟨i 0, i 1, i 2, i 3, eq_ix4 i⟩
  rw [val_main_v35_apply, RefProbs.probs_value, RefProbs.values_value]
  unfold ctxOf
  generalize probsR (scoresR (Ideal.ofBits .f32 0x41000000#32)
          (heads (lin (cur3 x0) (cur2 x2) (cur1 x3))) (heads (lin (cur3 x0) (cur2 x4) (cur1 x5))) (cur2 x1)) = P
  generalize heads (lin (cur3 x0) (cur2 x6) (cur1 x7)) = V
  exact Finset.sum_congr rfl fun k _ => rfl

/-- The heads merged back into the feature axis: feature `h` is channel `h % 64` of head `h / 64`. -/
theorem merged_value (x0 : S8x1024x1024.Idx → EReal) (x1 : S8x1024.Idx → EReal) (x2 : S1024x1024.Idx → EReal)
    (x3 : S1024.Idx → EReal) (x4 : S1024x1024.Idx → EReal) (x5 : S1024.Idx → EReal) (x6 : S1024x1024.Idx → EReal)
    (x7 : S1024.Idx → EReal) (b : Fin 8) (s : Fin 1024) (h : Fin 1024) :
    val_main_v37 (F := Ideal) x0 x1 x2 x3 x4 x5 x6 x7 (ix3 b s h) = ctxOf x0 x1 x2 x3 x4 x5 x6 x7 b (hdN h) (hdD h) s := by
  have hb := b.isLt
  have hs := s.isLt
  have hh := h.isLt
  have e : idx_main_v36 (idx_main_v37 (ix3 b s h)) = ix4 b (hdN h) s (hdD h) := funext fun a => Fin.ext (by
    match a with
    | ⟨0, _⟩ => show ((b.val * 1024 + s.val) * 1024 + h.val) / 1048576 = b.val; omega
    | ⟨1, _⟩ => show ((b.val * 1024 + s.val) * 1024 + h.val) / 64 % 16 = h.val / 64; omega
    | ⟨2, _⟩ => show ((b.val * 1024 + s.val) * 1024 + h.val) / 1024 % 1024 = s.val; omega
    | ⟨3, _⟩ => show ((b.val * 1024 + s.val) * 1024 + h.val) % 64 = h.val % 64; omega)
  rw [val_main_v37_apply, val_main_v36_apply, e, context_value]

/-- The output projection of the merged heads plus its bias plus the input. -/
theorem resid_value (x0 : S8x1024x1024.Idx → EReal) (x1 : S8x1024.Idx → EReal) (x2 : S1024x1024.Idx → EReal)
    (x3 : S1024.Idx → EReal) (x4 : S1024x1024.Idx → EReal) (x5 : S1024.Idx → EReal) (x6 : S1024x1024.Idx → EReal)
    (x7 : S1024.Idx → EReal) (x8 : S1024x1024.Idx → EReal) (x9 : S1024.Idx → EReal) :
    (val_main_v42 (F := Ideal) x0 x1 x2 x3 x4 x5 x6 x7 x8 x9 : S8x1024x1024.Idx → EReal)
      = unc3 (resid (ctxOf x0 x1 x2 x3 x4 x5 x6 x7) (cur2 x8) (cur1 x9) (cur3 x0)) := by
  funext i
  obtain ⟨b, s, o, rfl⟩ : ∃ (b : Fin 8) (s : Fin 1024) (o : Fin 1024), i = ix3 b s o := ⟨i 0, i 1, i 2, eq_ix3 i⟩
  have el : ∀ k : Fin 1024, lidx_main_v38 (ix3 b s o) k = ix3 b s k := fun k => funext fun a => Fin.ext (by
    match a with | ⟨0, _⟩ => rfl | ⟨1, _⟩ => rfl | ⟨2, _⟩ => rfl)
  have er : ∀ k : Fin 1024, ridx_main_v38 (ix3 b s o) k = ix2 o k := fun k => funext fun a => Fin.ext (by
    match a with | ⟨0, _⟩ => rfl | ⟨1, _⟩ => rfl)
  have eb : idx_main_v39 (idx_main_v40 (ix3 b s o)) = ix1 o := funext fun a => Fin.ext (by
    match a with | ⟨0, _⟩ => rfl)
  rw [val_main_v42_apply, val_main_v41_apply, val_main_v38_apply, val_main_v40_apply, val_main_v39_apply, eb]
  simp only [el, er, merged_value, Ideal.addf_def]
  generalize ctxOf x0 x1 x2 x3 x4 x5 x6 x7 = C
  rfl

/-- The mean of a row of the residual sum: the row's sum divided by the float 1024. -/
theorem mean_value (x0 : S8x1024x1024.Idx → EReal) (x1 : S8x1024.Idx → EReal) (x2 : S1024x1024.Idx → EReal)
    (x3 : S1024.Idx → EReal) (x4 : S1024x1024.Idx → EReal) (x5 : S1024.Idx → EReal) (x6 : S1024x1024.Idx → EReal)
    (x7 : S1024.Idx → EReal) (x8 : S1024x1024.Idx → EReal) (x9 : S1024.Idx → EReal) (b : Fin 8) (s : Fin 1024) (z : Fin 1) :
    val_main_v46 (F := Ideal) x0 x1 x2 x3 x4 x5 x6 x7 x8 x9 (ix3 b s z)
      = rowMean (Ideal.ofBits .f32 0x44800000#32) (cur3 (val_main_v42 (F := Ideal) x0 x1 x2 x3 x4 x5 x6 x7 x8 x9)) b s := by
  have e : ∀ k : Fin 1024, idx_main_v43 (idx_main_v44 (ix3 b s z)) k = ix3 b s k := fun k => funext fun a => Fin.ext (by
    match a with | ⟨0, _⟩ => rfl | ⟨1, _⟩ => rfl | ⟨2, _⟩ => rfl)
  rw [val_main_v46_apply, val_main_v44_apply, val_main_v43_apply, val_main_v45_apply, val_main_cst_3_apply,
    val_main_cst_4_apply]
  simp only [e, Ideal.hostDivf_def, Ideal.ofBits_def, Ideal.ofBits_zero_f32, zero_add]
  rfl

/-- The centred row, as the variance's operand reads it. -/
theorem centred_value (x0 : S8x1024x1024.Idx → EReal) (x1 : S8x1024.Idx → EReal) (x2 : S1024x1024.Idx → EReal)
    (x3 : S1024.Idx → EReal) (x4 : S1024x1024.Idx → EReal) (x5 : S1024.Idx → EReal) (x6 : S1024x1024.Idx → EReal)
    (x7 : S1024.Idx → EReal) (x8 : S1024x1024.Idx → EReal) (x9 : S1024.Idx → EReal) (b : Fin 8) (s : Fin 1024) (o : Fin 1024) :
    val_main_v48 (F := Ideal) x0 x1 x2 x3 x4 x5 x6 x7 x8 x9 (ix3 b s o)
      = centred (Ideal.ofBits .f32 0x44800000#32) (cur3 (val_main_v42 (F := Ideal) x0 x1 x2 x3 x4 x5 x6 x7 x8 x9)) b s o := by
  have e : idx_main_v47 (ix3 b s o) = ix3 b s (0 : Fin 1) := funext fun a => Fin.ext (by
    match a with | ⟨0, _⟩ => rfl | ⟨1, _⟩ => rfl | ⟨2, _⟩ => rfl)
  rw [val_main_v48_apply, val_main_v47_apply, e, mean_value]
  rfl

/-- The centred row, as the normalisation reads it (the program broadcasts the mean a second time). -/
theorem centred_value' (x0 : S8x1024x1024.Idx → EReal) (x1 : S8x1024.Idx → EReal) (x2 : S1024x1024.Idx → EReal)
    (x3 : S1024.Idx → EReal) (x4 : S1024x1024.Idx → EReal) (x5 : S1024.Idx → EReal) (x6 : S1024x1024.Idx → EReal)
    (x7 : S1024.Idx → EReal) (x8 : S1024x1024.Idx → EReal) (x9 : S1024.Idx → EReal) (b : Fin 8) (s : Fin 1024) (o : Fin 1024) :
    val_main_v55 (F := Ideal) x0 x1 x2 x3 x4 x5 x6 x7 x8 x9 (ix3 b s o)
      = centred (Ideal.ofBits .f32 0x44800000#32) (cur3 (val_main_v42 (F := Ideal) x0 x1 x2 x3 x4 x5 x6 x7 x8 x9)) b s o := by
  have e : idx_main_v54 (ix3 b s o) = ix3 b s (0 : Fin 1) := funext fun a => Fin.ext (by
    match a with | ⟨0, _⟩ => rfl | ⟨1, _⟩ => rfl | ⟨2, _⟩ => rfl)
  rw [val_main_v55_apply, val_main_v54_apply, e, mean_value]
  rfl

/-- The variance of a row: the sum of the squared centred entries divided by the float 1024. -/
theorem var_value (x0 : S8x1024x1024.Idx → EReal) (x1 : S8x1024.Idx → EReal) (x2 : S1024x1024.Idx → EReal)
    (x3 : S1024.Idx → EReal) (x4 : S1024x1024.Idx → EReal) (x5 : S1024.Idx → EReal) (x6 : S1024x1024.Idx → EReal)
    (x7 : S1024.Idx → EReal) (x8 : S1024x1024.Idx → EReal) (x9 : S1024.Idx → EReal) (b : Fin 8) (s : Fin 1024) (z : Fin 1) :
    val_main_v53 (F := Ideal) x0 x1 x2 x3 x4 x5 x6 x7 x8 x9 (ix3 b s z)
      = rowVar (Ideal.ofBits .f32 0x44800000#32) (cur3 (val_main_v42 (F := Ideal) x0 x1 x2 x3 x4 x5 x6 x7 x8 x9)) b s := by
  have e : ∀ k : Fin 1024, idx_main_v50 (idx_main_v51 (ix3 b s z)) k = ix3 b s k := fun k => funext fun a => Fin.ext (by
    match a with | ⟨0, _⟩ => rfl | ⟨1, _⟩ => rfl | ⟨2, _⟩ => rfl)
  rw [val_main_v53_apply, val_main_v51_apply, val_main_v50_apply, val_main_v52_apply, val_main_cst_5_apply,
    val_main_cst_6_apply, Ideal.hostDivf_def, Ideal.ofBits_def, Ideal.ofBits_def, Ideal.ofBits_zero_f32, zero_add]
  unfold rowVar
  refine congrArg (fun t => Ideal.div t _) (Finset.sum_congr rfl fun k _ => ?_)
  rw [e, val_main_v49_apply, centred_value, Ideal.mulf_def]

/-- The layer normalisation of the residual sum. -/
theorem norm_value (x0 : S8x1024x1024.Idx → EReal) (x1 : S8x1024.Idx → EReal) (x2 : S1024x1024.Idx → EReal)
    (x3 : S1024.Idx → EReal) (x4 : S1024x1024.Idx → EReal) (x5 : S1024.Idx → EReal) (x6 : S1024x1024.Idx → EReal)
    (x7 : S1024.Idx → EReal) (x8 : S1024x1024.Idx → EReal) (x9 : S1024.Idx → EReal) (x10 x11 : S1024.Idx → EReal) :
    (val_main_v66 (F := Ideal) x0 x1 x2 x3 x4 x5 x6 x7 x8 x9 x10 x11 : S8x1024x1024.Idx → EReal)
      = unc3 (layernorm (Ideal.ofBits .f32 0x44800000#32) (Ideal.ofBits .f32 0x2B8CBCCC#32) (cur3 (val_main_v42 (F := Ideal) x0 x1 x2 x3 x4 x5 x6 x7 x8 x9)) (cur1 x10) (cur1 x11)) := by
  funext i
  obtain ⟨b, s, o, rfl⟩ : ∃ (b : Fin 8) (s : Fin 1024) (o : Fin 1024), i = ix3 b s o := ⟨i 0, i 1, i 2, eq_ix3 i⟩
  have e59 : idx_main_v59 (ix3 b s o) = ix3 b s (0 : Fin 1) := funext fun a => Fin.ext (by
    match a with | ⟨0, _⟩ => rfl | ⟨1, _⟩ => rfl | ⟨2, _⟩ => rfl)
  have e62 : idx_main_v61 (idx_main_v62 (ix3 b s o)) = ix1 o := funext fun a => Fin.ext (by
    match a with | ⟨0, _⟩ => rfl)
  have e65 : idx_main_v64 (idx_main_v65 (ix3 b s o)) = ix1 o := funext fun a => Fin.ext (by
    match a with | ⟨0, _⟩ => rfl)
  rw [val_main_v66_apply, val_main_v63_apply, val_main_v60_apply, val_main_v59_apply, val_main_v58_apply,
    val_main_v57_apply, val_main_v56_apply, val_main_cst_7_apply, val_main_v62_apply, val_main_v61_apply,
    val_main_v65_apply, val_main_v64_apply, e59, e62, e65, centred_value', var_value]
  rw [Ideal.addf_def, Ideal.mulf_def, Ideal.mulf_def, Ideal.hostUnary_rsqrt_def, Ideal.addf_def, Ideal.ofBits_def]
  generalize cur3 (val_main_v42 (F := Ideal) x0 x1 x2 x3 x4 x5 x6 x7 x8 x9) = r
  rfl

/-- The last stage as the specification's reference arrangement, over variables. -/
theorem stage_value (x0 : S8x1024x1024.Idx → EReal) (x1 : S8x1024.Idx → EReal) (x2 : S1024x1024.Idx → EReal)
    (x3 : S1024.Idx → EReal) (x4 : S1024x1024.Idx → EReal) (x5 : S1024.Idx → EReal) (x6 : S1024x1024.Idx → EReal)
    (x7 : S1024.Idx → EReal) (x8 : S1024x1024.Idx → EReal) (x9 : S1024.Idx → EReal) (x10 x11 : S1024.Idx → EReal) :
    (val_main_v66 (F := Ideal) x0 x1 x2 x3 x4 x5 x6 x7 x8 x9 x10 x11 : S8x1024x1024.Idx → EReal)
      = unc3 (refOut (Ideal.ofBits .f32 0x41000000#32) (Ideal.ofBits .f32 0x44800000#32) (Ideal.ofBits .f32 0x2B8CBCCC#32)
          (cur3 x0) (cur2 x1) (cur2 x2) (cur1 x3) (cur2 x4) (cur1 x5) (cur2 x6) (cur1 x7) (cur2 x8) (cur1 x9)
          (cur1 x10) (cur1 x11)) := by
  rw [norm_value, resid_value, cur3_unc3]
  rfl

end Stages

/-- The reference run's result term is the reference's arrangement of the attention block, as one function of the
    twelve argument arrays. -/
theorem result_value (m : (ℓ : Loc nD τ sig) → Buf (Elt Ideal) ℓ) (c : Dev nD) :
    (Cert.ReferenceIdeal.Value.res_main_v66 (F := Ideal) m c : S8x1024x1024.Idx → EReal)
      = unc3 (refOut (Ideal.ofBits .f32 0x41000000#32) (Ideal.ofBits .f32 0x44800000#32) (Ideal.ofBits .f32 0x2B8CBCCC#32)
          (cur3 (m ((c.tc : Thread nD τ).loc main_arg0) : S8x1024x1024.Idx → EReal))
          (cur2 (m ((c.tc : Thread nD τ).loc main_arg1) : S8x1024.Idx → EReal))
          (cur2 (m ((c.tc : Thread nD τ).loc main_arg2) : S1024x1024.Idx → EReal))
          (cur1 (m ((c.tc : Thread nD τ).loc main_arg3) : S1024.Idx → EReal))
          (cur2 (m ((c.tc : Thread nD τ).loc main_arg4) : S1024x1024.Idx → EReal))
          (cur1 (m ((c.tc : Thread nD τ).loc main_arg5) : S1024.Idx → EReal))
          (cur2 (m ((c.tc : Thread nD τ).loc main_arg6) : S1024x1024.Idx → EReal))
          (cur1 (m ((c.tc : Thread nD τ).loc main_arg7) : S1024.Idx → EReal))
          (cur2 (m ((c.tc : Thread nD τ).loc main_arg8) : S1024x1024.Idx → EReal))
          (cur1 (m ((c.tc : Thread nD τ).loc main_arg9) : S1024.Idx → EReal))
          (cur1 (m ((c.tc : Thread nD τ).loc main_arg10) : S1024.Idx → EReal))
          (cur1 (m ((c.tc : Thread nD τ).loc main_arg11) : S1024.Idx → EReal))) := by
  rw [Read.val_main_v66_eq]
  exact stage_value _ _ _ _ _ _ _ _ _ _ _ _

end Cert.ReferenceIdeal.RefValue

end
-- ==== Proof.Algebra.lean ====
import proofs.«417071_j61770219651176_3_alg».proof.Proof.Spec
import Idealize.ShloMosaic.PureOps.Ideal
import Mathlib.Data.EReal.Basic
import Mathlib.Data.Finset.Fold
import Mathlib.Data.Finset.Max
import Mathlib.Algebra.Order.BigOperators.Group.Finset

noncomputable section

namespace Cert.Spec

open Idealize.ShloMosaic

/-- Every entry of a rank-3 array is a real number. -/
def Real3 (x : T3) : Prop := ∀ b s h, ∃ r : ℝ, x b s h = (r : EReal)
/-- Every entry of a matrix (or of the mask) is a real number. -/
def Real2 {n0 n1 : Nat} (x : Fin n0 → Fin n1 → EReal) : Prop := ∀ a b, ∃ r : ℝ, x a b = (r : EReal)
/-- Every entry of a vector is a real number. -/
def Real1 (x : R1) : Prop := ∀ a, ∃ r : ℝ, x a = (r : EReal)

namespace Alg

/-- Every entry of a score array is a real number. -/
def Real4 (S : T4) : Prop := ∀ b n i j, ∃ r : ℝ, S b n i j = (r : EReal)

/-- A finite sum of reals, read in the extended reals, is the extended real of the sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A linear layer with real input, real weights and a real bias has real output: each entry is a finite sum of
    products of reals plus a real. -/
theorem lin_real {x : T3} {W : M2} {bias : R1} (hx : Real3 x) (hW : Real2 W) (hb : Real1 bias) :
    Real3 (lin x W bias) := by
  choose xr hxr using hx
  choose Wr hWr using hW
  choose br hbr using hb
  intro b s o
  refine ⟨(∑ h, xr b s h * Wr o h) + br o, ?_⟩
  simp only [lin, hxr, hWr, hbr, ← EReal.coe_mul, coe_sum, ← EReal.coe_add]

/-- Scaling real queries by 1/8 inside the head dot product is dividing the dot product by 8:
    Σ_d (q_d · 1/8) · k_d = (Σ_d q_d · k_d) · 1/8. -/
theorem scores_eq {yq yk : T3} (mask : Mk) (hq : Real3 yq) (hk : Real3 yk) :
    scoresL (fun b n d s => heads yq b n d s * ((1 / 8 : ℝ) : EReal)) (heads yk) mask
      = scoresR ((8 : ℝ) : EReal) (heads yq) (heads yk) mask := by
  choose qr hqr using hq
  choose kr hkr using hk
  funext b n i j
  simp only [scoresL, scoresR, heads, hqr, hkr]
  rw [Ideal.div_coe (by norm_num : (8 : ℝ) ≠ 0)]
  congr 1
  simp only [← EReal.coe_mul, coe_sum]
  congr 1
  rw [Finset.sum_mul]
  exact Finset.sum_congr rfl (fun d _ => by ring)

/-- The reference's scores of real queries, real keys and a real mask are real. -/
theorem scoresR_real {yq yk : T3} {mask : Mk} (hq : Real3 yq) (hk : Real3 yk) (hm : Real2 mask) :
    Real4 (scoresR ((8 : ℝ) : EReal) (heads yq) (heads yk) mask) := by
  choose qr hqr using hq
  choose kr hkr using hk
  choose mr hmr using hm
  intro b n i j
  refine ⟨(∑ d : Fin 64, qr b i (hd n d) * kr b j (hd n d)) * (1 / 8 : ℝ) + mr b j, ?_⟩
  simp only [scoresR, heads, hqr, hkr, hmr]
  rw [Ideal.div_coe (by norm_num : (8 : ℝ) ≠ 0)]
  simp only [← EReal.coe_mul, coe_sum, ← EReal.coe_add]

/-- A real score row has a real maximum M attained at some key j₀, so the shifted exponentials exp(S_j − M) are
    positive reals, the one at j₀ is exp 0 = 1, and the row's sum of exponentials is a real that is at least 1. -/
theorem rowSum_expo_real {S : T4} (hS : Real4 S) (b : Fin 8) (n : Fin 16) (i : Fin 1024) :
    ∃ s : ℝ, rowSum (expo S) b n i = (s : EReal) ∧ 1 ≤ s := by
  choose Sr hSr using hS
  obtain ⟨j0, -, hj0⟩ := Finset.exists_max_image (Finset.univ : Finset (Fin 1024)) (fun j => Sr b n i j)
    ⟨0, Finset.mem_univ _⟩
  have hM : rowMax S b n i = ((Sr b n i j0 : ℝ) : EReal) := by
    unfold rowMax
    simp only [hSr]
    apply le_antisymm
    · rw [Finset.fold_max_le]
      exact ⟨bot_le, fun j hj => EReal.coe_le_coe_iff.mpr (hj0 j hj)⟩
    · rw [Finset.le_fold_max]
      exact Or.inr ⟨j0, Finset.mem_univ _, le_rfl⟩
  refine ⟨∑ j, Real.exp (Sr b n i j - Sr b n i j0), ?_, ?_⟩
  · simp only [rowSum, expo, hM, hSr, ← EReal.coe_sub, Ideal.exp_coe, coe_sum]
  · calc (1 : ℝ) = Real.exp (Sr b n i j0 - Sr b n i j0) := by simp
      _ ≤ ∑ j, Real.exp (Sr b n i j - Sr b n i j0) :=
          Finset.single_le_sum (f := fun j => Real.exp (Sr b n i j - Sr b n i j0))
            (fun j _ => (Real.exp_pos _).le) (Finset.mem_univ j0)

/-- On real scores the guard never binds (the row sum is at least 1 > 10⁻³⁰), and multiplying by the reciprocal of a
    nonzero real is dividing by it: the two softmax forms agree. -/
theorem probs_eq {ε : EReal} (hε : ε = ((1 / 1000000000000000000000000000000 : ℝ) : EReal)) {S : T4}
    (hS : Real4 S) : probsK ε S = probsR S := by
  funext b n i j
  obtain ⟨s, hs, hs1⟩ := rowSum_expo_real hS b n i
  have hs0 : s ≠ 0 := by linarith
  have hle : ε ≤ (s : EReal) := by
    rw [hε]
    exact EReal.coe_le_coe_iff.mpr (le_trans (by norm_num) hs1)
  simp only [probsK, probsR]
  rw [hs, max_eq_left hle, Ideal.div_coe hs0, Ideal.div_coe hs0, one_mul]

end Alg

/-- The f32 word of 0.125 is the real 1/8. -/
theorem word_eighth : Ideal.ofBits .f32 0x3E000000#32 = ((1 / 8 : ℝ) : EReal) := by
  simp [Ideal.ofBits, Ideal.ieee, -EReal.coe_mul]; norm_num

/-- The f32 word of 8.0 is the real 8. -/
theorem word_eight : Ideal.ofBits .f32 0x41000000#32 = ((8 : ℝ) : EReal) := by
  simp [Ideal.ofBits, Ideal.ieee, -EReal.coe_mul]; norm_num

/-- With real inputs to the query and key layers and a real mask, scaling the queries by 1/8 before the head
    dot product equals dividing the product by 8, every score row is real so its exponentials sum to at least 1
    (the guard 10⁻³⁰ never binds), and the reciprocal form of the softmax equals the quotient form: the kernel's
    arrangement and the reference's are one function. -/
theorem kernelOut_eq_refOut (sc ε e c eps : EReal) (hsc : sc = ((1 / 8 : ℝ) : EReal)) (he : e = ((8 : ℝ) : EReal))
    (hε : ε = ((1 / 1000000000000000000000000000000 : ℝ) : EReal))
    (x : T3) (mask : Mk) (Wq : M2) (bq : R1) (Wk : M2) (bk : R1) (Wv : M2) (bv : R1) (Wo : M2) (bo γ β : R1)
    (hx : Real3 x) (hmask : Real2 mask) (hWq : Real2 Wq) (hbq : Real1 bq) (hWk : Real2 Wk) (hbk : Real1 bk) :
    kernelOut sc ε c eps x mask Wq bq Wk bk Wv bv Wo bo γ β = refOut e c eps x mask Wq bq Wk bk Wv bv Wo bo γ β := by
  have hq : Real3 (lin x Wq bq) := Alg.lin_real hx hWq hbq
  have hk : Real3 (lin x Wk bk) := Alg.lin_real hx hWk hbk
  unfold kernelOut refOut attnL
  rw [hsc, he, Alg.scores_eq mask hq hk, Alg.probs_eq hε (Alg.scoresR_real hq hk hmask)]

end Cert.Spec

end
-- ==== Proof.Finite.lean ====
import proofs.«417071_j61770219651176_3_alg».proof.Defs
import proofs.«417071_j61770219651176_3_alg».proof.Proof.Gen.Pre_finite_inputs
import proofs.«417071_j61770219651176_3_alg».proof.Proof.Spec
import proofs.«417071_j61770219651176_3_alg».proof.Proof.Algebra
import Idealize.ShloMosaic.Lib.ReduceAll
import Idealize.ShloMosaic.Lib.ValueIdx

noncomputable section

namespace Cert.Finite

section Decode

open Cert.Pre_finite_inputs
open Idealize.ShloMosaic Idealize.ShloMosaic.ValueIdx

/-- The f32 word with exponent field all ones and fraction zero denotes +∞. -/
theorem word_inf : Ideal.ofBits .f32 0x7F800000#32 = (⊤ : EReal) := by
  simp [Ideal.ofBits, Ideal.ieee]

/-- An extended real whose absolute value `max x (-x)` is strictly below +∞ is a real number:
    at −∞ and at +∞ the absolute value is +∞ itself. -/
theorem real_of_abs_lt_top (x : EReal) (h : Ideal.cmp .olt (max x (-x)) (⊤ : EReal) = 1#1) :
    ∃ r : ℝ, x = (r : EReal) := by
  induction x using EReal.rec with
  | bot => simp [Ideal.cmp] at h
  | coe r => exact ⟨r, rfl⟩
  | top => simp [Ideal.cmp] at h

/-- The scalar shape has exactly one index. -/
instance subsingleton_scalar_idx : Subsingleton S_.Idx := ⟨fun a b => funext fun d => d.elim0⟩

/-- "All entries of |x| are below +∞", as a conjunction over the whole array that answers 1, says that every
    entry of `x` is a real number (any shape). -/
theorem real_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .olt (Host.absf x)
          (broadcastInDim s ![] hb (constant (F := Ideal) S_ .f32 0x7F800000#32))) (constantI S_ 1 1#1) hr hu ix0 = 1#1)
    (i : s.Idx) : ∃ r : ℝ, x i = (r : EReal) := by
  have e := Host.reduce_andi_all _ _ hr hu ix0 h i
  apply real_of_abs_lt_top
  rw [← word_inf]
  exact e

/-- The precondition is the conjunction, left-nested in argument order, of the twelve tests "all |xₖ| < +∞".
    When it answers 1 every conjunct does; the first six give the first six arrays real entries. -/
theorem real_of_fn [Facts]
    (a0 : FVec Ideal S8x1024x1024 .f32) (a1 : FVec Ideal S8x1024 .f32) (a2 : FVec Ideal S1024x1024 .f32)
    (a3 : FVec Ideal S1024 .f32) (a4 : FVec Ideal S1024x1024 .f32) (a5 : FVec Ideal S1024 .f32)
    (a6 : FVec Ideal S1024x1024 .f32) (a7 : FVec Ideal S1024 .f32) (a8 : FVec Ideal S1024x1024 .f32)
    (a9 : FVec Ideal S1024 .f32) (a10 : FVec Ideal S1024 .f32) (a11 : FVec Ideal S1024 .f32)
    (h : fn (F := Ideal) a0 a1 a2 a3 a4 a5 a6 a7 a8 a9 a10 a11 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal)) := by
  have h0 := congrFun h ix0
  dsimp only [fn, fn_part1, fn_part2, fn_part3, andi] at h0
  -- the six outermost conjuncts are the tests of the arrays 11, 10, 9, 8, 7, 6
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  -- then those of the arrays 5, 4, 3, 2, and at the core 0 and 1
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all a0 _ _ _ e0, real_of_all a1 _ _ _ e1, real_of_all a2 _ _ _ e2,
    real_of_all a3 _ _ _ e3, real_of_all a4 _ _ _ e4, real_of_all a5 _ _ _ e5⟩

end Decode

open Cert.KernelIdeal Cert.Spec
open Idealize.ShloMosaic Idealize.ShloMosaic.TcCoe Idealize.ShloMosaic.ValueIdx Idealize.SL.Sem

/-- Under the precondition "every float input is finite", read at the extended reals, the six arrays the
    attention scores depend on (the input, the mask, the query and key weights and biases) hold real numbers. -/
theorem real_args [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Real3 (cur3 (m ((c.tc : Thread nD τ).loc main_arg0) : S8x1024x1024.Idx → EReal))
    ∧ Real2 (cur2 (m ((c.tc : Thread nD τ).loc main_arg1) : S8x1024.Idx → EReal))
    ∧ Real2 (cur2 (m ((c.tc : Thread nD τ).loc main_arg2) : S1024x1024.Idx → EReal))
    ∧ Real1 (cur1 (m ((c.tc : Thread nD τ).loc main_arg3) : S1024.Idx → EReal))
    ∧ Real2 (cur2 (m ((c.tc : Thread nD τ).loc main_arg4) : S1024x1024.Idx → EReal))
    ∧ Real1 (cur1 (m ((c.tc : Thread nD τ).loc main_arg5) : S1024.Idx → EReal)) := by
  obtain ⟨r0, r1, r2, r3, r4, r5⟩ := real_of_fn _ _ _ _ _ _ _ _ _ _ _ _ (h c)
  exact ⟨fun a b d => r0 (ix3 a b d), fun a b => r1 (ix2 a b), fun a b => r2 (ix2 a b),
    fun a => r3 (ix1 a), fun a b => r4 (ix2 a b), fun a => r5 (ix1 a)⟩

end Cert.Finite

end
-- ==== Proof.lean ====
/-
  One BERT self-attention block as three kernel calls (Q/K/V projections into a head-major layout; softmax
  attention two heads at a time; output projection with residual and layer norm) against the plain jnp
  reference, compared on the extended reals.

  Both programs compute, per batch and position, the layer norm of `Σ_h ctx[h]·Wo[o,h] + bo[o] + x[o]`, where the
  context of head n is `Σ_j P[i,j]·v[j]` for the row-softmax P of the scores. They differ in two places only: the
  kernel folds the scale 1/√64 = 1/8 into the queries (`Σ_d (q_d/8)·k_d`) where the reference divides the dot
  product by 8, and the kernel normalises the softmax by the reciprocal of `max(Σ exp, 10⁻³⁰)` where the reference
  divides by `Σ exp`. With finite inputs the scores are real numbers, the shifted exponentials of a row sum to at
  least 1 (the maximum's own term is exp 0), so the guard never binds and the two normalisations agree; the scale
  moves through the finite sum. That is `Cert.Spec.kernelOut_eq_refOut` (Proof/Algebra.lean), over the
  specification of Proof/Spec.lean.

  The kernel side reads the result array off the three calls one after the other (Proof/Region0, Region1,
  Region2: what each call's output array holds, for any entry contents; Proof/Chain: their composition through the
  segment boundaries; Proof/KernelRun: the run with the result array in its post). The reference side reads its
  run's result term stage by stage (Proof/RefProbs, Proof/RefValue). Proof/Finite decodes the precondition into
  "every entry of the six arrays the scores depend on is a real number".
-/
import proofs.«417071_j61770219651176_3_alg».proof.Defs
import proofs.«417071_j61770219651176_3_alg».proof.Proof.Gen.Kernel
import proofs.«417071_j61770219651176_3_alg».proof.Proof.Gen.Kernel.Skeleton
import proofs.«417071_j61770219651176_3_alg».proof.Proof.Gen.Kernel.Launch
import proofs.«417071_j61770219651176_3_alg».proof.Proof.Gen.Kernel.Points
import proofs.«417071_j61770219651176_3_alg».proof.Proof.Gen.Kernel.Frame
import proofs.«417071_j61770219651176_3_alg».proof.Proof.Gen.KernelIdeal
import proofs.«417071_j61770219651176_3_alg».proof.Proof.Gen.KernelIdeal.Skeleton
import proofs.«417071_j61770219651176_3_alg».proof.Proof.Gen.KernelIdeal.Launch
import proofs.«417071_j61770219651176_3_alg».proof.Proof.Gen.KernelIdeal.Points
import proofs.«417071_j61770219651176_3_alg».proof.Proof.Gen.KernelIdeal.Frame
import proofs.«417071_j61770219651176_3_alg».proof.Proof.Gen.ReferenceIdeal
import proofs.«417071_j61770219651176_3_alg».proof.Proof.Gen.Pre_finite_inputs
import proofs.«417071_j61770219651176_3_alg».proof.Proof.Gen.ReferenceIdeal.Run
import proofs.«417071_j61770219651176_3_alg».proof.Proof.Gen.ReferenceIdeal.Read
import proofs.«417071_j61770219651176_3_alg».proof.Proof.Spec
import proofs.«417071_j61770219651176_3_alg».proof.Proof.KernelRun
import proofs.«417071_j61770219651176_3_alg».proof.Proof.Chain
import proofs.«417071_j61770219651176_3_alg».proof.Proof.RefValue
import proofs.«417071_j61770219651176_3_alg».proof.Proof.Algebra
import proofs.«417071_j61770219651176_3_alg».proof.Proof.Finite
import Idealize.ShloMosaic.Adequacy
import Idealize.ShloMosaic.Init

noncomputable section

namespace Cert.Proof

open Idealize.ShloMosaic Idealize.ShloMosaic.TcCoe Idealize.SL.Sem Cert.Spec

/-- The softmax guard is the real 10⁻³⁰: the value the statement's table gives the named constant. -/
theorem guard_value : Cert.KernelIdeal.Region1.guard = ((1 / 1000000000000000000000000000000 : ℝ) : EReal) :=
  IdealRules.named_const.ideal_named_scalar _ _ _ _ rfl

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The one ledger entry: the table gives the guard's name the value 10⁻³⁰. -/
theorem preserves : Cert.preserves_Kernel_KernelIdeal :=
  IdealRules.named_const.statement Cert.KernelIdeal.κ "inv_1000000000000000000000000000000" .f32 0x0DA24260#32
    ((1 / 1000000000000000000000000000000 : ℝ) : EReal) rfl

/-- Both runs end with the result array at the kernel's arrangement of the block applied to the (agreeing)
    arguments: the kernel by its three calls composed, the reference by its stages, the two arrangements one
    function on real inputs. -/
theorem algebraic : Cert.algebraic_KernelIdeal_ReferenceIdeal := by
  intro m ρ m' ρ' hpre hagree
  refine ⟨fun c => unc3 (kernelOut (Ideal.ofBits .f32 0x3E000000#32) Cert.KernelIdeal.Region1.guard
      (Ideal.ofBits .f32 0x44800000#32) (Ideal.ofBits .f32 0x2B8CBCCC#32)
      (cur3 (m ((c.tc : Thread Cert.KernelIdeal.nD Cert.KernelIdeal.τ).loc Cert.KernelIdeal.main_arg0) : Cert.KernelIdeal.S8x1024x1024.Idx → EReal))
      (cur2 (m ((c.tc : Thread Cert.KernelIdeal.nD Cert.KernelIdeal.τ).loc Cert.KernelIdeal.main_arg1) : Cert.KernelIdeal.S8x1024.Idx → EReal))
      (cur2 (m ((c.tc : Thread Cert.KernelIdeal.nD Cert.KernelIdeal.τ).loc Cert.KernelIdeal.main_arg2) : Cert.KernelIdeal.S1024x1024.Idx → EReal))
      (cur1 (m ((c.tc : Thread Cert.KernelIdeal.nD Cert.KernelIdeal.τ).loc Cert.KernelIdeal.main_arg3) : Cert.KernelIdeal.S1024.Idx → EReal))
      (cur2 (m ((c.tc : Thread Cert.KernelIdeal.nD Cert.KernelIdeal.τ).loc Cert.KernelIdeal.main_arg4) : Cert.KernelIdeal.S1024x1024.Idx → EReal))
      (cur1 (m ((c.tc : Thread Cert.KernelIdeal.nD Cert.KernelIdeal.τ).loc Cert.KernelIdeal.main_arg5) : Cert.KernelIdeal.S1024.Idx → EReal))
      (cur2 (m ((c.tc : Thread Cert.KernelIdeal.nD Cert.KernelIdeal.τ).loc Cert.KernelIdeal.main_arg6) : Cert.KernelIdeal.S1024x1024.Idx → EReal))
      (cur1 (m ((c.tc : Thread Cert.KernelIdeal.nD Cert.KernelIdeal.τ).loc Cert.KernelIdeal.main_arg7) : Cert.KernelIdeal.S1024.Idx → EReal))
      (cur2 (m ((c.tc : Thread Cert.KernelIdeal.nD Cert.KernelIdeal.τ).loc Cert.KernelIdeal.main_arg8) : Cert.KernelIdeal.S1024x1024.Idx → EReal))
      (cur1 (m ((c.tc : Thread Cert.KernelIdeal.nD Cert.KernelIdeal.τ).loc Cert.KernelIdeal.main_arg9) : Cert.KernelIdeal.S1024.Idx → EReal))
      (cur1 (m ((c.tc : Thread Cert.KernelIdeal.nD Cert.KernelIdeal.τ).loc Cert.KernelIdeal.main_arg10) : Cert.KernelIdeal.S1024.Idx → EReal))
      (cur1 (m ((c.tc : Thread Cert.KernelIdeal.nD Cert.KernelIdeal.τ).loc Cert.KernelIdeal.main_arg11) : Cert.KernelIdeal.S1024.Idx → EReal))), ?_, ?_⟩
  · exact (θ_run Cert.KernelIdeal.defs _ _).mono
      (fun r h c => ⟨(h c).1.trans (Cert.KernelIdeal.Chain.result_value m ρ c), (h c).2⟩)
      (Cert.KernelIdeal.ValueRun.run (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.RefValue.result_value m' c).trans ?_
    obtain ⟨e0, e1, e2, e3, e4, e5, e6, e7, e8, e9, e10, e11⟩ := hagree c
    rw [e0, e1, e2, e3, e4, e5, e6, e7, e8, e9, e10, e11]
    obtain ⟨h0, h1, h2, h3, h4, h5⟩ := Cert.Finite.real_args m hpre c
    exact congrArg unc3 (kernelOut_eq_refOut _ _ _ _ _ word_eighth word_eight guard_value _ _ _ _ _ _ _ _ _ _ _ _
      h0 h1 h2 h3 h4 h5).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
